-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_v12) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S4095x4096 : Shape := ⟨2, ![4095, 4096]⟩
abbrev S1x4096 : Shape := ⟨2, ![1, 4096]⟩
abbrev S32x4096 : Shape := ⟨2, ![32, 4096]⟩
abbrev S31x4096 : Shape := ⟨2, ![31, 4096]⟩
abbrev S32x4095 : Shape := ⟨2, ![32, 4095]⟩
abbrev S32x1 : Shape := ⟨2, ![32, 1]⟩
abbrev S1x1 : Shape := ⟨2, ![1, 1]⟩
abbrev S64x4096 : Shape := ⟨2, ![64, 4096]⟩
abbrev S64 : Shape := ⟨1, ![64]⟩
abbrev S64x1 : Shape := ⟨2, ![64, 1]⟩
abbrev S1 : Shape := ⟨1, ![1]⟩
abbrev S_ : Shape := ⟨0, ![]⟩
abbrev S4096x12288 : Shape := ⟨2, ![4096, 12288]⟩

abbrev nBuf : Space → Nat
  | .hbm => 23
  | .vmem => 38
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4095x4096, .f32⟩
  | .hbm, ⟨4, _⟩ => ⟨S1x4096, .f32⟩
  | .hbm, ⟨5, _⟩ => ⟨S4096x4096, .f32⟩
  | .hbm, ⟨6, _⟩ => ⟨S4095x4096, .f32⟩
  | .hbm, ⟨7, _⟩ => ⟨S1x4096, .f32⟩
  | .hbm, ⟨8, _⟩ => ⟨S4096x4096, .f32⟩
  | .hbm, ⟨9, _⟩ => ⟨S4095x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x12288, .f32⟩
  | .local _ .vmem, ⟨0, _⟩ => ⟨S32x4096, .f32⟩
  | .local _ .vmem, ⟨1, _⟩ => ⟨S32x4096, .f32⟩
  | .local _ .vmem, ⟨2, _⟩ => ⟨S32x4096, .f32⟩
  | .local _ .vmem, ⟨3, _⟩ => ⟨S32x4096, .f32⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | .local _ .vmem, ⟨16, _⟩ => ⟨S32x4096, .f32⟩
  | .local _ .vmem, ⟨17, _⟩ => ⟨S32x4096, .f32⟩
  | .local _ .vmem, ⟨18, _⟩ => ⟨S32x4096, .f32⟩
  | .local _ .vmem, ⟨19, _⟩ => ⟨S32x4096, .f32⟩
  | .local _ .vmem, ⟨20, _⟩ => ⟨S32x4096, .f32⟩
  | .local _ .vmem, ⟨21, _⟩ => ⟨S32x4096, .f32⟩
  | .local _ .vmem, ⟨22, _⟩ => ⟨S32x4096, .f32⟩
  | .local _ .vmem, ⟨23, _⟩ => ⟨S32x4096, .f32⟩
  | .local _ .vmem, ⟨24, _⟩ => ⟨S64x4096, .f32⟩
  | .local _ .vmem, ⟨25, _⟩ => ⟨S64x4096, .f32⟩
  | .local _ .vmem, ⟨26, _⟩ => ⟨S64x4096, .f32⟩
  | .local _ .vmem, ⟨27, _⟩ => ⟨S64x4096, .f32⟩
  | .local _ .vmem, ⟨28, _⟩ => ⟨S64x4096, .f32⟩
  | .local _ .vmem, ⟨29, _⟩ => ⟨S64x4096, .f32⟩
  | .local _ .vmem, ⟨30, _⟩ => ⟨S64x4096, .f32⟩
  | .local _ .vmem, ⟨31, _⟩ => ⟨S64x4096, .f32⟩
  | .local _ .vmem, ⟨32, _⟩ => ⟨S64x4096, .f32⟩
  | .local _ .vmem, ⟨33, _⟩ => ⟨S64x4096, .f32⟩
  | .local _ .vmem, ⟨34, _⟩ => ⟨S64x4096, .f32⟩
  | .local _ .vmem, ⟨35, _⟩ => ⟨S64x4096, .f32⟩
  | .local _ .vmem, ⟨36, _⟩ => ⟨S1x1, .f32⟩
  | .local _ .vmem, ⟨37, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev main_v9_5 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v39 : BitVec 1 := Scalar.cmpi .eq arg0 c63_i32
  let v40 : BitVec 32 := Scalar.extui v39
  let c0_i32_22 : BitVec 32 := 0#32
  let v41 : BitVec 1 := Scalar.cmpi .ne v40 c0_i32_22
  v41

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S4096x4096_S4095x4096_1_0 : S4096x4096.Slices ![1, 0] S4095x4096
  slices_S4096x4096_S1x4096_4095_0 : S4096x4096.Slices ![4095, 0] S1x4096
  concatenates_S4095x4096_S1x4096_S4096x4096_d0 : Shape.Concatenates [S4095x4096, S1x4096] S4096x4096 0
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  natLt_1_32 : 1 < 32
  slices_S32x4096_o0_0_S31x4096 : S32x4096.Slices ![0, 0] S31x4096
  slices_S32x4096_o30_0_S1x4096 : S32x4096.Slices ![30, 0] S1x4096
  concatenates_S31x4096_S1x4096_S32x4096_d0 : Shape.Concatenates [S31x4096, S1x4096] S32x4096 0
  slices_S32x4096_o0_1_S32x4095 : S32x4096.Slices ![0, 1] S32x4095
  slices_S32x4096_o0_4095_S32x1 : S32x4096.Slices ![0, 4095] S32x1
  concatenates_S32x4095_S32x1_S32x4096_d1 : Shape.Concatenates [S32x4095, S32x1] S32x4096 1
  slices_S32x4096_o0_0_S32x4095 : S32x4096.Slices ![0, 0] S32x4095
  slices_S32x4096_o0_4094_S32x1 : S32x4096.Slices ![0, 4094] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  reduces_S64x4096_S64 : S64x4096.Reduces [1] S64
  shapeCasts_S64_S64x1 : S64.ShapeCasts S64x1
  reduces_S64x1_S1 : S64x1.Reduces [0] S1
  shapeCasts_S1_S1x1 : S1.ShapeCasts S1x1
  shapeCasts_S1x1_S_ : S1x1.ShapeCasts S_
  bcast_S_S4096x4096 : S_.BroadcastsInDim S4096x4096 (![] : Fin 0 → Fin S4096x4096.rank)
  concatenates_S4096x4096_S4096x4096_S4096x4096_S4096x12288_d1 : Shape.Concatenates [S4096x4096, S4096x4096, S4096x4096] S4096x12288 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S4096x4096.size a
  hwx0_0 : ∀ i : grid0.Coords, EltTy.bits .f32 = 32 ∨ (Rect.block (s := S4096x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S4096x4096.size a
  hwx0_1 : ∀ i : grid0.Coords, EltTy.bits .f32 = 32 ∨ (Rect.block (s := S4096x4096) S32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S4096x4096.size a
  hwx0_2 : ∀ i : grid0.Coords, EltTy.bits .f32 = 32 ∨ (Rect.block (s := S4096x4096) S32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S4096x4096.size a
  hwx0_3 : ∀ i : grid0.Coords, EltTy.bits .f32 = 32 ∨ (Rect.block (s := S4096x4096) S32x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x4096.size a ≤ S4096x4096.size a
  hwx0_4 : ∀ i : grid0.Coords, EltTy.bits .f32 = 32 ∨ (Rect.block (s := S4096x4096) S32x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x4096.size a ≤ S4096x4096.size a
  hwx0_5 : ∀ i : grid0.Coords, EltTy.bits .f32 = 32 ∨ (Rect.block (s := S4096x4096) S32x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x4096.size a ≤ S4096x4096.size a
  hwx0_6 : ∀ i : grid0.Coords, EltTy.bits .f32 = 32 ∨ (Rect.block (s := S4096x4096) S32x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x4096.size a ≤ S4096x4096.size a
  hwx0_7 : ∀ i : grid0.Coords, EltTy.bits .f32 = 32 ∨ (Rect.block (s := S4096x4096) S32x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x4096.size a ≤ S4096x4096.size a
  hwx0_8 : ∀ i : grid0.Coords, EltTy.bits .f32 = 32 ∨ (Rect.block (s := S4096x4096) S32x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x4096.size a ≤ S4096x4096.size a
  hwx0_9 : ∀ i : grid0.Coords, EltTy.bits .f32 = 32 ∨ (Rect.block (s := S4096x4096) S32x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x4096.size a ≤ S4096x4096.size a
  hwx0_10 : ∀ i : grid0.Coords, EltTy.bits .f32 = 32 ∨ (Rect.block (s := S4096x4096) S32x4096.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x4096.size a ≤ S4096x4096.size a
  hwx0_11 : ∀ i : grid0.Coords, EltTy.bits .f32 = 32 ∨ (Rect.block (s := S4096x4096) S32x4096.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S4096x4096.size a
  hwx1_0 : ∀ i : grid1.Coords, EltTy.bits .f32 = 32 ∨ (Rect.block (s := S4096x4096) S64x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S4096x4096.size a
  hwx1_1 : ∀ i : grid1.Coords, EltTy.bits .f32 = 32 ∨ (Rect.block (s := S4096x4096) S64x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x4096.size a ≤ S4096x4096.size a
  hwx1_2 : ∀ i : grid1.Coords, EltTy.bits .f32 = 32 ∨ (Rect.block (s := S4096x4096) S64x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x4096.size a ≤ S4096x4096.size a
  hwx1_3 : ∀ i : grid1.Coords, EltTy.bits .f32 = 32 ∨ (Rect.block (s := S4096x4096) S64x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x4096.size a ≤ S4096x4096.size a
  hwx1_4 : ∀ i : grid1.Coords, EltTy.bits .f32 = 32 ∨ (Rect.block (s := S4096x4096) S64x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x4096.size a ≤ S4096x4096.size a
  hwx1_5 : ∀ i : grid1.Coords, EltTy.bits .f32 = 32 ∨ (Rect.block (s := S4096x4096) S64x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

abbrev win0_0 : Pipeline.Window sig grid0 :=
  Pipeline.Window.ofSpec (Memref.whole main_arg0) S32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S32x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S32x4096.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_2) S32x4096.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_3) S32x4096.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_4) S32x4096.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_5) S32x4096.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v9_0) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S64x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_3) S64x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_4) S64x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_5) S64x4096.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096x1 : Shape := ⟨2, ![4096, 1]⟩
abbrev S4096x4097 : Shape := ⟨2, ![4096, 4097]⟩
abbrev S1x4096 : Shape := ⟨2, ![1, 4096]⟩
abbrev S4097x4096 : Shape := ⟨2, ![4097, 4096]⟩
abbrev S4096x4095 : Shape := ⟨2, ![4096, 4095]⟩
abbrev S4095x4096 : Shape := ⟨2, ![4095, 4096]⟩
abbrev S4096x12288 : Shape := ⟨2, ![4096, 12288]⟩

abbrev nBuf : Space → Nat
  | .hbm => 92
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1, .f32⟩
  | .hbm, ⟨10, _⟩ => ⟨S4096x4097, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S1x4096, .f32⟩
  | .hbm, ⟨15, _⟩ => ⟨S4097x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x1, .f32⟩
  | .hbm, ⟨20, _⟩ => ⟨S4096x4097, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S1x4096, .f32⟩
  | .hbm, ⟨25, _⟩ => ⟨S4097x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4095, .f32⟩
  | .hbm, ⟨30, _⟩ => ⟨S4096x4095, .f32⟩
  | .hbm, ⟨31, _⟩ => ⟨S4096x4095, .f32⟩
  | .hbm, ⟨32, _⟩ => ⟨S4096x1, .f32⟩
  | .hbm, ⟨33, _⟩ => ⟨S4096x4096, .f32⟩
  | .hbm, ⟨34, _⟩ => ⟨S4095x4096, .f32⟩
  | .hbm, ⟨35, _⟩ => ⟨S4095x4096, .f32⟩
  | .hbm, ⟨36, _⟩ => ⟨S4095x4096, .f32⟩
  | .hbm, ⟨37, _⟩ => ⟨S1x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .i1⟩
  | .hbm, ⟨42, _⟩ => ⟨S_, .f32⟩
  | .hbm, ⟨43, _⟩ => ⟨S4096x4096, .f32⟩
  | .hbm, ⟨44, _⟩ => ⟨S4096x4096, .i1⟩
  | .hbm, ⟨45, _⟩ => ⟨S4096x4096, .i1⟩
  | .hbm, ⟨46, _⟩ => ⟨S_, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4096x4096, .f32⟩
  | .hbm, ⟨91, _⟩ => ⟨S4096x12288, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v8 : Ref sig .tc := ⟨.hbm, 18, rfl⟩
abbrev main_v9 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_v10 : Ref sig .tc := ⟨.hbm, 23, rfl⟩
abbrev main_v11 : Ref sig .tc := ⟨.hbm, 24, rfl⟩
abbrev main_call3_v0 : Ref sig .tc := ⟨.hbm, 25, rfl⟩
abbrev main_call3_v1 : Ref sig .tc := ⟨.hbm, 26, rfl⟩
abbrev main_call3_v2 : Ref sig .tc := ⟨.hbm, 27, rfl⟩
abbrev main_v12 : Ref sig .tc := ⟨.hbm, 28, rfl⟩
abbrev main_call4_v0 : Ref sig .tc := ⟨.hbm, 29, rfl⟩
abbrev main_call4_v1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call5_v0 : Ref sig .tc := ⟨.hbm, 34, rfl⟩
abbrev main_call5_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_call6_v0 : Ref sig .tc := ⟨.hbm, 47, rfl⟩
abbrev main_call6_v1 : Ref sig .tc := ⟨.hbm, 48, rfl⟩
abbrev main_v24 : Ref sig .tc := ⟨.hbm, 49, rfl⟩
abbrev main_cst_3 : Ref sig .tc := ⟨.hbm, 50, rfl⟩
abbrev main_call7_v0 : Ref sig .tc := ⟨.hbm, 51, rfl⟩
abbrev main_call7_v1 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_cst_8 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_9 : Ref sig .tc := ⟨.hbm, 84, rfl⟩
abbrev main_v51 : Ref sig .tc := ⟨.hbm, 85, rfl⟩
abbrev main_cst_10 : Ref sig .tc := ⟨.hbm, 86, rfl⟩
abbrev main_v52 : Ref sig .tc := ⟨.hbm, 87, rfl⟩
abbrev main_v53 : Ref sig .tc := ⟨.hbm, 88, rfl⟩
abbrev main_cst_11 : Ref sig .tc := ⟨.hbm, 89, rfl⟩
abbrev main_v54 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S4096x4096_S4096x1_0_4095 : S4096x4096.Slices ![0, 4095] S4096x1
  concatenates_S4096x4096_S4096x1_S4096x4097_d1 : Shape.Concatenates [S4096x4096, S4096x1] S4096x4097 1
  slices_S4096x4097_S4096x4096_0_1 : S4096x4097.Slices ![0, 1] S4096x4096
  slices_S4096x4097_S4096x4096_0_0 : S4096x4097.Slices ![0, 0] S4096x4096
  slices_S4096x4096_S1x4096_4095_0 : S4096x4096.Slices ![4095, 0] S1x4096
  concatenates_S4096x4096_S1x4096_S4097x4096_d0 : Shape.Concatenates [S4096x4096, S1x4096] S4097x4096 0
  slices_S4097x4096_S4096x4096_1_0 : S4097x4096.Slices ![1, 0] S4096x4096
  slices_S4097x4096_S4096x4096_0_0 : S4097x4096.Slices ![0, 0] S4096x4096
  slices_S4096x4096_S4096x4095_0_1 : S4096x4096.Slices ![0, 1] S4096x4095
  slices_S4096x4096_S4096x4095_0_0 : S4096x4096.Slices ![0, 0] S4096x4095
  slices_S4096x4095_S4096x1_0_4094 : S4096x4095.Slices ![0, 4094] S4096x1
  concatenates_S4096x4095_S4096x1_S4096x4096_d1 : Shape.Concatenates [S4096x4095, S4096x1] S4096x4096 1
  slices_S4096x4096_S4095x4096_1_0 : S4096x4096.Slices ![1, 0] S4095x4096
  slices_S4096x4096_S4095x4096_0_0 : S4096x4096.Slices ![0, 0] S4095x4096
  slices_S4095x4096_S1x4096_4094_0 : S4095x4096.Slices ![4094, 0] S1x4096
  concatenates_S4095x4096_S1x4096_S4096x4096_d0 : Shape.Concatenates [S4095x4096, S1x4096] S4096x4096 0
  reducesTo_S4096x4096_S_d0_1 : S4096x4096.ReducesTo [0, 1] S_
  h_S_ : 0 < S_.numel
  concatenates_S4096x4096_S4096x4096_S4096x4096_S4096x12288_d1 : Shape.Concatenates [S4096x4096, S4096x4096, S4096x4096] S4096x12288 1

variable [Facts₀]

class Facts : Prop extends Facts₀ where

variable [Facts]
-- ==== Proof.K.R0Defs.lean ====
/-
  Region 0 (the elementwise kernel over 128 blocks of 32 rows): what each of its six output blocks holds after the body
  as a function of the six input blocks and the grid position, and the region's proof data at any entry contents `V`.
  The six inputs are the target, the mask, the source and their copies moved up by one row; the outputs are, in window
  order, the two weights, the target's two differences zeroed on the mask's edges, and the masked source's two differences.
-/
import proofs.«173863_j34935263986322_1_alg».proof.Proof.Gen.Kernel.Launch
import proofs.«173863_j34935263986322_1_alg».proof.Proof.Gen.Kernel.Skeleton
import proofs.«173863_j34935263986322_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle every load and store of the body goes through: the whole 32 × 4096 block. -/
abbrev rb0 : Rect S32x4096 := Rect.unit (s := S32x4096) ![0, 0] S32x4096.size inb_S32x4096_S32x4096_0_0

section Outs
variable (i : grid0.Coords) (x0 x1 x2 x3 x4 x5 : Vec F S32x4096 .f32)

/-- The weight along a row: effective mask times the exponential of the scaled masked-source quotient. -/
def out0_6 : Vec F S32x4096 .f32 :=
  View.canon [⟨rb0, k0_pay5 (k0_pay8 (View.ld x1 rb0) (View.ld x2 rb0)) (k0_pay9 (View.ld x1 rb0) (View.ld x2 rb0)) (k0_pay15 (View.ld x1 rb0) (View.ld x2 rb0))⟩]
/-- The weight along a column. -/
def out0_7 : Vec F S32x4096 .f32 :=
  View.canon [⟨rb0, k0_pay6 (k0_pay8 (View.ld x1 rb0) (View.ld x2 rb0)) (k0_pay9 (View.ld x1 rb0) (View.ld x2 rb0)) (k0_pay12 (View.ld x1 rb0) (View.ld x2 rb0) (View.ld x4 rb0) (View.ld x5 rb0))⟩]
/-- The target's difference along a row, zeroed where the effective mask has an edge. -/
def out0_8 : Vec F S32x4096 .f32 :=
  View.canon [⟨rb0, k0_pay2 (k0_pay13 i (View.ld x1 rb0) (View.ld x2 rb0) (View.ld x4 rb0) (View.ld x5 rb0)) (k0_pay14 (View.ld x0 rb0)) (k0_pay16 (View.ld x1 rb0) (View.ld x2 rb0))⟩]
/-- The target's difference along a column, zeroed where the effective mask has an edge. -/
def out0_9 : Vec F S32x4096 .f32 :=
  View.canon [⟨rb0, k0_pay3 (k0_pay11 (View.ld x0 rb0) (View.ld x3 rb0)) (k0_pay13 i (View.ld x1 rb0) (View.ld x2 rb0) (View.ld x4 rb0) (View.ld x5 rb0)) (k0_pay16 (View.ld x1 rb0) (View.ld x2 rb0))⟩]
/-- The masked source's difference along a row. -/
def out0_10 : Vec F S32x4096 .f32 :=
  View.canon [⟨rb0, k0_pay15 (View.ld x1 rb0) (View.ld x2 rb0)⟩]
/-- The masked source's difference along a column. -/
def out0_11 : Vec F S32x4096 .f32 :=
  View.canon [⟨rb0, k0_pay12 (View.ld x1 rb0) (View.ld x2 rb0) (View.ld x4 rb0) (View.ld x5 rb0)⟩]

end Outs

/-- The proof data of region 0 on core `c`: the arrays as the region finds them; after the body at point `t` each
    input's buffer at its block and each output's at its function of the six input blocks; the scoped rest and the
    generator register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 1 t) (iblk0 V c 2 t)
    | ⟨7, _⟩ => out0_7 (iblk0 V c 1 t) (iblk0 V c 2 t) (iblk0 V c 4 t) (iblk0 V c 5 t)
    | ⟨8, _⟩ => out0_8 (grid0.coords t) (iblk0 V c 0 t) (iblk0 V c 1 t) (iblk0 V c 2 t) (iblk0 V c 4 t) (iblk0 V c 5 t)
    | ⟨9, _⟩ => out0_9 (grid0.coords t) (iblk0 V c 0 t) (iblk0 V c 1 t) (iblk0 V c 2 t) (iblk0 V c 3 t) (iblk0 V c 4 t) (iblk0 V c 5 t)
    | ⟨10, _⟩ => out0_10 (iblk0 V c 1 t) (iblk0 V c 2 t)
    | ⟨11, _⟩ => out0_11 (iblk0 V c 1 t) (iblk0 V c 2 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 1 t) (iblk0 V c 2 t) := by dsimp only [dat0]
theorem after0_7 (c : Dev nD) (t : Fin cfg0.N) : (dat0 V c).after 7 t = out0_7 (iblk0 V c 1 t) (iblk0 V c 2 t) (iblk0 V c 4 t) (iblk0 V c 5 t) := by dsimp only [dat0]
theorem after0_8 (c : Dev nD) (t : Fin cfg0.N) : (dat0 V c).after 8 t = out0_8 (grid0.coords t) (iblk0 V c 0 t) (iblk0 V c 1 t) (iblk0 V c 2 t) (iblk0 V c 4 t) (iblk0 V c 5 t) := by dsimp only [dat0]
theorem after0_9 (c : Dev nD) (t : Fin cfg0.N) : (dat0 V c).after 9 t = out0_9 (grid0.coords t) (iblk0 V c 0 t) (iblk0 V c 1 t) (iblk0 V c 2 t) (iblk0 V c 3 t) (iblk0 V c 4 t) (iblk0 V c 5 t) := by dsimp only [dat0]
theorem after0_10 (c : Dev nD) (t : Fin cfg0.N) : (dat0 V c).after 10 t = out0_10 (iblk0 V c 1 t) (iblk0 V c 2 t) := by dsimp only [dat0]
theorem after0_11 (c : Dev nD) (t : Fin cfg0.N) : (dat0 V c).after 11 t = out0_11 (iblk0 V c 1 t) (iblk0 V c 2 t) (iblk0 V c 4 t) (iblk0 V c 5 t) := by dsimp only [dat0]

end Cert.Kernel.Hand

end
-- ==== Proof.K.R0Body.lean ====
/-
  Region 0's body obligation: at every grid point the elementwise kernel, handed the six input blocks, leaves each of
  its six output buffers at the stated function of them (one whole-block store each), the inputs untouched.
-/
import proofs.«173863_j34935263986322_1_alg».proof.Proof.Gen.Kernel.Launch
import proofs.«173863_j34935263986322_1_alg».proof.Proof.Gen.Kernel.Skeleton
import proofs.«173863_j34935263986322_1_alg».proof.Proof.Gen.Kernel.Points
import proofs.«173863_j34935263986322_1_alg».proof.Proof.K.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks

An input window is fetched whole and never cut, so whichever of its buffers is current at a point holds the block
the window's index map picks there, whether the point fetched it or the index had not moved. -/

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, for any proof data whose array is the
    entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, for any proof data whose array is the
    entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point, for any proof data whose array is the
    entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point, for any proof data whose array is the
    entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_4 (c : Dev nD) (t : Fin cfg0.N) (d) : (dat0 V c).before 4 t d = iblk0 V c 4 t :=
  before0_4_of V (dat0 V c) (A_eq0 V c 4) (after0_4 V c) t d

/-- Input window 5's current staging buffer holds its block at every point, for any proof data whose array is the
    entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_5 (c : Dev nD) (t : Fin cfg0.N) (d) : (dat0 V c).before 5 t d = iblk0 V c 5 t :=
  before0_5_of V (dat0 V c) (A_eq0 V c 5) (after0_5 V c) t d

/-! ## One whole-block store covers the buffer -/

/-- The whole-block rectangle tiles the 32 × 4096 buffer, so a single store through it covers every cell. -/
theorem cover0 (p0 : Vec F S32x4096 .f32) (y : S32x4096.Idx) :
    ∃ pc ∈ ([⟨rb0, p0⟩] : List (View.Piece (Elt F) S32x4096 .f32)), y ∈ pc.1.set :=
  View.cover_of_tiled [⟨rb0, p0⟩] S32x4096.size (by rfl) y

/-! ## The body's triple -/

set_option maxHeartbeats 4000000 in
/-- The kernel body at grid position `i`, on whole staging memrefs with the inputs' at contents `x0 … x5` and the
    outputs' at anything, runs to the continuation holding the inputs' as they were and each output's at its stated
    function of the inputs': the body reads the six inputs once each, then reads each output buffer (the value
    goes unused) and overwrites it whole. -/
theorem sound_kernel0 (c : Dev nD) (E : Set ℕ) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S32x4096 .f32) (harg4 : arg4.IsWhole) (arg5 : Memref sig .tc .vmem S32x4096 .f32) (harg5 : arg5.IsWhole) (arg6 : Memref sig .tc .vmem S32x4096 .f32) (harg6 : arg6.IsWhole) (arg7 : Memref sig .tc .vmem S32x4096 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x4096 .f32) (harg10 : arg10.IsWhole) (arg11 : Memref sig .tc .vmem S32x4096 .f32) (harg11 : arg11.IsWhole) (arg12 : Memref sig .tc .vmem S32x4096 .f32) (harg12 : arg12.IsWhole)
    (x0 x1 x2 x3 x4 x5 : Vec F S32x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x1 x2) ∗ owns (c : Thread nD τ) arg8 fullShare (out0_7 x1 x2 x4 x5) ∗ owns (c : Thread nD τ) arg9 fullShare (out0_8 i x0 x1 x2 x4 x5) ∗ owns (c : Thread nD τ) arg10 fullShare (out0_9 i x0 x1 x2 x3 x4 x5) ∗ owns (c : Thread nD τ) arg11 fullShare (out0_10 x1 x2) ∗ owns (c : Thread nD τ) arg12 fullShare (out0_11 x1 x2 x4 x5)) -∗ K ⟨⟩))
      ⊢ wp frame (wpE (defs₀ (F := F)) Variants.none c none) E (cc0__ew_kernel i arg1 harg1 arg2 harg2 arg3 harg3 arg4 harg4 arg5 harg5 arg6 harg6 arg7 harg7 arg8 harg8 arg9 harg9 arg10 harg10 arg11 harg11 arg12 harg12) K := by
  simp only [cc0__ew_kernel_eq_skeleton]; unfold cc0__ew_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  isplitl [H9]
  · iexists _; isplitr
    swap; · iexact H9
    ipureintro
    exact View.read_writes_eq_canon _ _ _ (cover0 _)
  isplitl [H10]
  · iexists _; isplitr
    swap; · iexact H10
    ipureintro
    exact View.read_writes_eq_canon _ _ _ (cover0 _)
  iexists _; isplitr
  swap; · iexact H11
  ipureintro
  exact View.read_writes_eq_canon _ _ _ (cover0 _)

/-! ## The body obligation, at a generic point -/

/-- What the body is called with at point `t`: the invariant, what is owed, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What it returns: the same invariant and debt, each window's buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' buffers hold their blocks, so the body's triple applies at the point's grid
    position; the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Defs.lean ====
/-
  Region 1 (the loss kernel over 64 blocks of 64 rows): a 1 × 1 scratch accumulator is reset at the first point, takes
  at every point the block's partial sum — the squared weighted residuals summed along each row in both directions, the
  two row sums added, the result summed over the block's rows —, and at the last point its value divided by the number of
  entries is stored into the 1 × 1 output. This module states what the scratch holds after each point (`accAt`), the
  output's contents, and the region's proof data at any entry contents `V`.
-/
import proofs.«173863_j34935263986322_1_alg».proof.Proof.Gen.Kernel.Launch
import proofs.«173863_j34935263986322_1_alg».proof.Proof.Gen.Kernel.Skeleton
import proofs.«173863_j34935263986322_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator, a whole scoped buffer of the kernel's own. -/
abbrev scM1 : Memref sig .tc .vmem S1x1 .f32 := Memref.whole cc1_scratch0

/-- The partial sum of point `t`: the body's reduction of the six input blocks there (the two weights are each loaded twice). -/
def part1 (c : Dev nD) (t : Fin cfg1.N) : Vec F S1x1 .f32 :=
  k1_pay4 (iblk1 V c 0 t) (iblk1 V c 2 t) (iblk1 V c 0 t) (iblk1 V c 4 t) (iblk1 V c 1 t) (iblk1 V c 3 t) (iblk1 V c 1 t) (iblk1 V c 5 t)

/-- What the scratch accumulator holds after point `n`: the zero block plus the first partial sum, then each later partial
    sum added to what the point before left. -/
def accAt (c : Dev nD) : (n : ℕ) → n < cfg1.N → Vec F S1x1 .f32
  | 0, h => k1_pay1 (part1 V c ⟨0, h⟩) (k1_pay3 (F := F))
  | n + 1, h => k1_pay1 (part1 V c ⟨n + 1, h⟩) (accAt c n (Nat.lt_of_succ_lt h))

theorem accAt_zero (c : Dev nD) (h : 0 < cfg1.N) : accAt V c 0 h = k1_pay1 (part1 V c ⟨0, h⟩) (k1_pay3 (F := F)) := rfl
theorem accAt_succ (c : Dev nD) (n : ℕ) (h : n + 1 < cfg1.N) :
    accAt V c (n + 1) h = k1_pay1 (part1 V c ⟨n + 1, h⟩) (accAt V c n (Nat.lt_of_succ_lt h)) := rfl

/-- The region invariant before position `n`: before the first point every scoped buffer at anything; afterwards the
    accumulator at what the point before left, the other scoped buffers at anything; the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt V c n hn)
      ∗ Pipeline.scopedRestBut (Ix := Unit) (Name := ℕ) (U := UR sig nD τ) (Lvl := ℕ) (Val := Elt F) spec1 c [cc1_scratch0]) ∗ (∃ r, prngReg c r))

/-- The proof data of region 1 on core `c`: the arrays as the region finds them; after the body at point `t` each
    input's buffer at its block and the output's at the accumulator's value there divided by the number of entries (read
    only at the last point: at the others the output's buffer is left as found); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (accAt V c t.val t.isLt)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay2 (accAt V c t.val t.isLt) := by dsimp only [dat1]

end Cert.Kernel.Hand

end
-- ==== Proof.K.R1Body.lean ====
/-
  Region 1's body obligation: at every grid point the loss kernel, handed the six input blocks and the accumulator as the
  point before left it (anything at the first point, where it is reset), leaves the accumulator at this point's running
  sum and, at the last point only, stores the mean into the output's buffer; elsewhere that buffer is left as found.
-/
import proofs.«173863_j34935263986322_1_alg».proof.Proof.Gen.Kernel.Launch
import proofs.«173863_j34935263986322_1_alg».proof.Proof.Gen.Kernel.Skeleton
import proofs.«173863_j34935263986322_1_alg».proof.Proof.Gen.Kernel.Points
import proofs.«173863_j34935263986322_1_alg».proof.Proof.K.R1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer access, however spelt. -/
theorem hz1 : (![0, 0] : Fin 2 → Nat) = fun _ => 0 := funext fun a => by fin_cases a <;> rfl

/-- The first conditional's condition (the point is the first), from the grid coordinates. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second conditional's condition (the point is the last). -/
abbrev cond1_1 (i : grid1.Coords) : Prop := k1_cond2 i = 1#1
theorem hcond1_1 : ∀ t : Fin cfg1.N, cond1_1 (grid1.coords t) ↔ t.val = 63 :=
  (by decide +kernel : ∀ t : Fin grid1.N, cond1_1 (grid1.coords t) ↔ t.val = 63)

set_option maxHeartbeats 4000000 in
/-- The body at the first point: the accumulator, found at anything, is reset and takes the point's partial sum; the
    output's buffer is left as found. -/
theorem run1_first (c : Dev nD) (i : grid1.Coords) (arg1 : Memref sig .tc .vmem S64x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x4096 .f32) (harg6 : arg6.IsWhole) (arg7 : Memref sig .tc .vmem S1x1 .f32) (harg7 : arg7.IsWhole) (arg8 : Memref sig .tc .vmem S1x1 .f32) (harg8 : arg8.IsWhole)
    (hc0 : cond1_0 i) (hc1 : ¬cond1_1 i)
    (x0 x1 x2 x3 x4 x5 : Vec F S64x4096 .f32) (xi6 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare xi6
            ∗ owns (c : Thread nD τ) arg8 fullShare (k1_pay1 (k1_pay4 x0 x2 x0 x4 x1 x3 x1 x5) (k1_pay3 (F := F)))) -∗ K ⟨⟩))
      ⊢ wp frame (wpE (defs₀ (F := F)) Variants.none c none) E (cc1__loss_kernel i arg1 harg1 arg2 harg2 arg3 harg3 arg4 harg4 arg5 harg5 arg6 harg6 arg7 harg7 arg8 harg8) K := by
  simp only [cc1__loss_kernel_eq_skeleton]; unfold cc1__loss_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  sl_unfold_words
  rw [View.read_writes_eq_canon _ _ _ (fun y => ⟨_, List.mem_cons_self, View.mem_set_unit_zero (S := S1x1) hz1 inb_S1x1_S1x1_0_0 y⟩)]
  rw [View.canon_cons_unit_zero (S := S1x1) hz1]
  simp only [View.readAt_eq_ld, harg1.read_unread, harg2.read_unread, harg3.read_unread, harg4.read_unread, harg5.read_unread, harg6.read_unread,
    View.ld_unit_zero (S := S64x4096) hz1, View.readCov_unit_zero (S := S1x1) _ hz1]

set_option maxHeartbeats 4000000 in
/-- The body at a point neither first nor last: the accumulator, found at what the point before left, takes the point's
    partial sum; the output's buffer is left as found. -/
theorem run1_mid (c : Dev nD) (i : grid1.Coords) (arg1 : Memref sig .tc .vmem S64x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x4096 .f32) (harg6 : arg6.IsWhole) (arg7 : Memref sig .tc .vmem S1x1 .f32) (harg7 : arg7.IsWhole) (arg8 : Memref sig .tc .vmem S1x1 .f32) (harg8 : arg8.IsWhole)
    (hc0 : ¬cond1_0 i) (hc1 : ¬cond1_1 i)
    (x0 x1 x2 x3 x4 x5 : Vec F S64x4096 .f32) (xi6 : Vec F S1x1 .f32) (xs0 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare xs0
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare xi6
            ∗ owns (c : Thread nD τ) arg8 fullShare (k1_pay1 (k1_pay4 x0 x2 x0 x4 x1 x3 x1 x5) xs0)) -∗ K ⟨⟩))
      ⊢ wp frame (wpE (defs₀ (F := F)) Variants.none c none) E (cc1__loss_kernel i arg1 harg1 arg2 harg2 arg3 harg3 arg4 harg4 arg5 harg5 arg6 harg6 arg7 harg7 arg8 harg8) K := by
  simp only [cc1__loss_kernel_eq_skeleton]; unfold cc1__loss_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  sl_unfold_words
  rw [View.read_writes_eq_canon _ _ _ (fun y => ⟨_, List.mem_cons_self, View.mem_set_unit_zero (S := S1x1) hz1 inb_S1x1_S1x1_0_0 y⟩)]
  rw [View.canon_cons_unit_zero (S := S1x1) hz1]
  simp only [View.readAt_eq_ld, harg1.read_unread, harg2.read_unread, harg3.read_unread, harg4.read_unread, harg5.read_unread, harg6.read_unread, harg8.read_unread,
    View.ld_unit_zero (S := S64x4096) hz1, View.ld_unit_zero (S := S1x1) hz1, View.readCov_unit_zero (S := S1x1) _ hz1]

set_option maxHeartbeats 4000000 in
/-- The body at the last point: the accumulator, found at what the point before left, takes the point's partial sum, and
    its value divided by the number of entries is stored into the output's buffer, found at anything. -/
theorem run1_last (c : Dev nD) (i : grid1.Coords) (arg1 : Memref sig .tc .vmem S64x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x4096 .f32) (harg6 : arg6.IsWhole) (arg7 : Memref sig .tc .vmem S1x1 .f32) (harg7 : arg7.IsWhole) (arg8 : Memref sig .tc .vmem S1x1 .f32) (harg8 : arg8.IsWhole)
    (hc0 : ¬cond1_0 i) (hc1 : cond1_1 i)
    (x0 x1 x2 x3 x4 x5 : Vec F S64x4096 .f32) (xs0 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs0
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay2 (k1_pay1 (k1_pay4 x0 x2 x0 x4 x1 x3 x1 x5) xs0))
            ∗ owns (c : Thread nD τ) arg8 fullShare (k1_pay1 (k1_pay4 x0 x2 x0 x4 x1 x3 x1 x5) xs0)) -∗ K ⟨⟩))
      ⊢ wp frame (wpE (defs₀ (F := F)) Variants.none c none) E (cc1__loss_kernel i arg1 harg1 arg2 harg2 arg3 harg3 arg4 harg4 arg5 harg5 arg6 harg6 arg7 harg7 arg8 harg8) K := by
  simp only [cc1__loss_kernel_eq_skeleton]; unfold cc1__loss_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_words
    rw [View.read_writes_eq_canon _ _ _ (fun y => ⟨_, List.mem_cons_self, View.mem_set_unit_zero (S := S1x1) hz1 inb_S1x1_S1x1_0_0 y⟩)]
    rw [View.canon_cons_unit_zero (S := S1x1) hz1]
    simp only [View.readAt_eq_ld, harg1.read_unread, harg2.read_unread, harg3.read_unread, harg4.read_unread, harg5.read_unread, harg6.read_unread, harg8.read_unread,
    View.ld_unit_zero (S := S64x4096) hz1, View.ld_unit_zero (S := S1x1) hz1, View.readCov_unit_zero (S := S1x1) _ hz1]
  iexists _; isplitr
  swap; · iexact HS0
  ipureintro
  sl_unfold_words
  rw [View.read_writes_eq_canon _ _ _ (fun y => ⟨_, List.mem_cons_self, View.mem_set_unit_zero (S := S1x1) hz1 inb_S1x1_S1x1_0_0 y⟩)]
  rw [View.canon_cons_unit_zero (S := S1x1) hz1]
  simp only [View.readAt_eq_ld, harg1.read_unread, harg2.read_unread, harg3.read_unread, harg4.read_unread, harg5.read_unread, harg6.read_unread, harg8.read_unread,
    View.ld_unit_zero (S := S64x4096) hz1, View.ld_unit_zero (S := S1x1) hz1, View.readCov_unit_zero (S := S1x1) _ hz1]

/-! ## Where the output's window is idle -/

/-- Away from the last point the output's window is idle and its block is not written back; at the last point it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The accumulator's contents and the invariant, point by point -/

theorem accAt_first (c : Dev nD) (t : Fin cfg1.N) (hz : t.val = 0) :
    accAt V c t.val t.isLt = k1_pay1 (part1 V c t) (k1_pay3 (F := F)) := by
  obtain ⟨n, hn⟩ := t
  cases n with
  | zero => rfl
  | succ n => exact absurd hz (Nat.succ_ne_zero n)

theorem accAt_pos (c : Dev nD) (t : Fin cfg1.N) (hz : t.val ≠ 0) :
    accAt V c t.val t.isLt = k1_pay1 (part1 V c t) (accAt V c (t.val - 1) (Nat.lt_of_le_of_lt (Nat.sub_le _ _) t.isLt)) := by
  obtain ⟨n, hn⟩ := t
  cases n with
  | zero => exact absurd rfl hz
  | succ n => rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region, the accumulator apart as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body obligation, at a generic point -/

abbrev ms1_0 (t : Fin cfg1.N) : Memref sig .tc .vmem S64x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the inputs' buffers hold their blocks; the point is the first, the last or neither, and the
    run of that case applies; the invariant hands the body the accumulator at what the point before left (at anything at
    the first point) and takes it back at this point's running sum; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [show (dat1 V c).leavesExact 5 t = owns (c : Thread nD τ) (ms1_5 t) fullShare ((dat1 V c).after 5 t) from rfl, after1_5]
  by_cases h1 : t.val = 63
  · have hz : t.val ≠ 0 := by omega
    have hc0 : ¬cond1_0 (grid1.coords t) := fun h => hz ((hcond1_0 t).mp h)
    have hc1 : cond1_1 (grid1.coords t) := (hcond1_1 t).mpr h1
    rw [show (dat1 V c).leavesExact 6 t = owns (c : Thread nD τ) (ms1_6 t) fullShare ((dat1 V c).after 6 t) from by
      unfold Dat.leavesExact; rw [liveAt1_6 t hc1], after1_6]
    rw [accAt_pos V c t hz, PhiS1_castSucc V c t, PhiS1_pos V c _ _ hz]
    unfold part1
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run1_last c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬cond1_1 (grid1.coords t) := fun h => h1 ((hcond1_1 t).mp h)
    rw [Dat.leavesExact_idle (dat1 V c) 6 t (idleAt1_6 t hc1) (noFlush1_6 t hc1)]
    by_cases hz : t.val = 0
    · have hc0 : cond1_0 (grid1.coords t) := (hcond1_0 t).mpr hz
      rw [accAt_first V c t hz, PhiS1_castSucc V c t, PhiS1_zero V c _ _ hz, PhiA1_eq]
      unfold part1
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run1_first c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬cond1_0 (grid1.coords t) := fun h => hz ((hcond1_0 t).mp h)
      rw [accAt_pos V c t hz, PhiS1_castSucc V c t, PhiS1_pos V c _ _ hz]
      unfold part1
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run1_mid c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back, the accumulator's named contents forgotten. -/
theorem hout1 (c : Dev nD) : (dat1 V c).Φ (Fin.last cfg1.N) ⊢ (Pipeline.ΦA spec1 c : sProp 𝕄) := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS0, Hr⟩, Hg⟩
  isplitl [HS0 Hr]
  · isplitl [HS0]; · iexists _; iexact HS0
    iexact Hr
  iexact Hg

end Cert.Kernel.Hand

end
-- ==== Proof.K.Run.lean ====
/-
  The whole run of @main: nine host operations (the three inputs moved up by one row), region 0, region 1, four host
  operations (the loss read out of its 1 × 1 array; the two weights and a zero image laid side by side). The unscoped
  buffers' contents are followed boundary by boundary — after the first host stretch, after each region (its arrays at
  what its write-backs leave, every other buffer as entered), after the last host stretch — and the launch over the
  segments ends with every unscoped buffer at the last boundary's contents. From that one run both the frame (the three
  arguments end as launched) and the values of the six results are read.
-/
import proofs.«173863_j34935263986322_1_alg».proof.Proof.Gen.Kernel.Launch
import proofs.«173863_j34935263986322_1_alg».proof.Proof.Gen.Kernel.Skeleton
import proofs.«173863_j34935263986322_1_alg».proof.Proof.Gen.Kernel.Points
import proofs.«173863_j34935263986322_1_alg».proof.Proof.K.R0Body
import proofs.«173863_j34935263986322_1_alg».proof.Proof.K.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit (no host operation stands between the regions: region 1 is entered from `W2`). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: the contents the run ends with. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`; its invariant tracks the accumulator. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]

theorem main_run (c : Dev nD) : main (F := F) c = Pipeline.Seg.run (segs m) :=
  main_segs adm (pdats m) () 𝒱₀ L lv _ _ (reg0 m) (reg1 m) rfl rfl c

set_option backward.isDefEq.respectTransparency.types false in
/-- THE RUN: from any memory with zero counters every weakly fair execution of @main terminates, nothing faulting, and
    every final state has every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.K.Frame.lean ====
/-
  The frame: no host operation writes an argument and no region may change one (each is an input window of region 0 and
  bypasses region 1), so at the last boundary every argument's buffer holds its launch contents.
-/
import proofs.«173863_j34935263986322_1_alg».proof.Proof.Gen.Kernel.Launch
import proofs.«173863_j34935263986322_1_alg».proof.Proof.Gen.Kernel.Skeleton
import proofs.«173863_j34935263986322_1_alg».proof.Proof.Gen.Kernel.Points
import proofs.«173863_j34935263986322_1_alg».proof.Proof.K.Run
import proofs.«173863_j34935263986322_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide : main_arg0 ∉ hostOps2_W)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide : main_arg2 ∉ hostOps2_W)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (by decide : main_arg2 ∉ hostOps0_W)
    _ = m ((c : Thread nD τ).loc main_arg2) := rfl

/-- THE FRAME, at any float instance: from any memory with zero counters every weakly fair execution of @main terminates,
    nothing faulting, and every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.Hand

end
-- ==== Proof.KI.R0Defs.lean ====
/-
  Region 0 (the elementwise kernel over 128 blocks of 32 rows): what each of its six output blocks holds after the body
  as a function of the six input blocks and the grid position, and the region's proof data at any entry contents `V`.
  The six inputs are the target, the mask, the source and their copies moved up by one row; the outputs are, in window
  order, the two weights, the target's two differences zeroed on the mask's edges, and the masked source's two differences.
-/
import proofs.«173863_j34935263986322_1_alg».proof.Proof.Gen.KernelIdeal.Launch
import proofs.«173863_j34935263986322_1_alg».proof.Proof.Gen.KernelIdeal.Skeleton
import proofs.«173863_j34935263986322_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle every load and store of the body goes through: the whole 32 × 4096 block. -/
abbrev rb0 : Rect S32x4096 := Rect.unit (s := S32x4096) ![0, 0] S32x4096.size inb_S32x4096_S32x4096_0_0

section Outs
variable (i : grid0.Coords) (x0 x1 x2 x3 x4 x5 : Vec F S32x4096 .f32)

/-- The weight along a row: effective mask times the exponential of the scaled masked-source quotient. -/
def out0_6 : Vec F S32x4096 .f32 :=
  View.canon [⟨rb0, k0_pay5 (k0_pay8 (View.ld x1 rb0) (View.ld x2 rb0)) (k0_pay9 (View.ld x1 rb0) (View.ld x2 rb0)) (k0_pay15 (View.ld x1 rb0) (View.ld x2 rb0))⟩]
/-- The weight along a column. -/
def out0_7 : Vec F S32x4096 .f32 :=
  View.canon [⟨rb0, k0_pay6 (k0_pay8 (View.ld x1 rb0) (View.ld x2 rb0)) (k0_pay9 (View.ld x1 rb0) (View.ld x2 rb0)) (k0_pay12 (View.ld x1 rb0) (View.ld x2 rb0) (View.ld x4 rb0) (View.ld x5 rb0))⟩]
/-- The target's difference along a row, zeroed where the effective mask has an edge. -/
def out0_8 : Vec F S32x4096 .f32 :=
  View.canon [⟨rb0, k0_pay2 (k0_pay13 i (View.ld x1 rb0) (View.ld x2 rb0) (View.ld x4 rb0) (View.ld x5 rb0)) (k0_pay14 (View.ld x0 rb0)) (k0_pay16 (View.ld x1 rb0) (View.ld x2 rb0))⟩]
/-- The target's difference along a column, zeroed where the effective mask has an edge. -/
def out0_9 : Vec F S32x4096 .f32 :=
  View.canon [⟨rb0, k0_pay3 (k0_pay11 (View.ld x0 rb0) (View.ld x3 rb0)) (k0_pay13 i (View.ld x1 rb0) (View.ld x2 rb0) (View.ld x4 rb0) (View.ld x5 rb0)) (k0_pay16 (View.ld x1 rb0) (View.ld x2 rb0))⟩]
/-- The masked source's difference along a row. -/
def out0_10 : Vec F S32x4096 .f32 :=
  View.canon [⟨rb0, k0_pay15 (View.ld x1 rb0) (View.ld x2 rb0)⟩]
/-- The masked source's difference along a column. -/
def out0_11 : Vec F S32x4096 .f32 :=
  View.canon [⟨rb0, k0_pay12 (View.ld x1 rb0) (View.ld x2 rb0) (View.ld x4 rb0) (View.ld x5 rb0)⟩]

end Outs

/-- The proof data of region 0 on core `c`: the arrays as the region finds them; after the body at point `t` each
    input's buffer at its block and each output's at its function of the six input blocks; the scoped rest and the
    generator register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 1 t) (iblk0 V c 2 t)
    | ⟨7, _⟩ => out0_7 (iblk0 V c 1 t) (iblk0 V c 2 t) (iblk0 V c 4 t) (iblk0 V c 5 t)
    | ⟨8, _⟩ => out0_8 (grid0.coords t) (iblk0 V c 0 t) (iblk0 V c 1 t) (iblk0 V c 2 t) (iblk0 V c 4 t) (iblk0 V c 5 t)
    | ⟨9, _⟩ => out0_9 (grid0.coords t) (iblk0 V c 0 t) (iblk0 V c 1 t) (iblk0 V c 2 t) (iblk0 V c 3 t) (iblk0 V c 4 t) (iblk0 V c 5 t)
    | ⟨10, _⟩ => out0_10 (iblk0 V c 1 t) (iblk0 V c 2 t)
    | ⟨11, _⟩ => out0_11 (iblk0 V c 1 t) (iblk0 V c 2 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 1 t) (iblk0 V c 2 t) := by dsimp only [dat0]
theorem after0_7 (c : Dev nD) (t : Fin cfg0.N) : (dat0 V c).after 7 t = out0_7 (iblk0 V c 1 t) (iblk0 V c 2 t) (iblk0 V c 4 t) (iblk0 V c 5 t) := by dsimp only [dat0]
theorem after0_8 (c : Dev nD) (t : Fin cfg0.N) : (dat0 V c).after 8 t = out0_8 (grid0.coords t) (iblk0 V c 0 t) (iblk0 V c 1 t) (iblk0 V c 2 t) (iblk0 V c 4 t) (iblk0 V c 5 t) := by dsimp only [dat0]
theorem after0_9 (c : Dev nD) (t : Fin cfg0.N) : (dat0 V c).after 9 t = out0_9 (grid0.coords t) (iblk0 V c 0 t) (iblk0 V c 1 t) (iblk0 V c 2 t) (iblk0 V c 3 t) (iblk0 V c 4 t) (iblk0 V c 5 t) := by dsimp only [dat0]
theorem after0_10 (c : Dev nD) (t : Fin cfg0.N) : (dat0 V c).after 10 t = out0_10 (iblk0 V c 1 t) (iblk0 V c 2 t) := by dsimp only [dat0]
theorem after0_11 (c : Dev nD) (t : Fin cfg0.N) : (dat0 V c).after 11 t = out0_11 (iblk0 V c 1 t) (iblk0 V c 2 t) (iblk0 V c 4 t) (iblk0 V c 5 t) := by dsimp only [dat0]

end Cert.KernelIdeal.Hand

end
-- ==== Proof.KI.R0Body.lean ====
/-
  Region 0's body obligation: at every grid point the elementwise kernel, handed the six input blocks, leaves each of
  its six output buffers at the stated function of them (one whole-block store each), the inputs untouched.
-/
import proofs.«173863_j34935263986322_1_alg».proof.Proof.Gen.KernelIdeal.Launch
import proofs.«173863_j34935263986322_1_alg».proof.Proof.Gen.KernelIdeal.Skeleton
import proofs.«173863_j34935263986322_1_alg».proof.Proof.Gen.KernelIdeal.Points
import proofs.«173863_j34935263986322_1_alg».proof.Proof.KI.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks

An input window is fetched whole and never cut, so whichever of its buffers is current at a point holds the block
the window's index map picks there, whether the point fetched it or the index had not moved. -/

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, for any proof data whose array is the
    entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, for any proof data whose array is the
    entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point, for any proof data whose array is the
    entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point, for any proof data whose array is the
    entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_4 (c : Dev nD) (t : Fin cfg0.N) (d) : (dat0 V c).before 4 t d = iblk0 V c 4 t :=
  before0_4_of V (dat0 V c) (A_eq0 V c 4) (after0_4 V c) t d

/-- Input window 5's current staging buffer holds its block at every point, for any proof data whose array is the
    entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_5 (c : Dev nD) (t : Fin cfg0.N) (d) : (dat0 V c).before 5 t d = iblk0 V c 5 t :=
  before0_5_of V (dat0 V c) (A_eq0 V c 5) (after0_5 V c) t d

/-! ## One whole-block store covers the buffer -/

/-- The whole-block rectangle tiles the 32 × 4096 buffer, so a single store through it covers every cell. -/
theorem cover0 (p0 : Vec F S32x4096 .f32) (y : S32x4096.Idx) :
    ∃ pc ∈ ([⟨rb0, p0⟩] : List (View.Piece (Elt F) S32x4096 .f32)), y ∈ pc.1.set :=
  View.cover_of_tiled [⟨rb0, p0⟩] S32x4096.size (by rfl) y

/-! ## The body's triple -/

set_option maxHeartbeats 4000000 in
/-- The kernel body at grid position `i`, on whole staging memrefs with the inputs' at contents `x0 … x5` and the
    outputs' at anything, runs to the continuation holding the inputs' as they were and each output's at its stated
    function of the inputs': the body reads the six inputs once each, then reads each output buffer (the value
    goes unused) and overwrites it whole. -/
theorem sound_kernel0 (c : Dev nD) (E : Set ℕ) (i : grid0.Coords) (arg1 : Memref sig .tc .vmem S32x4096 .f32) (harg1 : arg1.IsWhole) (arg2 : Memref sig .tc .vmem S32x4096 .f32) (harg2 : arg2.IsWhole) (arg3 : Memref sig .tc .vmem S32x4096 .f32) (harg3 : arg3.IsWhole) (arg4 : Memref sig .tc .vmem S32x4096 .f32) (harg4 : arg4.IsWhole) (arg5 : Memref sig .tc .vmem S32x4096 .f32) (harg5 : arg5.IsWhole) (arg6 : Memref sig .tc .vmem S32x4096 .f32) (harg6 : arg6.IsWhole) (arg7 : Memref sig .tc .vmem S32x4096 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S32x4096 .f32) (harg10 : arg10.IsWhole) (arg11 : Memref sig .tc .vmem S32x4096 .f32) (harg11 : arg11.IsWhole) (arg12 : Memref sig .tc .vmem S32x4096 .f32) (harg12 : arg12.IsWhole)
    (x0 x1 x2 x3 x4 x5 : Vec F S32x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x1 x2) ∗ owns (c : Thread nD τ) arg8 fullShare (out0_7 x1 x2 x4 x5) ∗ owns (c : Thread nD τ) arg9 fullShare (out0_8 i x0 x1 x2 x4 x5) ∗ owns (c : Thread nD τ) arg10 fullShare (out0_9 i x0 x1 x2 x3 x4 x5) ∗ owns (c : Thread nD τ) arg11 fullShare (out0_10 x1 x2) ∗ owns (c : Thread nD τ) arg12 fullShare (out0_11 x1 x2 x4 x5)) -∗ K ⟨⟩))
      ⊢ wp frame (wpE (defs₀ (F := F)) Variants.none c none) E (cc0__ew_kernel i arg1 harg1 arg2 harg2 arg3 harg3 arg4 harg4 arg5 harg5 arg6 harg6 arg7 harg7 arg8 harg8 arg9 harg9 arg10 harg10 arg11 harg11 arg12 harg12) K := by
  simp only [cc0__ew_kernel_eq_skeleton]; unfold cc0__ew_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  isplitl [H9]
  · iexists _; isplitr
    swap; · iexact H9
    ipureintro
    exact View.read_writes_eq_canon _ _ _ (cover0 _)
  isplitl [H10]
  · iexists _; isplitr
    swap; · iexact H10
    ipureintro
    exact View.read_writes_eq_canon _ _ _ (cover0 _)
  iexists _; isplitr
  swap; · iexact H11
  ipureintro
  exact View.read_writes_eq_canon _ _ _ (cover0 _)

/-! ## The body obligation, at a generic point -/

/-- What the body is called with at point `t`: the invariant, what is owed, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What it returns: the same invariant and debt, each window's buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' buffers hold their blocks, so the body's triple applies at the point's grid
    position; the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  Region 1 (the loss kernel over 64 blocks of 64 rows): a 1 × 1 scratch accumulator is reset at the first point, takes
  at every point the block's partial sum — the squared weighted residuals summed along each row in both directions, the
  two row sums added, the result summed over the block's rows —, and at the last point its value divided by the number of
  entries is stored into the 1 × 1 output. This module states what the scratch holds after each point (`accAt`), the
  output's contents, and the region's proof data at any entry contents `V`.
-/
import proofs.«173863_j34935263986322_1_alg».proof.Proof.Gen.KernelIdeal.Launch
import proofs.«173863_j34935263986322_1_alg».proof.Proof.Gen.KernelIdeal.Skeleton
import proofs.«173863_j34935263986322_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator, a whole scoped buffer of the kernel's own. -/
abbrev scM1 : Memref sig .tc .vmem S1x1 .f32 := Memref.whole cc1_scratch0

/-- The partial sum of point `t`: the body's reduction of the six input blocks there (the two weights are each loaded twice). -/
def part1 (c : Dev nD) (t : Fin cfg1.N) : Vec F S1x1 .f32 :=
  k1_pay4 (iblk1 V c 0 t) (iblk1 V c 2 t) (iblk1 V c 0 t) (iblk1 V c 4 t) (iblk1 V c 1 t) (iblk1 V c 3 t) (iblk1 V c 1 t) (iblk1 V c 5 t)

/-- What the scratch accumulator holds after point `n`: the zero block plus the first partial sum, then each later partial
    sum added to what the point before left. -/
def accAt (c : Dev nD) : (n : ℕ) → n < cfg1.N → Vec F S1x1 .f32
  | 0, h => k1_pay1 (part1 V c ⟨0, h⟩) (k1_pay3 (F := F))
  | n + 1, h => k1_pay1 (part1 V c ⟨n + 1, h⟩) (accAt c n (Nat.lt_of_succ_lt h))

theorem accAt_zero (c : Dev nD) (h : 0 < cfg1.N) : accAt V c 0 h = k1_pay1 (part1 V c ⟨0, h⟩) (k1_pay3 (F := F)) := rfl
theorem accAt_succ (c : Dev nD) (n : ℕ) (h : n + 1 < cfg1.N) :
    accAt V c (n + 1) h = k1_pay1 (part1 V c ⟨n + 1, h⟩) (accAt V c n (Nat.lt_of_succ_lt h)) := rfl

/-- The region invariant before position `n`: before the first point every scoped buffer at anything; afterwards the
    accumulator at what the point before left, the other scoped buffers at anything; the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt V c n hn)
      ∗ Pipeline.scopedRestBut (Ix := Unit) (Name := ℕ) (U := UR sig nD τ) (Lvl := ℕ) (Val := Elt F) spec1 c [cc1_scratch0]) ∗ (∃ r, prngReg c r))

/-- The proof data of region 1 on core `c`: the arrays as the region finds them; after the body at point `t` each
    input's buffer at its block and the output's at the accumulator's value there divided by the number of entries (read
    only at the last point: at the others the output's buffer is left as found); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (accAt V c t.val t.isLt)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay2 (accAt V c t.val t.isLt) := by dsimp only [dat1]

end Cert.KernelIdeal.Hand

end
-- ==== Proof.KI.R1Body.lean ====
/-
  Region 1's body obligation: at every grid point the loss kernel, handed the six input blocks and the accumulator as the
  point before left it (anything at the first point, where it is reset), leaves the accumulator at this point's running
  sum and, at the last point only, stores the mean into the output's buffer; elsewhere that buffer is left as found.
-/
import proofs.«173863_j34935263986322_1_alg».proof.Proof.Gen.KernelIdeal.Launch
import proofs.«173863_j34935263986322_1_alg».proof.Proof.Gen.KernelIdeal.Skeleton
import proofs.«173863_j34935263986322_1_alg».proof.Proof.Gen.KernelIdeal.Points
import proofs.«173863_j34935263986322_1_alg».proof.Proof.KI.R1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer access, however spelt. -/
theorem hz1 : (![0, 0] : Fin 2 → Nat) = fun _ => 0 := funext fun a => by fin_cases a <;> rfl

/-- The first conditional's condition (the point is the first), from the grid coordinates. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second conditional's condition (the point is the last). -/
abbrev cond1_1 (i : grid1.Coords) : Prop := k1_cond2 i = 1#1
theorem hcond1_1 : ∀ t : Fin cfg1.N, cond1_1 (grid1.coords t) ↔ t.val = 63 :=
  (by decide +kernel : ∀ t : Fin grid1.N, cond1_1 (grid1.coords t) ↔ t.val = 63)

set_option maxHeartbeats 4000000 in
/-- The body at the first point: the accumulator, found at anything, is reset and takes the point's partial sum; the
    output's buffer is left as found. -/
theorem run1_first (c : Dev nD) (i : grid1.Coords) (arg1 : Memref sig .tc .vmem S64x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x4096 .f32) (harg6 : arg6.IsWhole) (arg7 : Memref sig .tc .vmem S1x1 .f32) (harg7 : arg7.IsWhole) (arg8 : Memref sig .tc .vmem S1x1 .f32) (harg8 : arg8.IsWhole)
    (hc0 : cond1_0 i) (hc1 : ¬cond1_1 i)
    (x0 x1 x2 x3 x4 x5 : Vec F S64x4096 .f32) (xi6 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare xi6
            ∗ owns (c : Thread nD τ) arg8 fullShare (k1_pay1 (k1_pay4 x0 x2 x0 x4 x1 x3 x1 x5) (k1_pay3 (F := F)))) -∗ K ⟨⟩))
      ⊢ wp frame (wpE (defs₀ (F := F)) Variants.none c none) E (cc1__loss_kernel i arg1 harg1 arg2 harg2 arg3 harg3 arg4 harg4 arg5 harg5 arg6 harg6 arg7 harg7 arg8 harg8) K := by
  simp only [cc1__loss_kernel_eq_skeleton]; unfold cc1__loss_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  sl_unfold_words
  rw [View.read_writes_eq_canon _ _ _ (fun y => ⟨_, List.mem_cons_self, View.mem_set_unit_zero (S := S1x1) hz1 inb_S1x1_S1x1_0_0 y⟩)]
  rw [View.canon_cons_unit_zero (S := S1x1) hz1]
  simp only [View.readAt_eq_ld, harg1.read_unread, harg2.read_unread, harg3.read_unread, harg4.read_unread, harg5.read_unread, harg6.read_unread,
    View.ld_unit_zero (S := S64x4096) hz1, View.readCov_unit_zero (S := S1x1) _ hz1]

set_option maxHeartbeats 4000000 in
/-- The body at a point neither first nor last: the accumulator, found at what the point before left, takes the point's
    partial sum; the output's buffer is left as found. -/
theorem run1_mid (c : Dev nD) (i : grid1.Coords) (arg1 : Memref sig .tc .vmem S64x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x4096 .f32) (harg6 : arg6.IsWhole) (arg7 : Memref sig .tc .vmem S1x1 .f32) (harg7 : arg7.IsWhole) (arg8 : Memref sig .tc .vmem S1x1 .f32) (harg8 : arg8.IsWhole)
    (hc0 : ¬cond1_0 i) (hc1 : ¬cond1_1 i)
    (x0 x1 x2 x3 x4 x5 : Vec F S64x4096 .f32) (xi6 : Vec F S1x1 .f32) (xs0 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare xs0
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare xi6
            ∗ owns (c : Thread nD τ) arg8 fullShare (k1_pay1 (k1_pay4 x0 x2 x0 x4 x1 x3 x1 x5) xs0)) -∗ K ⟨⟩))
      ⊢ wp frame (wpE (defs₀ (F := F)) Variants.none c none) E (cc1__loss_kernel i arg1 harg1 arg2 harg2 arg3 harg3 arg4 harg4 arg5 harg5 arg6 harg6 arg7 harg7 arg8 harg8) K := by
  simp only [cc1__loss_kernel_eq_skeleton]; unfold cc1__loss_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS0
  ipureintro
  sl_unfold_words
  rw [View.read_writes_eq_canon _ _ _ (fun y => ⟨_, List.mem_cons_self, View.mem_set_unit_zero (S := S1x1) hz1 inb_S1x1_S1x1_0_0 y⟩)]
  rw [View.canon_cons_unit_zero (S := S1x1) hz1]
  simp only [View.readAt_eq_ld, harg1.read_unread, harg2.read_unread, harg3.read_unread, harg4.read_unread, harg5.read_unread, harg6.read_unread, harg8.read_unread,
    View.ld_unit_zero (S := S64x4096) hz1, View.ld_unit_zero (S := S1x1) hz1, View.readCov_unit_zero (S := S1x1) _ hz1]

set_option maxHeartbeats 4000000 in
/-- The body at the last point: the accumulator, found at what the point before left, takes the point's partial sum, and
    its value divided by the number of entries is stored into the output's buffer, found at anything. -/
theorem run1_last (c : Dev nD) (i : grid1.Coords) (arg1 : Memref sig .tc .vmem S64x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x4096 .f32) (harg6 : arg6.IsWhole) (arg7 : Memref sig .tc .vmem S1x1 .f32) (harg7 : arg7.IsWhole) (arg8 : Memref sig .tc .vmem S1x1 .f32) (harg8 : arg8.IsWhole)
    (hc0 : ¬cond1_0 i) (hc1 : cond1_1 i)
    (x0 x1 x2 x3 x4 x5 : Vec F S64x4096 .f32) (xs0 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs0
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay2 (k1_pay1 (k1_pay4 x0 x2 x0 x4 x1 x3 x1 x5) xs0))
            ∗ owns (c : Thread nD τ) arg8 fullShare (k1_pay1 (k1_pay4 x0 x2 x0 x4 x1 x3 x1 x5) xs0)) -∗ K ⟨⟩))
      ⊢ wp frame (wpE (defs₀ (F := F)) Variants.none c none) E (cc1__loss_kernel i arg1 harg1 arg2 harg2 arg3 harg3 arg4 harg4 arg5 harg5 arg6 harg6 arg7 harg7 arg8 harg8) K := by
  simp only [cc1__loss_kernel_eq_skeleton]; unfold cc1__loss_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_words
    rw [View.read_writes_eq_canon _ _ _ (fun y => ⟨_, List.mem_cons_self, View.mem_set_unit_zero (S := S1x1) hz1 inb_S1x1_S1x1_0_0 y⟩)]
    rw [View.canon_cons_unit_zero (S := S1x1) hz1]
    simp only [View.readAt_eq_ld, harg1.read_unread, harg2.read_unread, harg3.read_unread, harg4.read_unread, harg5.read_unread, harg6.read_unread, harg8.read_unread,
    View.ld_unit_zero (S := S64x4096) hz1, View.ld_unit_zero (S := S1x1) hz1, View.readCov_unit_zero (S := S1x1) _ hz1]
  iexists _; isplitr
  swap; · iexact HS0
  ipureintro
  sl_unfold_words
  rw [View.read_writes_eq_canon _ _ _ (fun y => ⟨_, List.mem_cons_self, View.mem_set_unit_zero (S := S1x1) hz1 inb_S1x1_S1x1_0_0 y⟩)]
  rw [View.canon_cons_unit_zero (S := S1x1) hz1]
  simp only [View.readAt_eq_ld, harg1.read_unread, harg2.read_unread, harg3.read_unread, harg4.read_unread, harg5.read_unread, harg6.read_unread, harg8.read_unread,
    View.ld_unit_zero (S := S64x4096) hz1, View.ld_unit_zero (S := S1x1) hz1, View.readCov_unit_zero (S := S1x1) _ hz1]

/-! ## Where the output's window is idle -/

/-- Away from the last point the output's window is idle and its block is not written back; at the last point it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The accumulator's contents and the invariant, point by point -/

theorem accAt_first (c : Dev nD) (t : Fin cfg1.N) (hz : t.val = 0) :
    accAt V c t.val t.isLt = k1_pay1 (part1 V c t) (k1_pay3 (F := F)) := by
  obtain ⟨n, hn⟩ := t
  cases n with
  | zero => rfl
  | succ n => exact absurd hz (Nat.succ_ne_zero n)

theorem accAt_pos (c : Dev nD) (t : Fin cfg1.N) (hz : t.val ≠ 0) :
    accAt V c t.val t.isLt = k1_pay1 (part1 V c t) (accAt V c (t.val - 1) (Nat.lt_of_le_of_lt (Nat.sub_le _ _) t.isLt)) := by
  obtain ⟨n, hn⟩ := t
  cases n with
  | zero => exact absurd rfl hz
  | succ n => rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region, the accumulator apart as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body obligation, at a generic point -/

abbrev ms1_0 (t : Fin cfg1.N) : Memref sig .tc .vmem S64x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the inputs' buffers hold their blocks; the point is the first, the last or neither, and the
    run of that case applies; the invariant hands the body the accumulator at what the point before left (at anything at
    the first point) and takes it back at this point's running sum; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [show (dat1 V c).leavesExact 5 t = owns (c : Thread nD τ) (ms1_5 t) fullShare ((dat1 V c).after 5 t) from rfl, after1_5]
  by_cases h1 : t.val = 63
  · have hz : t.val ≠ 0 := by omega
    have hc0 : ¬cond1_0 (grid1.coords t) := fun h => hz ((hcond1_0 t).mp h)
    have hc1 : cond1_1 (grid1.coords t) := (hcond1_1 t).mpr h1
    rw [show (dat1 V c).leavesExact 6 t = owns (c : Thread nD τ) (ms1_6 t) fullShare ((dat1 V c).after 6 t) from by
      unfold Dat.leavesExact; rw [liveAt1_6 t hc1], after1_6]
    rw [accAt_pos V c t hz, PhiS1_castSucc V c t, PhiS1_pos V c _ _ hz]
    unfold part1
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run1_last c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬cond1_1 (grid1.coords t) := fun h => h1 ((hcond1_1 t).mp h)
    rw [Dat.leavesExact_idle (dat1 V c) 6 t (idleAt1_6 t hc1) (noFlush1_6 t hc1)]
    by_cases hz : t.val = 0
    · have hc0 : cond1_0 (grid1.coords t) := (hcond1_0 t).mpr hz
      rw [accAt_first V c t hz, PhiS1_castSucc V c t, PhiS1_zero V c _ _ hz, PhiA1_eq]
      unfold part1
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run1_first c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬cond1_0 (grid1.coords t) := fun h => hz ((hcond1_0 t).mp h)
      rw [accAt_pos V c t hz, PhiS1_castSucc V c t, PhiS1_pos V c _ _ hz]
      unfold part1
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run1_mid c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back, the accumulator's named contents forgotten. -/
theorem hout1 (c : Dev nD) : (dat1 V c).Φ (Fin.last cfg1.N) ⊢ (Pipeline.ΦA spec1 c : sProp 𝕄) := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS0, Hr⟩, Hg⟩
  isplitl [HS0 Hr]
  · isplitl [HS0]; · iexists _; iexact HS0
    iexact Hr
  iexact Hg

end Cert.KernelIdeal.Hand

end
-- ==== Proof.KI.Run.lean ====
/-
  The whole run of @main: nine host operations (the three inputs moved up by one row), region 0, region 1, four host
  operations (the loss read out of its 1 × 1 array; the two weights and a zero image laid side by side). The unscoped
  buffers' contents are followed boundary by boundary — after the first host stretch, after each region (its arrays at
  what its write-backs leave, every other buffer as entered), after the last host stretch — and the launch over the
  segments ends with every unscoped buffer at the last boundary's contents. From that one run both the frame (the three
  arguments end as launched) and the values of the six results are read.
-/
import proofs.«173863_j34935263986322_1_alg».proof.Proof.Gen.KernelIdeal.Launch
import proofs.«173863_j34935263986322_1_alg».proof.Proof.Gen.KernelIdeal.Skeleton
import proofs.«173863_j34935263986322_1_alg».proof.Proof.Gen.KernelIdeal.Points
import proofs.«173863_j34935263986322_1_alg».proof.Proof.KI.R0Body
import proofs.«173863_j34935263986322_1_alg».proof.Proof.KI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit (no host operation stands between the regions: region 1 is entered from `W2`). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: the contents the run ends with. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`; its invariant tracks the accumulator. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]

theorem main_run (c : Dev nD) : main (F := F) c = Pipeline.Seg.run (segs m) :=
  main_segs adm (pdats m) () 𝒱₀ L lv _ _ (reg0 m) (reg1 m) rfl rfl c

set_option backward.isDefEq.respectTransparency.types false in
/-- THE RUN: from any memory with zero counters every weakly fair execution of @main terminates, nothing faulting, and
    every final state has every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KI.Frame.lean ====
/-
  The frame: no host operation writes an argument and no region may change one (each is an input window of region 0 and
  bypasses region 1), so at the last boundary every argument's buffer holds its launch contents.
-/
import proofs.«173863_j34935263986322_1_alg».proof.Proof.Gen.KernelIdeal.Launch
import proofs.«173863_j34935263986322_1_alg».proof.Proof.Gen.KernelIdeal.Skeleton
import proofs.«173863_j34935263986322_1_alg».proof.Proof.Gen.KernelIdeal.Points
import proofs.«173863_j34935263986322_1_alg».proof.Proof.KI.Run
import proofs.«173863_j34935263986322_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide : main_arg0 ∉ hostOps2_W)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide : main_arg2 ∉ hostOps2_W)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (by decide : main_arg2 ∉ hostOps0_W)
    _ = m ((c : Thread nD τ).loc main_arg2) := rfl

/-- THE FRAME, at any float instance: from any memory with zero counters every weakly fair execution of @main terminates,
    nothing faulting, and every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Hand

end
-- ==== Proof.Spec.lean ====
/-
  The mathematics of the weighted gradient-blend loss, by coordinates, on the extended reals.

  From three 4096 × 4096 images — a target `T`, a mask `M`, a source `S` — it computes
  * the effective mask `meff = [S ≠ 0] · M` and the masked source `sm = S · meff`;
  * forward differences along a row and along a column, the last entry of a line taking the difference of its own value
    with itself (`dxA`, `dyA`: the next coordinate `nx` stays at the last one);
  * the mask's own differences with the LAST difference repeated (`gmx`, `gmy`: at the last coordinate the difference of
    the last two entries, through `bk`), and from them the edge set `edge` where either is nonzero;
  * the target's differences zeroed on the edge set (`gbx`, `gby`), the masked source's differences (`gsx`, `gsy`);
  * the weights `w = meff · exp(-5 · |gs / (sm + ε)|)` in both directions (`wx`, `wy`);
  * the loss: the mean over all entries of `(w·gb − w·gs)²` in the row direction plus the same in the column direction.
  The loss is stated twice, over six images standing for the weights and the gradients: `lossR` is the sum of the two
  means, `lossK` one quotient of the sum taken block of 64 rows by block, row by row, both directions together.
-/
import Idealize.ShloMosaic.PureOps.Ideal
import Idealize.ShloMosaic.PureOps.Ideal.Laws
import Idealize.ShloMosaic.Lib.ValueIdx

noncomputable section

open scoped BigOperators Classical

namespace Cert.Spec

open Idealize.ShloMosaic Idealize.ShloMosaic.ValueIdx

/-- A 4096 × 4096 image by its two coordinates. -/
abbrev Img : Type := Fin 4096 → Fin 4096 → EReal

/-- An image read off a rank-2 array of that shape. -/
abbrev Img.of (f : (⟨2, ![4096, 4096]⟩ : Shape).Idx → EReal) : Img := fun r c => f (ix2 r c)

/-- The three float literals both programs share: the stabiliser ε (the f32 nearest 1e-5), the weight scale −5 and the
    number of entries 4096². -/
def eps : EReal := Ideal.ofBits .f32 0x3727C5AC#32
def scale : EReal := Ideal.ofBits .f32 0xC0A00000#32
def count : EReal := Ideal.ofBits .f32 0x4B800000#32

/-- The next coordinate, the last one staying where it is. -/
def nx (a : Fin 4096) : Fin 4096 := if h : a.val + 1 < 4096 then ⟨a.val + 1, h⟩ else a
/-- The coordinate itself, the last one stepping back by one. -/
def bk (a : Fin 4096) : Fin 4096 := if a.val + 1 < 4096 then a else ⟨4094, by omega⟩

/-- The indicator of "nonzero" as a number. -/
def ind (x : EReal) : EReal := if x = 0 then 0 else 1

/-- An image moved up by one row, the last row repeated. -/
def shiftRow (X : Img) : Img := fun r c => X (nx r) c

/-- The effective mask and the masked source. -/
def meff (M S : Img) : Img := fun r c => ind (S r c) * M r c
def sm (M S : Img) : Img := fun r c => S r c * meff M S r c

/-- Forward differences along a row (`dxA`) and along a column (`dyA`); at the last coordinate `x − x`. -/
def dxA (X : Img) : Img := fun r c => X r (nx c) - X r c
def dyA (X : Img) : Img := fun r c => X (nx r) c - X r c

/-- The effective mask's differences, the last one repeated. -/
def gmx (M S : Img) : Img := fun r c => meff M S r (nx c) - meff M S r (bk c)
def gmy (M S : Img) : Img := fun r c => meff M S (nx r) c - meff M S (bk r) c

/-- Where the effective mask has an edge in either direction. -/
def edge (M S : Img) (r c : Fin 4096) : Prop := gmx M S r c ≠ 0 ∨ gmy M S r c ≠ 0

/-- The target's differences, zeroed on the edge set. -/
def gbx (T M S : Img) : Img := fun r c => if edge M S r c then 0 else dxA T r c
def gby (T M S : Img) : Img := fun r c => if edge M S r c then 0 else dyA T r c

/-- The masked source's differences. -/
def gsx (M S : Img) : Img := dxA (sm M S)
def gsy (M S : Img) : Img := dyA (sm M S)

/-- One weight: `me · exp(−5 · |g / (s + ε)|)`, the absolute value as the larger of a number and its negative. -/
def wcell (me s g : EReal) : EReal :=
  me * Ideal.exp (scale * max (Ideal.div g (s + eps)) (-(Ideal.div g (s + eps))))

def wx (M S : Img) : Img := fun r c => wcell (meff M S r c) (sm M S r c) (gsx M S r c)
def wy (M S : Img) : Img := fun r c => wcell (meff M S r c) (sm M S r c) (gsy M S r c)

/-- One entry's squared weighted residual. -/
def sq (w gb gs : EReal) : EReal := (w * gb - w * gs) * (w * gb - w * gs)

/-- Row `r` of block `b` when the rows are cut into 64 blocks of 64. -/
def row (b r : Fin 64) : Fin 4096 := ⟨64 * b.val + r.val, by omega⟩

/-- The loss as the sum of two means. -/
def lossR (WX WY GBX GBY GSX GSY : Img) : EReal :=
  Ideal.div (∑ r : Fin 4096, ∑ c : Fin 4096, sq (WX r c) (GBX r c) (GSX r c)) count
    + Ideal.div (∑ r : Fin 4096, ∑ c : Fin 4096, sq (WY r c) (GBY r c) (GSY r c)) count

/-- The loss as one quotient of the sum taken block by block and row by row, both directions together. -/
def lossK (WX WY GBX GBY GSX GSY : Img) : EReal :=
  Ideal.div (∑ b : Fin 64, ∑ r : Fin 64,
      ((∑ c : Fin 4096, sq (WX (row b r) c) (GBX (row b r) c) (GSX (row b r) c))
        + ∑ c : Fin 4096, sq (WY (row b r) c) (GBY (row b r) c) (GSY (row b r) c))) count

/-- An image as a rank-2 array: the entry at an index is the image at the index's two coordinates. -/
def arr (I : Img) : (⟨2, ![4096, 4096]⟩ : Shape).Idx → EReal := fun j => I (j 0) (j 1)

@[simp] theorem arr_ix2 (I : Img) (r c : Fin 4096) : arr I (ix2 r c) = I r c := rfl

theorem of_arr (I : Img) : Img.of (arr I) = I := rfl

theorem arr_of (f : (⟨2, ![4096, 4096]⟩ : Shape).Idx → EReal) : arr (Img.of f) = f := by
  funext j; rw [eq_ix2 j]; rfl

/-- An array whose entry at every pair of coordinates is the image's is the image's array. -/
theorem arr_ext {f : (⟨2, ![4096, 4096]⟩ : Shape).Idx → EReal} {I : Img} (h : ∀ r c, f (ix2 r c) = I r c) : f = arr I := by
  funext j; rw [eq_ix2 j]; exact h _ _

end Cert.Spec

end
-- ==== Proof.KI.R0Blocks.lean ====
/-
  Region 0 at the extended reals, from blocks to arrays. Block `t` of a 4096 × 4096 array is its rows 32·t … 32·t + 31;
  each input block read at local coordinates is the array at the global ones; each output array after the region is the
  one whole-array function whose restriction to block `t` is what point `t` stored (the 128 blocks cover the array).
-/
import proofs.«173863_j34935263986322_1_alg».proof.Proof.KI.R0Defs
import proofs.«173863_j34935263986322_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The global row of local row `a` of block `t`. -/
def grow (t : Fin cfg0.N) (a : Fin 32) : Fin 4096 :=
  ⟨32 * t.val + a.val, by have : t.val < 128 := lt_of_lt_of_eq t.isLt (show cfg0.N = 128 from N_0); omega⟩

/-- The six input arrays as the region finds them — target, mask, source, and their copies moved up one row —, and the
    six input blocks at a point, each at its literal type. -/
abbrev aT (c : Dev nD) : FVec Ideal S4096x4096 .f32 := V c main_arg0
abbrev aM (c : Dev nD) : FVec Ideal S4096x4096 .f32 := V c main_arg1
abbrev aS (c : Dev nD) : FVec Ideal S4096x4096 .f32 := V c main_arg2
abbrev aTy (c : Dev nD) : FVec Ideal S4096x4096 .f32 := V c main_v2
abbrev aSy (c : Dev nD) : FVec Ideal S4096x4096 .f32 := V c main_v5
abbrev aMy (c : Dev nD) : FVec Ideal S4096x4096 .f32 := V c main_v8
abbrev ib0 (c : Dev nD) (t : Fin cfg0.N) : Vec Ideal S32x4096 .f32 := iblk0 V c 0 t
abbrev ib1 (c : Dev nD) (t : Fin cfg0.N) : Vec Ideal S32x4096 .f32 := iblk0 V c 1 t
abbrev ib2 (c : Dev nD) (t : Fin cfg0.N) : Vec Ideal S32x4096 .f32 := iblk0 V c 2 t
abbrev ib3 (c : Dev nD) (t : Fin cfg0.N) : Vec Ideal S32x4096 .f32 := iblk0 V c 3 t
abbrev ib4 (c : Dev nD) (t : Fin cfg0.N) : Vec Ideal S32x4096 .f32 := iblk0 V c 4 t
abbrev ib5 (c : Dev nD) (t : Fin cfg0.N) : Vec Ideal S32x4096 .f32 := iblk0 V c 5 t

/-- The entry contents hold the three copies moved up by one row (the last row repeated). -/
structure Shifted (c : Dev nD) : Prop where
  ty : ∀ r k : Fin 4096, aTy V c (ix2 r k) = aT V c (ix2 (nx r) k)
  sy : ∀ r k : Fin 4096, aSy V c (ix2 r k) = aS V c (ix2 (nx r) k)
  my : ∀ r k : Fin 4096, aMy V c (ix2 r k) = aM V c (ix2 (nx r) k)

/-! ## An input block at local coordinates is the array at the global ones -/

/-- Every window of the region moves with the grid's one coordinate: block `t` along the rows, block 0 along the columns. -/
theorem blockIndex : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

theorem ib0_apply (c : Dev nD) (t : Fin cfg0.N) (a : Fin 32) (b : Fin 4096) : ib0 V c t (ix2 a b) = aT V c (ix2 (grow t a) b) := by
  obtain ⟨⟨e0, e1⟩, -, -, -, -, -, -, -, -, -, -, -⟩ := blockIndex t
  show V c main_arg0 (((cfg0.win 0).blk t).view.emb (ix2 a b)) = V c main_arg0 (ix2 (grow t a) b)
  refine congrArg _ ?_
  funext x; apply Fin.ext
  match x with
  | ⟨0, _⟩ => show win0_0.index t (0 : Fin 2) * 32 + 1 * a.val = 32 * t.val + a.val; omega
  | ⟨1, _⟩ => show win0_0.index t (1 : Fin 2) * 4096 + 1 * b.val = b.val; omega
theorem ib1_apply (c : Dev nD) (t : Fin cfg0.N) (a : Fin 32) (b : Fin 4096) : ib1 V c t (ix2 a b) = aM V c (ix2 (grow t a) b) := by
  obtain ⟨-, ⟨e0, e1⟩, -, -, -, -, -, -, -, -, -, -⟩ := blockIndex t
  show V c main_arg1 (((cfg0.win 1).blk t).view.emb (ix2 a b)) = V c main_arg1 (ix2 (grow t a) b)
  refine congrArg _ ?_
  funext x; apply Fin.ext
  match x with
  | ⟨0, _⟩ => show win0_1.index t (0 : Fin 2) * 32 + 1 * a.val = 32 * t.val + a.val; omega
  | ⟨1, _⟩ => show win0_1.index t (1 : Fin 2) * 4096 + 1 * b.val = b.val; omega
theorem ib2_apply (c : Dev nD) (t : Fin cfg0.N) (a : Fin 32) (b : Fin 4096) : ib2 V c t (ix2 a b) = aS V c (ix2 (grow t a) b) := by
  obtain ⟨-, -, ⟨e0, e1⟩, -, -, -, -, -, -, -, -, -⟩ := blockIndex t
  show V c main_arg2 (((cfg0.win 2).blk t).view.emb (ix2 a b)) = V c main_arg2 (ix2 (grow t a) b)
  refine congrArg _ ?_
  funext x; apply Fin.ext
  match x with
  | ⟨0, _⟩ => show win0_2.index t (0 : Fin 2) * 32 + 1 * a.val = 32 * t.val + a.val; omega
  | ⟨1, _⟩ => show win0_2.index t (1 : Fin 2) * 4096 + 1 * b.val = b.val; omega
theorem ib3_apply (c : Dev nD) (t : Fin cfg0.N) (a : Fin 32) (b : Fin 4096) : ib3 V c t (ix2 a b) = aTy V c (ix2 (grow t a) b) := by
  obtain ⟨-, -, -, ⟨e0, e1⟩, -, -, -, -, -, -, -, -⟩ := blockIndex t
  show V c main_v2 (((cfg0.win 3).blk t).view.emb (ix2 a b)) = V c main_v2 (ix2 (grow t a) b)
  refine congrArg _ ?_
  funext x; apply Fin.ext
  match x with
  | ⟨0, _⟩ => show win0_3.index t (0 : Fin 2) * 32 + 1 * a.val = 32 * t.val + a.val; omega
  | ⟨1, _⟩ => show win0_3.index t (1 : Fin 2) * 4096 + 1 * b.val = b.val; omega
theorem ib4_apply (c : Dev nD) (t : Fin cfg0.N) (a : Fin 32) (b : Fin 4096) : ib4 V c t (ix2 a b) = aSy V c (ix2 (grow t a) b) := by
  obtain ⟨-, -, -, -, ⟨e0, e1⟩, -, -, -, -, -, -, -⟩ := blockIndex t
  show V c main_v5 (((cfg0.win 4).blk t).view.emb (ix2 a b)) = V c main_v5 (ix2 (grow t a) b)
  refine congrArg _ ?_
  funext x; apply Fin.ext
  match x with
  | ⟨0, _⟩ => show win0_4.index t (0 : Fin 2) * 32 + 1 * a.val = 32 * t.val + a.val; omega
  | ⟨1, _⟩ => show win0_4.index t (1 : Fin 2) * 4096 + 1 * b.val = b.val; omega
theorem ib5_apply (c : Dev nD) (t : Fin cfg0.N) (a : Fin 32) (b : Fin 4096) : ib5 V c t (ix2 a b) = aMy V c (ix2 (grow t a) b) := by
  obtain ⟨-, -, -, -, -, ⟨e0, e1⟩, -, -, -, -, -, -⟩ := blockIndex t
  show V c main_v8 (((cfg0.win 5).blk t).view.emb (ix2 a b)) = V c main_v8 (ix2 (grow t a) b)
  refine congrArg _ ?_
  funext x; apply Fin.ext
  match x with
  | ⟨0, _⟩ => show win0_5.index t (0 : Fin 2) * 32 + 1 * a.val = 32 * t.val + a.val; omega
  | ⟨1, _⟩ => show win0_5.index t (1 : Fin 2) * 4096 + 1 * b.val = b.val; omega

/-! ## What point `t` leaves in each output's buffer, as the body's arithmetic of the six input blocks -/

abbrev ob6 (c : Dev nD) (t : Fin cfg0.N) : Vec Ideal S32x4096 .f32 := (dat0 V c).after 6 t
abbrev ob7 (c : Dev nD) (t : Fin cfg0.N) : Vec Ideal S32x4096 .f32 := (dat0 V c).after 7 t
abbrev ob8 (c : Dev nD) (t : Fin cfg0.N) : Vec Ideal S32x4096 .f32 := (dat0 V c).after 8 t
abbrev ob9 (c : Dev nD) (t : Fin cfg0.N) : Vec Ideal S32x4096 .f32 := (dat0 V c).after 9 t
abbrev ob10 (c : Dev nD) (t : Fin cfg0.N) : Vec Ideal S32x4096 .f32 := (dat0 V c).after 10 t
abbrev ob11 (c : Dev nD) (t : Fin cfg0.N) : Vec Ideal S32x4096 .f32 := (dat0 V c).after 11 t

/-- The whole-block rectangle starts at the block's origin. -/
theorem originZero : (![0, 0] : Fin 2 → Nat) = fun _ => 0 := funext fun a => by fin_cases a <;> rfl

theorem ob6_eq (c : Dev nD) (t : Fin cfg0.N) :
    ob6 V c t = k0_pay5 (k0_pay8 (ib1 V c t) (ib2 V c t)) (k0_pay9 (ib1 V c t) (ib2 V c t)) (k0_pay15 (ib1 V c t) (ib2 V c t)) := by
  show (dat0 V c).after 6 t = _
  rw [after0_6]
  unfold out0_6
  rw [View.canon_unit_zero originZero]
  simp only [View.ld_unit_zero (S := S32x4096) originZero]
theorem ob7_eq (c : Dev nD) (t : Fin cfg0.N) :
    ob7 V c t = k0_pay6 (k0_pay8 (ib1 V c t) (ib2 V c t)) (k0_pay9 (ib1 V c t) (ib2 V c t)) (k0_pay12 (ib1 V c t) (ib2 V c t) (ib4 V c t) (ib5 V c t)) := by
  show (dat0 V c).after 7 t = _
  rw [after0_7]
  unfold out0_7
  rw [View.canon_unit_zero originZero]
  simp only [View.ld_unit_zero (S := S32x4096) originZero]
theorem ob8_eq (c : Dev nD) (t : Fin cfg0.N) :
    ob8 V c t = k0_pay2 (k0_pay13 (grid0.coords t) (ib1 V c t) (ib2 V c t) (ib4 V c t) (ib5 V c t)) (k0_pay14 (ib0 V c t)) (k0_pay16 (ib1 V c t) (ib2 V c t)) := by
  show (dat0 V c).after 8 t = _
  rw [after0_8]
  unfold out0_8
  rw [View.canon_unit_zero originZero]
  simp only [View.ld_unit_zero (S := S32x4096) originZero]
theorem ob9_eq (c : Dev nD) (t : Fin cfg0.N) :
    ob9 V c t = k0_pay3 (k0_pay11 (ib0 V c t) (ib3 V c t)) (k0_pay13 (grid0.coords t) (ib1 V c t) (ib2 V c t) (ib4 V c t) (ib5 V c t)) (k0_pay16 (ib1 V c t) (ib2 V c t)) := by
  show (dat0 V c).after 9 t = _
  rw [after0_9]
  unfold out0_9
  rw [View.canon_unit_zero originZero]
  simp only [View.ld_unit_zero (S := S32x4096) originZero]
theorem ob10_eq (c : Dev nD) (t : Fin cfg0.N) : ob10 V c t = k0_pay15 (ib1 V c t) (ib2 V c t) := by
  show (dat0 V c).after 10 t = _
  rw [after0_10]
  unfold out0_10
  rw [View.canon_unit_zero originZero]
  simp only [View.ld_unit_zero (S := S32x4096) originZero]
theorem ob11_eq (c : Dev nD) (t : Fin cfg0.N) : ob11 V c t = k0_pay12 (ib1 V c t) (ib2 V c t) (ib4 V c t) (ib5 V c t) := by
  show (dat0 V c).after 11 t = _
  rw [after0_11]
  unfold out0_11
  rw [View.canon_unit_zero originZero]
  simp only [View.ld_unit_zero (S := S32x4096) originZero]

/-! ## From the blocks to the array: an image whose rows 32·t … 32·t + 31 are what point `t` stored is the output array -/

/-- An index of output 0's array is in point `t`'s block iff each coordinate is in the block's range on its axis. -/
theorem mem_block6 (t : Fin cfg0.N) (i : S4096x4096.Idx) :
    i ∈ ((cfg0.win 6).blk t).view.set ↔ ∀ a : Fin 2, win0_6.index t a * S32x4096.size a ≤ (i a).val ∧ (i a).val < win0_6.index t a * S32x4096.size a + S32x4096.size a := by
  show i ∈ ((View.whole main_v9_0).slice (win0_6.rect t)).set ↔ _
  rw [View.set_slice_whole, Rect.mem_set_unit]
  exact Iff.rfl

theorem arr0_6_of_block (c : Dev nD) (G : Img) (h : ∀ (t : Fin cfg0.N) (a : Fin 32) (b : Fin 4096), ob6 V c t (ix2 a b) = G (grow t a) b) :
    (dat0 V c).arrAt 6 cfg0.N = arr G := by
  have hN : cfg0.N = 128 := N_0
  refine (dat0 V c).arrAt_eq_of_cover 6 (arr G) (fun t _ => ?_) (fun (i : S4096x4096.Idx) => ?_)
  · obtain ⟨-, -, -, -, -, -, ⟨e0, e1⟩, -, -, -, -, -⟩ := blockIndex t
    show (cfg0.win 6).cut (grid0.coords t) ((dat0 V c).after 6 t) = _
    funext (j : S32x4096.Idx)
    obtain ⟨a, b, rfl⟩ : ∃ (a : Fin 32) (b : Fin 4096), j = ix2 a b := ⟨j 0, j 1, eq_ix2 j⟩
    refine (h t a b).trans ?_
    show G (grow t a) b = arr G (((cfg0.win 6).blk t).view.emb (ix2 a b))
    have e : ((cfg0.win 6).blk t).view.emb (ix2 a b) = ix2 (grow t a) b := by
      funext x; apply Fin.ext
      match x with
      | ⟨0, _⟩ => show win0_6.index t (0 : Fin 2) * 32 + 1 * a.val = 32 * t.val + a.val; omega
      | ⟨1, _⟩ => show win0_6.index t (1 : Fin 2) * 4096 + 1 * b.val = b.val; omega
    exact (congrArg (arr G) e).symm
  · obtain ⟨r, k, rfl⟩ : ∃ (r : Fin 4096) (k : Fin 4096), i = ix2 r k := ⟨i 0, i 1, eq_ix2 i⟩
    have hr : r.val < 4096 := r.isLt
    have hk : k.val < 4096 := k.isLt
    obtain ⟨-, -, -, -, -, -, ⟨e0, e1⟩, -, -, -, -, -⟩ := blockIndex ⟨r.val / 32, by rw [hN]; omega⟩
    refine ⟨⟨r.val / 32, by rw [hN]; omega⟩, flush0_6 _, ?_⟩
    rw [mem_block6]
    intro x
    match x with
    | ⟨0, _⟩ => show win0_6.index _ (0 : Fin 2) * 32 ≤ r.val ∧ r.val < win0_6.index _ (0 : Fin 2) * 32 + 32; rw [e0]; show r.val / 32 * 32 ≤ r.val ∧ r.val < r.val / 32 * 32 + 32; omega
    | ⟨1, _⟩ => show win0_6.index _ (1 : Fin 2) * 4096 ≤ k.val ∧ k.val < win0_6.index _ (1 : Fin 2) * 4096 + 4096; rw [e1]; omega

/-- An index of output 1's array is in point `t`'s block iff each coordinate is in the block's range on its axis. -/
theorem mem_block7 (t : Fin cfg0.N) (i : S4096x4096.Idx) :
    i ∈ ((cfg0.win 7).blk t).view.set ↔ ∀ a : Fin 2, win0_7.index t a * S32x4096.size a ≤ (i a).val ∧ (i a).val < win0_7.index t a * S32x4096.size a + S32x4096.size a := by
  show i ∈ ((View.whole main_v9_1).slice (win0_7.rect t)).set ↔ _
  rw [View.set_slice_whole, Rect.mem_set_unit]
  exact Iff.rfl

theorem arr0_7_of_block (c : Dev nD) (G : Img) (h : ∀ (t : Fin cfg0.N) (a : Fin 32) (b : Fin 4096), ob7 V c t (ix2 a b) = G (grow t a) b) :
    (dat0 V c).arrAt 7 cfg0.N = arr G := by
  have hN : cfg0.N = 128 := N_0
  refine (dat0 V c).arrAt_eq_of_cover 7 (arr G) (fun t _ => ?_) (fun (i : S4096x4096.Idx) => ?_)
  · obtain ⟨-, -, -, -, -, -, -, ⟨e0, e1⟩, -, -, -, -⟩ := blockIndex t
    show (cfg0.win 7).cut (grid0.coords t) ((dat0 V c).after 7 t) = _
    funext (j : S32x4096.Idx)
    obtain ⟨a, b, rfl⟩ : ∃ (a : Fin 32) (b : Fin 4096), j = ix2 a b := ⟨j 0, j 1, eq_ix2 j⟩
    refine (h t a b).trans ?_
    show G (grow t a) b = arr G (((cfg0.win 7).blk t).view.emb (ix2 a b))
    have e : ((cfg0.win 7).blk t).view.emb (ix2 a b) = ix2 (grow t a) b := by
      funext x; apply Fin.ext
      match x with
      | ⟨0, _⟩ => show win0_7.index t (0 : Fin 2) * 32 + 1 * a.val = 32 * t.val + a.val; omega
      | ⟨1, _⟩ => show win0_7.index t (1 : Fin 2) * 4096 + 1 * b.val = b.val; omega
    exact (congrArg (arr G) e).symm
  · obtain ⟨r, k, rfl⟩ : ∃ (r : Fin 4096) (k : Fin 4096), i = ix2 r k := ⟨i 0, i 1, eq_ix2 i⟩
    have hr : r.val < 4096 := r.isLt
    have hk : k.val < 4096 := k.isLt
    obtain ⟨-, -, -, -, -, -, -, ⟨e0, e1⟩, -, -, -, -⟩ := blockIndex ⟨r.val / 32, by rw [hN]; omega⟩
    refine ⟨⟨r.val / 32, by rw [hN]; omega⟩, flush0_7 _, ?_⟩
    rw [mem_block7]
    intro x
    match x with
    | ⟨0, _⟩ => show win0_7.index _ (0 : Fin 2) * 32 ≤ r.val ∧ r.val < win0_7.index _ (0 : Fin 2) * 32 + 32; rw [e0]; show r.val / 32 * 32 ≤ r.val ∧ r.val < r.val / 32 * 32 + 32; omega
    | ⟨1, _⟩ => show win0_7.index _ (1 : Fin 2) * 4096 ≤ k.val ∧ k.val < win0_7.index _ (1 : Fin 2) * 4096 + 4096; rw [e1]; omega

/-- An index of output 2's array is in point `t`'s block iff each coordinate is in the block's range on its axis. -/
theorem mem_block8 (t : Fin cfg0.N) (i : S4096x4096.Idx) :
    i ∈ ((cfg0.win 8).blk t).view.set ↔ ∀ a : Fin 2, win0_8.index t a * S32x4096.size a ≤ (i a).val ∧ (i a).val < win0_8.index t a * S32x4096.size a + S32x4096.size a := by
  show i ∈ ((View.whole main_v9_2).slice (win0_8.rect t)).set ↔ _
  rw [View.set_slice_whole, Rect.mem_set_unit]
  exact Iff.rfl

theorem arr0_8_of_block (c : Dev nD) (G : Img) (h : ∀ (t : Fin cfg0.N) (a : Fin 32) (b : Fin 4096), ob8 V c t (ix2 a b) = G (grow t a) b) :
    (dat0 V c).arrAt 8 cfg0.N = arr G := by
  have hN : cfg0.N = 128 := N_0
  refine (dat0 V c).arrAt_eq_of_cover 8 (arr G) (fun t _ => ?_) (fun (i : S4096x4096.Idx) => ?_)
  · obtain ⟨-, -, -, -, -, -, -, -, ⟨e0, e1⟩, -, -, -⟩ := blockIndex t
    show (cfg0.win 8).cut (grid0.coords t) ((dat0 V c).after 8 t) = _
    funext (j : S32x4096.Idx)
    obtain ⟨a, b, rfl⟩ : ∃ (a : Fin 32) (b : Fin 4096), j = ix2 a b := ⟨j 0, j 1, eq_ix2 j⟩
    refine (h t a b).trans ?_
    show G (grow t a) b = arr G (((cfg0.win 8).blk t).view.emb (ix2 a b))
    have e : ((cfg0.win 8).blk t).view.emb (ix2 a b) = ix2 (grow t a) b := by
      funext x; apply Fin.ext
      match x with
      | ⟨0, _⟩ => show win0_8.index t (0 : Fin 2) * 32 + 1 * a.val = 32 * t.val + a.val; omega
      | ⟨1, _⟩ => show win0_8.index t (1 : Fin 2) * 4096 + 1 * b.val = b.val; omega
    exact (congrArg (arr G) e).symm
  · obtain ⟨r, k, rfl⟩ : ∃ (r : Fin 4096) (k : Fin 4096), i = ix2 r k := ⟨i 0, i 1, eq_ix2 i⟩
    have hr : r.val < 4096 := r.isLt
    have hk : k.val < 4096 := k.isLt
    obtain ⟨-, -, -, -, -, -, -, -, ⟨e0, e1⟩, -, -, -⟩ := blockIndex ⟨r.val / 32, by rw [hN]; omega⟩
    refine ⟨⟨r.val / 32, by rw [hN]; omega⟩, flush0_8 _, ?_⟩
    rw [mem_block8]
    intro x
    match x with
    | ⟨0, _⟩ => show win0_8.index _ (0 : Fin 2) * 32 ≤ r.val ∧ r.val < win0_8.index _ (0 : Fin 2) * 32 + 32; rw [e0]; show r.val / 32 * 32 ≤ r.val ∧ r.val < r.val / 32 * 32 + 32; omega
    | ⟨1, _⟩ => show win0_8.index _ (1 : Fin 2) * 4096 ≤ k.val ∧ k.val < win0_8.index _ (1 : Fin 2) * 4096 + 4096; rw [e1]; omega

/-- An index of output 3's array is in point `t`'s block iff each coordinate is in the block's range on its axis. -/
theorem mem_block9 (t : Fin cfg0.N) (i : S4096x4096.Idx) :
    i ∈ ((cfg0.win 9).blk t).view.set ↔ ∀ a : Fin 2, win0_9.index t a * S32x4096.size a ≤ (i a).val ∧ (i a).val < win0_9.index t a * S32x4096.size a + S32x4096.size a := by
  show i ∈ ((View.whole main_v9_3).slice (win0_9.rect t)).set ↔ _
  rw [View.set_slice_whole, Rect.mem_set_unit]
  exact Iff.rfl

theorem arr0_9_of_block (c : Dev nD) (G : Img) (h : ∀ (t : Fin cfg0.N) (a : Fin 32) (b : Fin 4096), ob9 V c t (ix2 a b) = G (grow t a) b) :
    (dat0 V c).arrAt 9 cfg0.N = arr G := by
  have hN : cfg0.N = 128 := N_0
  refine (dat0 V c).arrAt_eq_of_cover 9 (arr G) (fun t _ => ?_) (fun (i : S4096x4096.Idx) => ?_)
  · obtain ⟨-, -, -, -, -, -, -, -, -, ⟨e0, e1⟩, -, -⟩ := blockIndex t
    show (cfg0.win 9).cut (grid0.coords t) ((dat0 V c).after 9 t) = _
    funext (j : S32x4096.Idx)
    obtain ⟨a, b, rfl⟩ : ∃ (a : Fin 32) (b : Fin 4096), j = ix2 a b := ⟨j 0, j 1, eq_ix2 j⟩
    refine (h t a b).trans ?_
    show G (grow t a) b = arr G (((cfg0.win 9).blk t).view.emb (ix2 a b))
    have e : ((cfg0.win 9).blk t).view.emb (ix2 a b) = ix2 (grow t a) b := by
      funext x; apply Fin.ext
      match x with
      | ⟨0, _⟩ => show win0_9.index t (0 : Fin 2) * 32 + 1 * a.val = 32 * t.val + a.val; omega
      | ⟨1, _⟩ => show win0_9.index t (1 : Fin 2) * 4096 + 1 * b.val = b.val; omega
    exact (congrArg (arr G) e).symm
  · obtain ⟨r, k, rfl⟩ : ∃ (r : Fin 4096) (k : Fin 4096), i = ix2 r k := ⟨i 0, i 1, eq_ix2 i⟩
    have hr : r.val < 4096 := r.isLt
    have hk : k.val < 4096 := k.isLt
    obtain ⟨-, -, -, -, -, -, -, -, -, ⟨e0, e1⟩, -, -⟩ := blockIndex ⟨r.val / 32, by rw [hN]; omega⟩
    refine ⟨⟨r.val / 32, by rw [hN]; omega⟩, flush0_9 _, ?_⟩
    rw [mem_block9]
    intro x
    match x with
    | ⟨0, _⟩ => show win0_9.index _ (0 : Fin 2) * 32 ≤ r.val ∧ r.val < win0_9.index _ (0 : Fin 2) * 32 + 32; rw [e0]; show r.val / 32 * 32 ≤ r.val ∧ r.val < r.val / 32 * 32 + 32; omega
    | ⟨1, _⟩ => show win0_9.index _ (1 : Fin 2) * 4096 ≤ k.val ∧ k.val < win0_9.index _ (1 : Fin 2) * 4096 + 4096; rw [e1]; omega

/-- An index of output 4's array is in point `t`'s block iff each coordinate is in the block's range on its axis. -/
theorem mem_block10 (t : Fin cfg0.N) (i : S4096x4096.Idx) :
    i ∈ ((cfg0.win 10).blk t).view.set ↔ ∀ a : Fin 2, win0_10.index t a * S32x4096.size a ≤ (i a).val ∧ (i a).val < win0_10.index t a * S32x4096.size a + S32x4096.size a := by
  show i ∈ ((View.whole main_v9_4).slice (win0_10.rect t)).set ↔ _
  rw [View.set_slice_whole, Rect.mem_set_unit]
  exact Iff.rfl

theorem arr0_10_of_block (c : Dev nD) (G : Img) (h : ∀ (t : Fin cfg0.N) (a : Fin 32) (b : Fin 4096), ob10 V c t (ix2 a b) = G (grow t a) b) :
    (dat0 V c).arrAt 10 cfg0.N = arr G := by
  have hN : cfg0.N = 128 := N_0
  refine (dat0 V c).arrAt_eq_of_cover 10 (arr G) (fun t _ => ?_) (fun (i : S4096x4096.Idx) => ?_)
  · obtain ⟨-, -, -, -, -, -, -, -, -, -, ⟨e0, e1⟩, -⟩ := blockIndex t
    show (cfg0.win 10).cut (grid0.coords t) ((dat0 V c).after 10 t) = _
    funext (j : S32x4096.Idx)
    obtain ⟨a, b, rfl⟩ : ∃ (a : Fin 32) (b : Fin 4096), j = ix2 a b := ⟨j 0, j 1, eq_ix2 j⟩
    refine (h t a b).trans ?_
    show G (grow t a) b = arr G (((cfg0.win 10).blk t).view.emb (ix2 a b))
    have e : ((cfg0.win 10).blk t).view.emb (ix2 a b) = ix2 (grow t a) b := by
      funext x; apply Fin.ext
      match x with
      | ⟨0, _⟩ => show win0_10.index t (0 : Fin 2) * 32 + 1 * a.val = 32 * t.val + a.val; omega
      | ⟨1, _⟩ => show win0_10.index t (1 : Fin 2) * 4096 + 1 * b.val = b.val; omega
    exact (congrArg (arr G) e).symm
  · obtain ⟨r, k, rfl⟩ : ∃ (r : Fin 4096) (k : Fin 4096), i = ix2 r k := ⟨i 0, i 1, eq_ix2 i⟩
    have hr : r.val < 4096 := r.isLt
    have hk : k.val < 4096 := k.isLt
    obtain ⟨-, -, -, -, -, -, -, -, -, -, ⟨e0, e1⟩, -⟩ := blockIndex ⟨r.val / 32, by rw [hN]; omega⟩
    refine ⟨⟨r.val / 32, by rw [hN]; omega⟩, flush0_10 _, ?_⟩
    rw [mem_block10]
    intro x
    match x with
    | ⟨0, _⟩ => show win0_10.index _ (0 : Fin 2) * 32 ≤ r.val ∧ r.val < win0_10.index _ (0 : Fin 2) * 32 + 32; rw [e0]; show r.val / 32 * 32 ≤ r.val ∧ r.val < r.val / 32 * 32 + 32; omega
    | ⟨1, _⟩ => show win0_10.index _ (1 : Fin 2) * 4096 ≤ k.val ∧ k.val < win0_10.index _ (1 : Fin 2) * 4096 + 4096; rw [e1]; omega

/-- An index of output 5's array is in point `t`'s block iff each coordinate is in the block's range on its axis. -/
theorem mem_block11 (t : Fin cfg0.N) (i : S4096x4096.Idx) :
    i ∈ ((cfg0.win 11).blk t).view.set ↔ ∀ a : Fin 2, win0_11.index t a * S32x4096.size a ≤ (i a).val ∧ (i a).val < win0_11.index t a * S32x4096.size a + S32x4096.size a := by
  show i ∈ ((View.whole main_v9_5).slice (win0_11.rect t)).set ↔ _
  rw [View.set_slice_whole, Rect.mem_set_unit]
  exact Iff.rfl

theorem arr0_11_of_block (c : Dev nD) (G : Img) (h : ∀ (t : Fin cfg0.N) (a : Fin 32) (b : Fin 4096), ob11 V c t (ix2 a b) = G (grow t a) b) :
    (dat0 V c).arrAt 11 cfg0.N = arr G := by
  have hN : cfg0.N = 128 := N_0
  refine (dat0 V c).arrAt_eq_of_cover 11 (arr G) (fun t _ => ?_) (fun (i : S4096x4096.Idx) => ?_)
  · obtain ⟨-, -, -, -, -, -, -, -, -, -, -, ⟨e0, e1⟩⟩ := blockIndex t
    show (cfg0.win 11).cut (grid0.coords t) ((dat0 V c).after 11 t) = _
    funext (j : S32x4096.Idx)
    obtain ⟨a, b, rfl⟩ : ∃ (a : Fin 32) (b : Fin 4096), j = ix2 a b := ⟨j 0, j 1, eq_ix2 j⟩
    refine (h t a b).trans ?_
    show G (grow t a) b = arr G (((cfg0.win 11).blk t).view.emb (ix2 a b))
    have e : ((cfg0.win 11).blk t).view.emb (ix2 a b) = ix2 (grow t a) b := by
      funext x; apply Fin.ext
      match x with
      | ⟨0, _⟩ => show win0_11.index t (0 : Fin 2) * 32 + 1 * a.val = 32 * t.val + a.val; omega
      | ⟨1, _⟩ => show win0_11.index t (1 : Fin 2) * 4096 + 1 * b.val = b.val; omega
    exact (congrArg (arr G) e).symm
  · obtain ⟨r, k, rfl⟩ : ∃ (r : Fin 4096) (k : Fin 4096), i = ix2 r k := ⟨i 0, i 1, eq_ix2 i⟩
    have hr : r.val < 4096 := r.isLt
    have hk : k.val < 4096 := k.isLt
    obtain ⟨-, -, -, -, -, -, -, -, -, -, -, ⟨e0, e1⟩⟩ := blockIndex ⟨r.val / 32, by rw [hN]; omega⟩
    refine ⟨⟨r.val / 32, by rw [hN]; omega⟩, flush0_11 _, ?_⟩
    rw [mem_block11]
    intro x
    match x with
    | ⟨0, _⟩ => show win0_11.index _ (0 : Fin 2) * 32 ≤ r.val ∧ r.val < win0_11.index _ (0 : Fin 2) * 32 + 32; rw [e0]; show r.val / 32 * 32 ≤ r.val ∧ r.val < r.val / 32 * 32 + 32; omega
    | ⟨1, _⟩ => show win0_11.index _ (1 : Fin 2) * 4096 ≤ k.val ∧ k.val < win0_11.index _ (1 : Fin 2) * 4096 + 4096; rw [e1]; omega

end Cert.KernelIdeal.HandValue

end
-- ==== Proof.KI.R0ValueA.lean ====
/-
  Region 0's weights and masked-source differences as arrays, at the extended reals: after the region the four output
  arrays of windows 6, 7, 10, 11 are the specification's images `wx`, `wy`, `gsx`, `gsy` of the mask and the source, given
  that the region finds the three copies moved up by one row.
-/
import proofs.«173863_j34935263986322_1_alg».proof.Proof.KI.R0Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HandValue.A

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

/-! ## The payloads read at an index, over variable blocks -/

/-- "Nonzero" compared, widened and converted is the indicator as a number. -/
theorem ind_chain (x : EReal) :
    (((((Ideal.cmp .one x (Ideal.ofBits .f32 0x00000000#32)).setWidth 32).toInt : ℤ) : ℝ) : EReal) = ind x := by
  rw [Ideal.ofBits_zero_f32]
  unfold ind Ideal.cmp
  by_cases hx : x = 0
  · simp [hx]
  · simp [hx]

/-- The effective mask of a mask block `x1` and a source block `x2`. -/
theorem pay8_apply (x1 x2 : Vec Ideal S32x4096 .f32) (a : Fin 32) (b : Fin 4096) :
    k0_pay8 x1 x2 (ix2 a b) = ind (x2 (ix2 a b)) * x1 (ix2 a b) :=
  congrArg (· * x1 (ix2 a b)) (ind_chain (x2 (ix2 a b)))

/-- The masked source. -/
theorem pay9_apply (x1 x2 : Vec Ideal S32x4096 .f32) (a : Fin 32) (b : Fin 4096) :
    k0_pay9 x1 x2 (ix2 a b) = x2 (ix2 a b) * (ind (x2 (ix2 a b)) * x1 (ix2 a b)) :=
  congrArg (x2 (ix2 a b) * ·) (pay8_apply x1 x2 a b)

/-- A cast to the same shape changes nothing. -/
theorem pay7_eq (x6 : Vec Ideal S32x4096 .f32) : k0_pay7 x6 = x6 := shapeCast_self x6 _

/-- The effective mask of the shifted blocks. -/
theorem pay10_apply (x6 x8 : Vec Ideal S32x4096 .f32) (a : Fin 32) (b : Fin 4096) :
    k0_pay10 x6 x8 (ix2 a b) = ind (x6 (ix2 a b)) * x8 (ix2 a b) := by
  have e9 : shapeCast S32x4096 x8 shapeCasts_S32x4096_S32x4096 = x8 := shapeCast_self x8 _
  show (((((Ideal.cmp .one (k0_pay7 x6 (ix2 a b)) (Ideal.ofBits .f32 0x00000000#32)).setWidth 32).toInt : ℤ) : ℝ) : EReal)
      * (shapeCast S32x4096 x8 shapeCasts_S32x4096_S32x4096 (ix2 a b)) = _
  rw [pay7_eq, e9]
  exact congrArg (· * x8 (ix2 a b)) (ind_chain (x6 (ix2 a b)))

/-- The column difference of the masked source: shifted masked source less masked source. -/
theorem pay12_apply (x2 x3 x6 x8 : Vec Ideal S32x4096 .f32) (a : Fin 32) (b : Fin 4096) :
    k0_pay12 x2 x3 x6 x8 (ix2 a b)
      = x6 (ix2 a b) * (ind (x6 (ix2 a b)) * x8 (ix2 a b)) - x3 (ix2 a b) * (ind (x3 (ix2 a b)) * x2 (ix2 a b)) := by
  show k0_pay7 x6 (ix2 a b) * k0_pay10 x6 x8 (ix2 a b) - k0_pay9 x2 x3 (ix2 a b) = _
  rw [pay7_eq, pay10_apply, pay9_apply]

/-- A block moved left by one column, the last column repeated. -/
theorem shiftCol_apply (X : Vec Ideal S32x4096 .f32) (a : Fin 32) (b : Fin 4096) :
    concatenate S32x4096 1 [⟨S32x4095, extractStridedSlice S32x4095 ![0, 1] X slices_S32x4096_o0_1_S32x4095⟩,
      ⟨S32x1, extractStridedSlice S32x1 ![0, 4095] X slices_S32x4096_o0_4095_S32x1⟩]
      concatenates_S32x4095_S32x1_S32x4096_d1 (ix2 a b) = X (ix2 a (nx b)) := by
  by_cases hb : b.val + 1 < 4096
  · have hn : (nx b).val = 1 + b.val := by unfold nx; rw [dif_pos hb]; show b.val + 1 = _; omega
    refine (concatenate_pair_apply_left (t := S32x4096) (s₁ := S32x4095) (s₂ := S32x1) _ _ _ _ (ix2 a b) rfl (ix2 a (⟨b.val, by omega⟩ : Fin 4095))
      (fun d => match d with | ⟨0, _⟩ => rfl | ⟨1, _⟩ => rfl)).trans ?_
    exact slice2_axis1_apply 1 X _ a _ (nx b) hn
  · have hn : (nx b).val = 4095 + 0 := by unfold nx; rw [dif_neg hb]; have := b.isLt; omega
    refine (concatenate_pair_apply_right (t := S32x4096) (s₁ := S32x4095) (s₂ := S32x1) _ _ _ _ (ix2 a b) rfl rfl (ix2 a (0 : Fin 1))
      (fun d hd => match d, hd with | ⟨0, _⟩, _ => rfl | ⟨1, _⟩, hd => absurd rfl hd)
      (by show 0 + 4095 = b.val; have := b.isLt; omega)).trans ?_
    exact slice2_axis1_apply 4095 X _ a (0 : Fin 1) (nx b) hn

/-- The row difference of the masked source. -/
theorem pay15_apply (x2 x3 : Vec Ideal S32x4096 .f32) (a : Fin 32) (b : Fin 4096) :
    k0_pay15 x2 x3 (ix2 a b) = k0_pay9 x2 x3 (ix2 a (nx b)) - k0_pay9 x2 x3 (ix2 a b) :=
  congrArg (· - k0_pay9 x2 x3 (ix2 a b)) (shiftCol_apply (k0_pay9 x2 x3) a b)

/-- The weights, row direction and column direction: one cell of the specification. -/
theorem pay5_apply (x14 x15 x42 : Vec Ideal S32x4096 .f32) (a : Fin 32) (b : Fin 4096) :
    k0_pay5 (F := Ideal) x14 x15 x42 (ix2 a b) = wcell (x14 (ix2 a b)) (x15 (ix2 a b)) (x42 (ix2 a b)) := rfl
theorem pay6_apply (x14 x15 x23 : Vec Ideal S32x4096 .f32) (a : Fin 32) (b : Fin 4096) :
    k0_pay6 (F := Ideal) x14 x15 x23 (ix2 a b) = wcell (x14 (ix2 a b)) (x15 (ix2 a b)) (x23 (ix2 a b)) := rfl

end Cert.KernelIdeal.HandValue.A

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

open Cert.KernelIdeal.HandValue.A

variable (V : (c : Dev nD) → (b : Ref sig .tc) → Buf (Elt Ideal) ((c : Thread nD τ).loc b))

namespace A

/-! ## The payloads at the blocks of a point, in the array's coordinates -/

theorem meff_block (c : Dev nD) (t : Fin cfg0.N) (a : Fin 32) (b : Fin 4096) :
    k0_pay8 (ib1 V c t) (ib2 V c t) (ix2 a b) = meff (Img.of (aM V c)) (Img.of (aS V c)) (grow t a) b := by
  rw [pay8_apply, ib1_apply V c t a b, ib2_apply V c t a b]; rfl

theorem sm_block (c : Dev nD) (t : Fin cfg0.N) (a : Fin 32) (b : Fin 4096) :
    k0_pay9 (ib1 V c t) (ib2 V c t) (ix2 a b) = sm (Img.of (aM V c)) (Img.of (aS V c)) (grow t a) b := by
  rw [pay9_apply, ib1_apply V c t a b, ib2_apply V c t a b]; rfl

theorem gsx_block (c : Dev nD) (t : Fin cfg0.N) (a : Fin 32) (b : Fin 4096) :
    k0_pay15 (ib1 V c t) (ib2 V c t) (ix2 a b) = gsx (Img.of (aM V c)) (Img.of (aS V c)) (grow t a) b := by
  rw [pay15_apply, sm_block V c t a (nx b), sm_block V c t a b]; rfl

theorem gsy_block (c : Dev nD) (h : Shifted V c) (t : Fin cfg0.N) (a : Fin 32) (b : Fin 4096) :
    k0_pay12 (ib1 V c t) (ib2 V c t) (ib4 V c t) (ib5 V c t) (ix2 a b)
      = gsy (Img.of (aM V c)) (Img.of (aS V c)) (grow t a) b := by
  rw [pay12_apply, ib1_apply V c t a b, ib2_apply V c t a b, ib4_apply V c t a b, ib5_apply V c t a b, h.sy, h.my]; rfl

end A

theorem arr0_6 (c : Dev nD) (h : Shifted V c) : (dat0 V c).arrAt 6 cfg0.N = arr (wx (Img.of (aM V c)) (Img.of (aS V c))) :=
  arr0_6_of_block V c _ fun t a b => by
    rw [ob6_eq, pay5_apply, A.meff_block V c t a b, A.sm_block V c t a b, A.gsx_block V c t a b]; rfl
theorem arr0_7 (c : Dev nD) (h : Shifted V c) : (dat0 V c).arrAt 7 cfg0.N = arr (wy (Img.of (aM V c)) (Img.of (aS V c))) :=
  arr0_7_of_block V c _ fun t a b => by
    rw [ob7_eq, pay6_apply, A.meff_block V c t a b, A.sm_block V c t a b, A.gsy_block V c h t a b]; rfl
theorem arr0_10 (c : Dev nD) (h : Shifted V c) : (dat0 V c).arrAt 10 cfg0.N = arr (gsx (Img.of (aM V c)) (Img.of (aS V c))) :=
  arr0_10_of_block V c _ fun t a b => by rw [ob10_eq]; exact A.gsx_block V c t a b
theorem arr0_11 (c : Dev nD) (h : Shifted V c) : (dat0 V c).arrAt 11 cfg0.N = arr (gsy (Img.of (aM V c)) (Img.of (aS V c))) :=
  arr0_11_of_block V c _ fun t a b => by rw [ob11_eq]; exact A.gsy_block V c h t a b

end Cert.KernelIdeal.HandValue

end
-- ==== Proof.KI.R0ValueB.lean ====
/-
  Region 0's target differences as arrays, at the extended reals: after the region the output arrays of windows 8 and 9
  are the specification's images `gbx`, `gby` — the target's forward differences zeroed where the effective mask has an
  edge in either direction —, given that the region finds the three copies moved up by one row. The column-direction
  edge at the image's last row is the one place the body reads the grid position: only the last block holds that row.
-/
import proofs.«173863_j34935263986322_1_alg».proof.Proof.KI.R0Blocks
import Idealize.ShloMosaic.Lib.ValueIdx
import Idealize.ShloMosaic.Lib.ValueLayout
import Idealize.ShloMosaic.Lib.Pipeline.Value
import Idealize.ShloMosaic.PureOps.Ideal.Laws
import Mathlib.Tactic.SplitIfs

set_option maxRecDepth 16384

noncomputable section

open scoped BigOperators

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace B

/-- The local row itself, the last one of the 32 stepping back by one. -/
def bkl (a : Fin 32) : Fin 32 := if a.val + 1 < 32 then a else ⟨30, by omega⟩

section Layout
variable {α : Type}

/-- Columns moved left by one, the last column repeated: the entry at column `b` is the operand's at `nx b`. -/
theorem shiftL_apply (x : S32x4096.Idx → α) (a : Fin 32) (b : Fin 4096) :
    concatenate S32x4096 1 [⟨S32x4095, extractStridedSlice S32x4095 ![0, 1] x slices_S32x4096_o0_1_S32x4095⟩,
      ⟨S32x1, extractStridedSlice S32x1 ![0, 4095] x slices_S32x4096_o0_4095_S32x1⟩]
      concatenates_S32x4095_S32x1_S32x4096_d1 (ix2 a b) = x (ix2 a (nx b)) := by
  by_cases hb : b.val + 1 < 4096
  · have hn : nx b = ⟨b.val + 1, hb⟩ := dif_pos hb
    rw [hn]
    refine (concatenate_pair_apply_left 1 _ _ concatenates_S32x4095_S32x1_S32x4096_d1 (ix2 a b) rfl
      (ix2 a (⟨b.val, by omega⟩ : Fin 4095)) (fun d => match d with | ⟨0, _⟩ => rfl | ⟨1, _⟩ => rfl)).trans ?_
    exact extractStridedSlice_apply _ x _ _ _ (fun d => match d with
      | ⟨0, _⟩ => by show a.val = 0 + a.val; omega
      | ⟨1, _⟩ => by show b.val + 1 = 1 + b.val; omega)
  · have hn : nx b = b := dif_neg hb
    rw [hn]
    refine (concatenate_pair_apply_right 1 _ _ concatenates_S32x4095_S32x1_S32x4096_d1 (ix2 a b) rfl rfl
      (ix2 a (⟨0, by omega⟩ : Fin 1)) (fun d hd => match d with | ⟨0, _⟩ => rfl | ⟨1, _⟩ => absurd rfl hd)
      (by show 0 + 4095 = b.val; have := b.isLt; omega)).trans ?_
    exact extractStridedSlice_apply _ x _ _ _ (fun d => match d with
      | ⟨0, _⟩ => by show a.val = 0 + a.val; omega
      | ⟨1, _⟩ => by show b.val = 4095 + 0; have := b.isLt; omega)

/-- Columns kept, the last column replaced by the one before it: the entry at column `b` is the operand's at `bk b`. -/
theorem shiftR_apply (x : S32x4096.Idx → α) (a : Fin 32) (b : Fin 4096) :
    concatenate S32x4096 1 [⟨S32x4095, extractStridedSlice S32x4095 ![0, 0] x slices_S32x4096_o0_0_S32x4095⟩,
      ⟨S32x1, extractStridedSlice S32x1 ![0, 4094] x slices_S32x4096_o0_4094_S32x1⟩]
      concatenates_S32x4095_S32x1_S32x4096_d1 (ix2 a b) = x (ix2 a (bk b)) := by
  by_cases hb : b.val + 1 < 4096
  · have hn : bk b = b := if_pos hb
    rw [hn]
    refine (concatenate_pair_apply_left 1 _ _ concatenates_S32x4095_S32x1_S32x4096_d1 (ix2 a b) rfl
      (ix2 a (⟨b.val, by omega⟩ : Fin 4095)) (fun d => match d with | ⟨0, _⟩ => rfl | ⟨1, _⟩ => rfl)).trans ?_
    exact extractStridedSlice_apply _ x _ _ _ (fun d => match d with
      | ⟨0, _⟩ => by show a.val = 0 + a.val; omega
      | ⟨1, _⟩ => by show b.val = 0 + b.val; omega)
  · have hn : bk b = ⟨4094, by omega⟩ := if_neg hb
    rw [hn]
    refine (concatenate_pair_apply_right 1 _ _ concatenates_S32x4095_S32x1_S32x4096_d1 (ix2 a b) rfl rfl
      (ix2 a (⟨0, by omega⟩ : Fin 1)) (fun d hd => match d with | ⟨0, _⟩ => rfl | ⟨1, _⟩ => absurd rfl hd)
      (by show 0 + 4095 = b.val; have := b.isLt; omega)).trans ?_
    exact extractStridedSlice_apply _ x _ _ _ (fun d => match d with
      | ⟨0, _⟩ => by show a.val = 0 + a.val; omega
      | ⟨1, _⟩ => by show 4094 = 4094 + 0; omega)

/-- Rows kept, the last row replaced by the one before it: the entry at row `a` is the operand's at `bkl a`. -/
theorem shiftD_apply (x : S32x4096.Idx → α) (a : Fin 32) (b : Fin 4096) :
    concatenate S32x4096 0 [⟨S31x4096, extractStridedSlice S31x4096 ![0, 0] x slices_S32x4096_o0_0_S31x4096⟩,
      ⟨S1x4096, extractStridedSlice S1x4096 ![30, 0] x slices_S32x4096_o30_0_S1x4096⟩]
      concatenates_S31x4096_S1x4096_S32x4096_d0 (ix2 a b) = x (ix2 (bkl a) b) := by
  by_cases ha : a.val + 1 < 32
  · have hn : bkl a = a := if_pos ha
    rw [hn]
    refine (concatenate_pair_apply_left 0 _ _ concatenates_S31x4096_S1x4096_S32x4096_d0 (ix2 a b) rfl
      (ix2 (⟨a.val, by omega⟩ : Fin 31) b) (fun d => match d with | ⟨0, _⟩ => rfl | ⟨1, _⟩ => rfl)).trans ?_
    exact extractStridedSlice_apply _ x _ _ _ (fun d => match d with
      | ⟨0, _⟩ => by show a.val = 0 + a.val; omega
      | ⟨1, _⟩ => by show b.val = 0 + b.val; omega)
  · have hn : bkl a = ⟨30, by omega⟩ := if_neg ha
    rw [hn]
    refine (concatenate_pair_apply_right 0 _ _ concatenates_S31x4096_S1x4096_S32x4096_d0 (ix2 a b) rfl rfl
      (ix2 (⟨0, by omega⟩ : Fin 1) b) (fun d hd => match d with | ⟨0, _⟩ => absurd rfl hd | ⟨1, _⟩ => rfl)
      (by show 0 + 31 = a.val; have := a.isLt; omega)).trans ?_
    exact extractStridedSlice_apply _ x _ _ _ (fun d => match d with
      | ⟨0, _⟩ => by show 30 = 30 + 0; omega
      | ⟨1, _⟩ => by show b.val = 0 + b.val; omega)

end Layout

end B

namespace B

/-! ## Words: the indicator of nonzero, the edge bit, the last block's bit -/

/-- The comparison "differs from zero", widened to a word and read as a number, is the indicator of nonzero. -/
theorem ind_word (x : EReal) :
    (FloatOps.sitofp (F := Ideal) .f32
      ((FloatOps.cmpf (F := Ideal) (φ := .f32) .one x (Scalar.ofBits (F := Ideal) .f32 0x00000000#32)).setWidth 32) : EReal) = ind x := by
  show (((BitVec.setWidth 32 (Ideal.cmp .one x (Ideal.ofBits .f32 0x00000000#32))).toInt : ℝ) : EReal) = ind x
  rw [Ideal.ofBits_zero_f32]
  unfold Ideal.cmp ind
  by_cases hx : x = 0
  · rw [if_pos hx]
    have e : decide (x ≠ 0) = false := decide_eq_false (not_not.mpr hx)
    simp only [e]
    have : (BitVec.setWidth 32 (BitVec.ofBool false)).toInt = 0 := by decide
    rw [this]; simp
  · rw [if_neg hx]
    have e : decide (x ≠ 0) = true := decide_eq_true hx
    simp only [e]
    have : (BitVec.setWidth 32 (BitVec.ofBool true)).toInt = 1 := by decide
    rw [this]; simp

/-- Where either of two numbers differs from zero the select on the "or" of the two comparisons takes the zero … -/
theorem edge_word_pos (x y d : EReal) (h : x ≠ 0 ∨ y ≠ 0) :
    Scalar.select (IntOp.ori (FloatOps.cmpf (F := Ideal) (φ := .f32) .one x (Scalar.ofBits (F := Ideal) .f32 0x00000000#32))
      (FloatOps.cmpf (F := Ideal) (φ := .f32) .one y (Scalar.ofBits (F := Ideal) .f32 0x00000000#32)))
      (Scalar.ofBits (F := Ideal) .f32 0x00000000#32 : Ideal .f32) d = 0 := by
  show Scalar.select (IntOp.ori (Ideal.cmp .one x (Ideal.ofBits .f32 0x00000000#32)) (Ideal.cmp .one y (Ideal.ofBits .f32 0x00000000#32)))
    (Ideal.ofBits .f32 0x00000000#32) d = 0
  rw [Ideal.ofBits_zero_f32]
  unfold Ideal.cmp IntOp.ori
  have hb : (BitVec.ofBool (decide (x ≠ 0)) ||| BitVec.ofBool (decide (y ≠ 0))) = 1#1 := by
    rcases h with h | h
    · rw [decide_eq_true h]; cases decide (y ≠ 0) <;> rfl
    · rw [decide_eq_true h]; cases decide (x ≠ 0) <;> rfl
  simp only [hb]
  exact select_one _ _

/-- … and where both are zero it takes the other operand. -/
theorem edge_word_neg (x y d : EReal) (h : ¬(x ≠ 0 ∨ y ≠ 0)) :
    Scalar.select (IntOp.ori (FloatOps.cmpf (F := Ideal) (φ := .f32) .one x (Scalar.ofBits (F := Ideal) .f32 0x00000000#32))
      (FloatOps.cmpf (F := Ideal) (φ := .f32) .one y (Scalar.ofBits (F := Ideal) .f32 0x00000000#32)))
      (Scalar.ofBits (F := Ideal) .f32 0x00000000#32 : Ideal .f32) d = d := by
  show Scalar.select (IntOp.ori (Ideal.cmp .one x (Ideal.ofBits .f32 0x00000000#32)) (Ideal.cmp .one y (Ideal.ofBits .f32 0x00000000#32)))
    (Ideal.ofBits .f32 0x00000000#32) d = d
  rw [Ideal.ofBits_zero_f32]
  unfold Ideal.cmp IntOp.ori
  have hx : decide (x ≠ 0) = false := decide_eq_false (fun hx => h (Or.inl hx))
  have hy : decide (y ≠ 0) = false := decide_eq_false (fun hy => h (Or.inr hy))
  have hb : (BitVec.ofBool (decide (x ≠ 0)) ||| BitVec.ofBool (decide (y ≠ 0))) = 0#1 := by rw [hx, hy]; rfl
  simp only [hb]
  exact select_zero _ _

/-- The grid position's one coordinate is the point's number. -/
theorem coords0 : ∀ t : Fin grid0.N, (grid0.coords t 0).val = t.val := by decide +kernel

/-- The comparison of a position below 128 with 127, as a bit. -/
theorem bit127 (n : Nat) (hn : n < 128) : Scalar.cmpi .eq (BitVec.ofNat 32 n) 127#32 = if n = 127 then 1#1 else 0#1 := by
  by_cases h : n = 127
  · subst h; rfl
  · rw [if_neg h]
    have hne : BitVec.ofNat 32 n ≠ 127#32 := by
      intro e
      have := congrArg BitVec.toNat e
      simp at this
      omega
    show BitVec.ofBool (BitVec.ofNat 32 n == 127#32) = 0#1
    rw [beq_eq_false_iff_ne.mpr hne]; rfl

end B

namespace B

/-! ## The payloads read at an index of the block -/

section Payloads
variable (v1 v2 v3 v4 v6 v8 : Vec Ideal S32x4096 .f32)

/-- The effective mask of a block: the indicator of a nonzero source times the mask. -/
theorem pay8_apply (i : S32x4096.Idx) : k0_pay8 v2 v3 i = ind (v3 i) * v2 i :=
  congrArg (· * v2 i) (ind_word (v3 i))

/-- The effective mask of the blocks moved up one row. -/
theorem pay10_apply (i : S32x4096.Idx) : k0_pay10 v6 v8 i = ind (v6 i) * v8 i := by
  have h : k0_pay10 v6 v8 = k0_pay8 (shapeCast S32x4096 v8 shapeCasts_S32x4096_S32x4096)
      (shapeCast S32x4096 v6 shapeCasts_S32x4096_S32x4096) := rfl
  rw [h, shapeCast_self, shapeCast_self]
  exact pay8_apply v8 v6 i

/-- The column-direction difference of the target: the block moved up one row less the block. -/
theorem pay11_apply (i : S32x4096.Idx) : k0_pay11 v1 v4 i = v4 i - v1 i := by
  have h : k0_pay11 v1 v4 = subf (F := Ideal) (shapeCast S32x4096 v4 shapeCasts_S32x4096_S32x4096) v1 := rfl
  rw [h, shapeCast_self]
  rfl

/-- The row-direction difference of the target: the next column (the last staying) less the column. -/
theorem pay14_apply (a : Fin 32) (b : Fin 4096) : k0_pay14 v1 (ix2 a b) = v1 (ix2 a (nx b)) - v1 (ix2 a b) :=
  congrArg (· - v1 (ix2 a b)) (shiftL_apply v1 a b)

/-- The row-direction difference of the effective mask: the next column less the column, the last difference repeated. -/
theorem pay16_apply (a : Fin 32) (b : Fin 4096) :
    k0_pay16 v2 v3 (ix2 a b) = k0_pay8 v2 v3 (ix2 a (nx b)) - k0_pay8 v2 v3 (ix2 a (bk b)) :=
  congrArg₂ (· - ·) (shiftL_apply (k0_pay8 v2 v3) a b) (shiftR_apply (k0_pay8 v2 v3) a b)

/-- The rows of a block, the last replaced by the one before it. -/
def rowsBack {α : Type} (x : S32x4096.Idx → α) : S32x4096.Idx → α :=
  concatenate S32x4096 0 [⟨S31x4096, extractStridedSlice S31x4096 ![0, 0] x slices_S32x4096_o0_0_S31x4096⟩,
    ⟨S1x4096, extractStridedSlice S1x4096 ![30, 0] x slices_S32x4096_o30_0_S1x4096⟩] concatenates_S31x4096_S1x4096_S32x4096_d0

theorem pay13_eq (i : grid0.Coords) : k0_pay13 i v2 v3 v6 v8
    = subf (F := Ideal) (k0_pay10 v6 v8)
        (Scalar.select (Scalar.cmpi .eq (BitVec.ofNat 32 (i 0).val) 127#32) (rowsBack (k0_pay8 v2 v3)) (k0_pay8 v2 v3)) := rfl

/-- The column-direction difference of the effective mask at point `t`: the block moved up one row less the block, whose
    last row steps back by one at the last point only. -/
theorem pay13_apply (t : Fin cfg0.N) (a : Fin 32) (b : Fin 4096) :
    k0_pay13 (grid0.coords t) v2 v3 v6 v8 (ix2 a b)
      = k0_pay10 v6 v8 (ix2 a b) - k0_pay8 v2 v3 (ix2 (if t.val = 127 then bkl a else a) b) := by
  have ht : t.val < 128 := lt_of_lt_of_eq t.isLt (show cfg0.N = 128 from N_0)
  rw [pay13_eq, coords0 t, bit127 t.val ht]
  by_cases h : t.val = 127
  · rw [if_pos h, if_pos h, select_one]
    exact congrArg (k0_pay10 v6 v8 (ix2 a b) - ·) (shiftD_apply (k0_pay8 v2 v3) a b)
  · rw [if_neg h, if_neg h, select_zero]
    rfl

/-- The two outputs: the difference, zeroed where either mask difference is nonzero. -/
theorem pay2_pos (v28 v41 v43 : FVec Ideal S32x4096 .f32) (i : S32x4096.Idx) (h : v43 i ≠ 0 ∨ v28 i ≠ 0) :
    k0_pay2 v28 v41 v43 i = 0 := edge_word_pos (v43 i) (v28 i) (v41 i) h
theorem pay2_neg (v28 v41 v43 : FVec Ideal S32x4096 .f32) (i : S32x4096.Idx) (h : ¬(v43 i ≠ 0 ∨ v28 i ≠ 0)) :
    k0_pay2 v28 v41 v43 i = v41 i := edge_word_neg (v43 i) (v28 i) (v41 i) h
theorem pay3_pos (v22 v28 v43 : FVec Ideal S32x4096 .f32) (i : S32x4096.Idx) (h : v43 i ≠ 0 ∨ v28 i ≠ 0) :
    k0_pay3 v22 v28 v43 i = 0 := edge_word_pos (v43 i) (v28 i) (v22 i) h
theorem pay3_neg (v22 v28 v43 : FVec Ideal S32x4096 .f32) (i : S32x4096.Idx) (h : ¬(v43 i ≠ 0 ∨ v28 i ≠ 0)) :
    k0_pay3 v22 v28 v43 i = v22 i := edge_word_neg (v43 i) (v28 i) (v22 i) h

end Payloads

end B

namespace B

/-! ## From the block to the images: local row `a` of block `t` is global row `grow t a` -/

theorem grow_val (t : Fin cfg0.N) (a : Fin 32) : (grow t a).val = 32 * t.val + a.val := rfl
theorem bk_val (x : Fin 4096) : (bk x).val = if x.val + 1 < 4096 then x.val else 4094 := by
  unfold bk; split <;> rfl
theorem bkl_val (a : Fin 32) : (bkl a).val = if a.val + 1 < 32 then a.val else 30 := by
  unfold bkl; split <;> rfl

/-- Only the last block holds the image's last row: stepping back in the block there is stepping back in the image. -/
theorem grow_bk (t : Fin cfg0.N) (a : Fin 32) : grow t (if t.val = 127 then bkl a else a) = bk (grow t a) := by
  have ht : t.val < 128 := lt_of_lt_of_eq t.isLt (show cfg0.N = 128 from N_0)
  have ha := a.isLt
  apply Fin.ext
  rw [bk_val, grow_val, grow_val]
  by_cases h : t.val = 127
  · rw [if_pos h, bkl_val]; split_ifs <;> omega
  · rw [if_neg h]; split_ifs <;> omega

section Global
open scoped Classical
variable (c : Dev nD) (t : Fin cfg0.N)

theorem me_glob (a : Fin 32) (b : Fin 4096) :
    k0_pay8 (ib1 V c t) (ib2 V c t) (ix2 a b) = meff (Img.of (aM V c)) (Img.of (aS V c)) (grow t a) b := by
  refine (pay8_apply _ _ _).trans ?_
  exact congrArg₂ (fun x y => ind x * y) (ib2_apply V c t a b) (ib1_apply V c t a b)

theorem mey_glob (h : Shifted V c) (a : Fin 32) (b : Fin 4096) :
    k0_pay10 (ib4 V c t) (ib5 V c t) (ix2 a b) = meff (Img.of (aM V c)) (Img.of (aS V c)) (nx (grow t a)) b := by
  refine (pay10_apply _ _ _).trans ?_
  exact congrArg₂ (fun x y => ind x * y) ((ib4_apply V c t a b).trans (h.sy _ _)) ((ib5_apply V c t a b).trans (h.my _ _))

theorem gmy_glob (h : Shifted V c) (a : Fin 32) (b : Fin 4096) :
    k0_pay13 (grid0.coords t) (ib1 V c t) (ib2 V c t) (ib4 V c t) (ib5 V c t) (ix2 a b)
      = gmy (Img.of (aM V c)) (Img.of (aS V c)) (grow t a) b := by
  refine (pay13_apply _ _ _ _ t a b).trans ?_
  rw [mey_glob V c t h, me_glob V c t, grow_bk]
  rfl

theorem gmx_glob (a : Fin 32) (b : Fin 4096) :
    k0_pay16 (ib1 V c t) (ib2 V c t) (ix2 a b) = gmx (Img.of (aM V c)) (Img.of (aS V c)) (grow t a) b := by
  refine (pay16_apply _ _ a b).trans ?_
  rw [me_glob V c t, me_glob V c t]
  rfl

theorem dx_glob (a : Fin 32) (b : Fin 4096) :
    k0_pay14 (ib0 V c t) (ix2 a b) = dxA (Img.of (aT V c)) (grow t a) b := by
  refine (pay14_apply _ a b).trans ?_
  exact congrArg₂ (· - ·) (ib0_apply V c t a (nx b)) (ib0_apply V c t a b)

theorem dy_glob (h : Shifted V c) (a : Fin 32) (b : Fin 4096) :
    k0_pay11 (ib0 V c t) (ib3 V c t) (ix2 a b) = dyA (Img.of (aT V c)) (grow t a) b := by
  refine (pay11_apply _ _ _).trans ?_
  exact congrArg₂ (· - ·) ((ib3_apply V c t a b).trans (h.ty _ _)) (ib0_apply V c t a b)

/-- What point `t` stores for the row-direction output is the specification's image on the block's rows. -/
theorem blk8 (h : Shifted V c) (a : Fin 32) (b : Fin 4096) :
    ob8 V c t (ix2 a b) = gbx (Img.of (aT V c)) (Img.of (aM V c)) (Img.of (aS V c)) (grow t a) b := by
  rw [ob8_eq]
  have ex := gmx_glob V c t a b
  have ey := gmy_glob V c t h a b
  show _ = if edge (Img.of (aM V c)) (Img.of (aS V c)) (grow t a) b then 0 else dxA (Img.of (aT V c)) (grow t a) b
  by_cases he : edge (Img.of (aM V c)) (Img.of (aS V c)) (grow t a) b
  · rw [if_pos he]
    exact pay2_pos _ _ _ _ (by rw [ex, ey]; exact he)
  · rw [if_neg he]
    exact (pay2_neg _ _ _ _ (by rw [ex, ey]; exact he)).trans (dx_glob V c t a b)

/-- The same for the column-direction output. -/
theorem blk9 (h : Shifted V c) (a : Fin 32) (b : Fin 4096) :
    ob9 V c t (ix2 a b) = gby (Img.of (aT V c)) (Img.of (aM V c)) (Img.of (aS V c)) (grow t a) b := by
  rw [ob9_eq]
  have ex := gmx_glob V c t a b
  have ey := gmy_glob V c t h a b
  show _ = if edge (Img.of (aM V c)) (Img.of (aS V c)) (grow t a) b then 0 else dyA (Img.of (aT V c)) (grow t a) b
  by_cases he : edge (Img.of (aM V c)) (Img.of (aS V c)) (grow t a) b
  · rw [if_pos he]
    exact pay3_pos _ _ _ _ (by rw [ex, ey]; exact he)
  · rw [if_neg he]
    exact (pay3_neg _ _ _ _ (by rw [ex, ey]; exact he)).trans (dy_glob V c t h a b)

end Global

end B

theorem arr0_8 (c : Dev nD) (h : Shifted V c) : (dat0 V c).arrAt 8 cfg0.N = arr (gbx (Img.of (aT V c)) (Img.of (aM V c)) (Img.of (aS V c))) :=
  arr0_8_of_block V c _ (fun t a b => B.blk8 V c t h a b)
theorem arr0_9 (c : Dev nD) (h : Shifted V c) : (dat0 V c).arrAt 9 cfg0.N = arr (gby (Img.of (aT V c)) (Img.of (aM V c)) (Img.of (aS V c))) :=
  arr0_9_of_block V c _ (fun t a b => B.blk9 V c t h a b)

end Cert.KernelIdeal.HandValue

end
-- ==== Proof.KI.R1Value.lean ====
/-
  Region 1 at the extended reals: the 1 × 1 output array after the region holds the loss as one quotient — the sum over the
  64 blocks, over each block's 64 rows, of the two row sums of squared weighted residuals added, divided by the number of
  entries — of the six arrays the region reads.
-/
import proofs.«173863_j34935263986322_1_alg».proof.Proof.KI.R1Defs
import proofs.«173863_j34935263986322_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

/-! ## The payloads at an index -/

/-- A vector cast to a column reads, at an index, the operand at the index's first coordinate. -/
theorem shapeCast_col_apply {α : Type} {a : ℕ} (x : (⟨1, ![a]⟩ : Shape).Idx → α)
    (h : (⟨1, ![a]⟩ : Shape).ShapeCasts ⟨2, ![a, 1]⟩) (j : (⟨2, ![a, 1]⟩ : Shape).Idx) (i : (⟨1, ![a]⟩ : Shape).Idx)
    (hi : (i 0).val = (j 0).val) : shapeCast ⟨2, ![a, 1]⟩ x h j = x i :=
  shapeCast_apply x h j i (by
    rw [Shape.rowMajor_val_two, Shape.rowMajor_val_one, hi]
    have h1 : (j 1).val < 1 := (j 1).isLt
    show (j 0).val = (j 0).val * 1 + (j 1).val
    omega)

/-- One row sum of a 64 × 4096 block, cast to a column, read at a column index: the sum over the row's entries. -/
theorem rowsum_col_apply (X : FVec Ideal S64x4096 .f32) (hφ : FKind.Formats .f32)
    (hacc : (0x00000000#32 : BitVec 32) = FKind.add.neutral .f32 hφ) (j : S64x1.Idx) (r : Fin 64) (hr : r.val = (j 0).val) :
    shapeCast S64x1 (multiReduction .add [1] S64 X 0x00000000#32 reduces_S64x4096_S64 hφ hacc) shapeCasts_S64_S64x1 j
      = ∑ k : Fin 4096, X (ix2 r k) := by
  refine (shapeCast_col_apply _ shapeCasts_S64_S64x1 j (ix1 r) hr).trans ?_
  refine (Ideal.multiReduction_add_single X _ reduces_S64x4096_S64 hφ hacc (ix1 r)).trans ?_
  show ∑ k : Fin 4096, X (reduces_S64x4096_S64.lift (ix1 r) k) = ∑ k : Fin 4096, X (ix2 r k)
  refine Finset.sum_congr rfl fun k _ => congrArg X ?_
  exact Shape.idx_ext₂ rfl rfl

/-- The block's partial sum at its one index: over the block's 64 rows, the two row sums of squared weighted residuals added. -/
theorem pay4_apply (w1 gb1 w1' gs1 w2 gb2 w2' gs2 : Vec Ideal S64x4096 .f32) (j : S1x1.Idx) :
    k1_pay4 w1 gb1 w1' gs1 w2 gb2 w2' gs2 j
      = ∑ r : Fin 64,
          ((∑ k : Fin 4096, (w1 (ix2 r k) * gb1 (ix2 r k) - w1' (ix2 r k) * gs1 (ix2 r k))
              * (w1 (ix2 r k) * gb1 (ix2 r k) - w1' (ix2 r k) * gs1 (ix2 r k)))
            + ∑ k : Fin 4096, (w2 (ix2 r k) * gb2 (ix2 r k) - w2' (ix2 r k) * gs2 (ix2 r k))
              * (w2 (ix2 r k) * gb2 (ix2 r k) - w2' (ix2 r k) * gs2 (ix2 r k))) := by
  unfold k1_pay4
  simp only [shapeCast_self]
  refine (shapeCast_addUnit_apply ![1] _ shapeCasts_S1_S1x1 j).trans ?_
  refine (Ideal.multiReduction_add_single _ _ reduces_S64x1_S1 _ _ _).trans ?_
  show ∑ r : Fin 64, _ = ∑ r : Fin 64, _
  refine Finset.sum_congr rfl fun r _ => ?_
  refine congrArg₂ (· + ·) ?_ ?_
  · exact rowsum_col_apply _ _ _ _ r rfl
  · exact rowsum_col_apply _ _ _ _ r rfl

variable (V : (c : Dev nD) → (b : Ref sig .tc) → Buf (Elt Ideal) ((c : Thread nD τ).loc b))

/-- The six arrays region 1 reads, as it finds them: the two weights, the target's two differences, the masked source's two. -/
abbrev aWX (c : Dev nD) : FVec Ideal S4096x4096 .f32 := V c main_v9_0
abbrev aWY (c : Dev nD) : FVec Ideal S4096x4096 .f32 := V c main_v9_1
abbrev aGBX (c : Dev nD) : FVec Ideal S4096x4096 .f32 := V c main_v9_2
abbrev aGBY (c : Dev nD) : FVec Ideal S4096x4096 .f32 := V c main_v9_3
abbrev aGSX (c : Dev nD) : FVec Ideal S4096x4096 .f32 := V c main_v9_4
abbrev aGSY (c : Dev nD) : FVec Ideal S4096x4096 .f32 := V c main_v9_5

/-! ## The input blocks, read off their arrays -/

/-- A grid point as a block number. -/
def blockOf1 (t : Fin cfg1.N) : Fin 64 := ⟨t.val, Nat.lt_of_lt_of_eq t.isLt N_1⟩

/-- The six input windows' block indices at a point: the point's number along the rows, zero along the columns. -/
theorem index1_in : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0) :=
  (by decide +kernel : ∀ t : Fin grid1.N, _)

/-! Each input window's block at a point, read at a row and a column: the array at that row of the point's block. -/

theorem iblk1_0_apply (c : Dev nD) (t : Fin cfg1.N) (r : Fin 64) (k : Fin 4096) :
    (iblk1 V c 0 t : Vec Ideal S64x4096 .f32) (ix2 r k) = aWX V c (ix2 (row (blockOf1 t) r) k) := by
  obtain ⟨e0, e1, e2, e3, e4, e5⟩ := index1_in t
  unfold iblk1
  rw [View.read_apply]
  show V c main_v9_0 _ = V c main_v9_0 _
  congr 1
  funext a
  apply Fin.ext
  match a with
  | ⟨0, _⟩ => show win1_0.index t (0 : Fin 2) * 64 + 1 * r.val = 64 * t.val + r.val; rw [e0.1]; omega
  | ⟨1, _⟩ => show win1_0.index t (1 : Fin 2) * 4096 + 1 * k.val = k.val; rw [e0.2]; omega

theorem iblk1_1_apply (c : Dev nD) (t : Fin cfg1.N) (r : Fin 64) (k : Fin 4096) :
    (iblk1 V c 1 t : Vec Ideal S64x4096 .f32) (ix2 r k) = aWY V c (ix2 (row (blockOf1 t) r) k) := by
  obtain ⟨e0, e1, e2, e3, e4, e5⟩ := index1_in t
  unfold iblk1
  rw [View.read_apply]
  show V c main_v9_1 _ = V c main_v9_1 _
  congr 1
  funext a
  apply Fin.ext
  match a with
  | ⟨0, _⟩ => show win1_1.index t (0 : Fin 2) * 64 + 1 * r.val = 64 * t.val + r.val; rw [e1.1]; omega
  | ⟨1, _⟩ => show win1_1.index t (1 : Fin 2) * 4096 + 1 * k.val = k.val; rw [e1.2]; omega

theorem iblk1_2_apply (c : Dev nD) (t : Fin cfg1.N) (r : Fin 64) (k : Fin 4096) :
    (iblk1 V c 2 t : Vec Ideal S64x4096 .f32) (ix2 r k) = aGBX V c (ix2 (row (blockOf1 t) r) k) := by
  obtain ⟨e0, e1, e2, e3, e4, e5⟩ := index1_in t
  unfold iblk1
  rw [View.read_apply]
  show V c main_v9_2 _ = V c main_v9_2 _
  congr 1
  funext a
  apply Fin.ext
  match a with
  | ⟨0, _⟩ => show win1_2.index t (0 : Fin 2) * 64 + 1 * r.val = 64 * t.val + r.val; rw [e2.1]; omega
  | ⟨1, _⟩ => show win1_2.index t (1 : Fin 2) * 4096 + 1 * k.val = k.val; rw [e2.2]; omega

theorem iblk1_3_apply (c : Dev nD) (t : Fin cfg1.N) (r : Fin 64) (k : Fin 4096) :
    (iblk1 V c 3 t : Vec Ideal S64x4096 .f32) (ix2 r k) = aGBY V c (ix2 (row (blockOf1 t) r) k) := by
  obtain ⟨e0, e1, e2, e3, e4, e5⟩ := index1_in t
  unfold iblk1
  rw [View.read_apply]
  show V c main_v9_3 _ = V c main_v9_3 _
  congr 1
  funext a
  apply Fin.ext
  match a with
  | ⟨0, _⟩ => show win1_3.index t (0 : Fin 2) * 64 + 1 * r.val = 64 * t.val + r.val; rw [e3.1]; omega
  | ⟨1, _⟩ => show win1_3.index t (1 : Fin 2) * 4096 + 1 * k.val = k.val; rw [e3.2]; omega

theorem iblk1_4_apply (c : Dev nD) (t : Fin cfg1.N) (r : Fin 64) (k : Fin 4096) :
    (iblk1 V c 4 t : Vec Ideal S64x4096 .f32) (ix2 r k) = aGSX V c (ix2 (row (blockOf1 t) r) k) := by
  obtain ⟨e0, e1, e2, e3, e4, e5⟩ := index1_in t
  unfold iblk1
  rw [View.read_apply]
  show V c main_v9_4 _ = V c main_v9_4 _
  congr 1
  funext a
  apply Fin.ext
  match a with
  | ⟨0, _⟩ => show win1_4.index t (0 : Fin 2) * 64 + 1 * r.val = 64 * t.val + r.val; rw [e4.1]; omega
  | ⟨1, _⟩ => show win1_4.index t (1 : Fin 2) * 4096 + 1 * k.val = k.val; rw [e4.2]; omega

theorem iblk1_5_apply (c : Dev nD) (t : Fin cfg1.N) (r : Fin 64) (k : Fin 4096) :
    (iblk1 V c 5 t : Vec Ideal S64x4096 .f32) (ix2 r k) = aGSY V c (ix2 (row (blockOf1 t) r) k) := by
  obtain ⟨e0, e1, e2, e3, e4, e5⟩ := index1_in t
  unfold iblk1
  rw [View.read_apply]
  show V c main_v9_5 _ = V c main_v9_5 _
  congr 1
  funext a
  apply Fin.ext
  match a with
  | ⟨0, _⟩ => show win1_5.index t (0 : Fin 2) * 64 + 1 * r.val = 64 * t.val + r.val; rw [e5.1]; omega
  | ⟨1, _⟩ => show win1_5.index t (1 : Fin 2) * 4096 + 1 * k.val = k.val; rw [e5.2]; omega

/-- The sum one block of 64 rows contributes: over its rows, the two row sums of squared weighted residuals added. -/
def blockSum (WX WY GBX GBY GSX GSY : Img) (b : Fin 64) : EReal :=
  ∑ r : Fin 64,
    ((∑ k : Fin 4096, Spec.sq (WX (row b r) k) (GBX (row b r) k) (GSX (row b r) k))
      + ∑ k : Fin 4096, Spec.sq (WY (row b r) k) (GBY (row b r) k) (GSY (row b r) k))

theorem lossK_eq (WX WY GBX GBY GSX GSY : Img) :
    lossK WX WY GBX GBY GSX GSY = Ideal.div (∑ b : Fin 64, blockSum WX WY GBX GBY GSX GSY b) count := rfl

/-- The partial sum of a point, at its one index: the sum its block contributes. -/
theorem part1_apply (c : Dev nD) (t : Fin cfg1.N) (j : S1x1.Idx) :
    part1 V c t j = blockSum (Img.of (aWX V c)) (Img.of (aWY V c)) (Img.of (aGBX V c)) (Img.of (aGBY V c))
      (Img.of (aGSX V c)) (Img.of (aGSY V c)) (blockOf1 t) := by
  unfold part1
  refine (pay4_apply _ _ _ _ _ _ _ _ j).trans ?_
  unfold blockSum Spec.sq
  refine Finset.sum_congr rfl fun r _ => ?_
  refine congrArg₂ (· + ·) (Finset.sum_congr rfl fun k _ => ?_) (Finset.sum_congr rfl fun k _ => ?_)
  · rw [iblk1_0_apply, iblk1_2_apply, iblk1_4_apply]
  · rw [iblk1_1_apply, iblk1_3_apply, iblk1_5_apply]

/-! ## The accumulator after each point -/

/-- The sum block number `n` contributes, zero past the last block. -/
def partN (c : Dev nD) (n : ℕ) : EReal :=
  if h : n < 64 then blockSum (Img.of (aWX V c)) (Img.of (aWY V c)) (Img.of (aGBX V c)) (Img.of (aGBY V c))
      (Img.of (aGSX V c)) (Img.of (aGSY V c)) ⟨n, h⟩ else 0

theorem part1_eq_partN (c : Dev nD) (n : ℕ) (h : n < cfg1.N) (j : S1x1.Idx) : part1 V c ⟨n, h⟩ j = partN V c n := by
  have h64 : n < 64 := Nat.lt_of_lt_of_eq h N_1
  rw [part1_apply, partN, dif_pos h64]
  rfl

/-- The reset block is zero. -/
theorem pay3_apply (j : S1x1.Idx) : (k1_pay3 (F := Ideal)) j = 0 := by
  unfold k1_pay3
  simp only [shapeCast_self]
  exact Ideal.ofBits_zero_f32

/-- The accumulation step at its one index. -/
theorem pay1_apply (x : FVec Ideal S1x1 .f32) (acc : Vec Ideal S1x1 .f32) (j : S1x1.Idx) : k1_pay1 x acc j = acc j + x j := by
  unfold k1_pay1
  simp only [shapeCast_self]
  rfl

/-- What the accumulator holds after point `n`, at its one index: the sum the blocks up to `n` contribute. -/
theorem accAt_apply (c : Dev nD) : ∀ (n : ℕ) (h : n < cfg1.N) (j : S1x1.Idx),
    accAt V c n h j = ∑ s ∈ Finset.range (n + 1), partN V c s
  | 0, h, j => by
    rw [accAt_zero, pay1_apply, pay3_apply, part1_eq_partN, zero_add, Finset.sum_range_one]
  | n + 1, h, j => by
    rw [accAt_succ, pay1_apply, part1_eq_partN, accAt_apply c n (Nat.lt_of_succ_lt h) j, Finset.sum_range_succ _ (n + 1)]

/-- After the last point the accumulator holds the sum over all 64 blocks. -/
theorem accAt_last (c : Dev nD) (n : ℕ) (h : n < cfg1.N) (hn : n = 63) (j : S1x1.Idx) :
    accAt V c n h j = ∑ b : Fin 64, blockSum (Img.of (aWX V c)) (Img.of (aWY V c)) (Img.of (aGBX V c)) (Img.of (aGBY V c))
      (Img.of (aGSX V c)) (Img.of (aGSY V c)) b := by
  subst hn
  rw [accAt_apply, ← Fin.sum_univ_eq_sum_range (fun s => partN V c s) 64]
  refine Finset.sum_congr rfl fun b _ => ?_
  rw [partN, dif_pos b.isLt]

/-- The output block at the last point, at its one index: the loss. -/
theorem pay2_last (c : Dev nD) (n : ℕ) (h : n < cfg1.N) (hn : n = 63) (j : S1x1.Idx) :
    k1_pay2 (accAt V c n h) j = lossK (Img.of (aWX V c)) (Img.of (aWY V c)) (Img.of (aGBX V c)) (Img.of (aGBY V c))
      (Img.of (aGSX V c)) (Img.of (aGSY V c)) := by
  rw [lossK_eq, ← accAt_last V c n h hn j]
  rfl

/-! ## The output array -/

/-- The output window's block index is zero on both axes at every point, and its block is never cut. -/
theorem index1_out : ∀ t : Fin cfg1.N,
    win1_6.index t (0 : Fin 2) = 0 ∧ win1_6.index t (1 : Fin 2) = 0
    ∧ win1_6.xsize (grid1.coords t) (0 : Fin 2) = 1 ∧ win1_6.xsize (grid1.coords t) (1 : Fin 2) = 1 :=
  (by decide +kernel : ∀ t : Fin grid1.N, _)

/-- The output array after region 1: at its one index, the blockwise loss of the six arrays. -/
theorem arr1_6 (c : Dev nD) :
    ((dat1 V c).arrAt 6 cfg1.N : FVec Ideal S1x1 .f32)
      = fun _ => lossK (Img.of (aWX V c)) (Img.of (aWY V c)) (Img.of (aGBX V c)) (Img.of (aGBY V c)) (Img.of (aGSX V c)) (Img.of (aGSY V c)) := by
  have h63 : 63 < cfg1.N := Nat.lt_of_lt_of_eq (by decide) N_1.symm
  refine (dat1 V c).arrAt_eq_of_cover 6 _ (fun t hf => ?_) fun i => ⟨⟨63, h63⟩, (flush1_6 _).mpr rfl, ?_⟩
  · have ht : t.val = 63 := by
      have h1 := (flush1_6 t).mp hf
      have h2 : t.val < 64 := Nat.lt_of_lt_of_eq t.isLt N_1
      omega
    show (cfg1.win 6).cut (grid1.coords t) ((dat1 V c).after 6 t) = _
    rw [after1_6]
    funext y
    rw [View.read_apply]
    exact pay2_last V c t.val t.isLt ht _
  · show i ∈ ((View.whole main_v10).slice (win1_6.rect ⟨63, h63⟩)).set
    rw [View.set_slice_whole, Rect.mem_set_unit]
    obtain ⟨e0, e1, x0, x1⟩ := index1_out ⟨63, h63⟩
    intro a
    have h0 : (i 0 : Nat) < 1 := (i 0).isLt
    have h1 : (i 1 : Nat) < 1 := (i 1).isLt
    match a with
    | ⟨0, _⟩ =>
      show win1_6.index ⟨63, h63⟩ (0 : Fin 2) * 1 ≤ (i 0 : Nat) ∧ (i 0 : Nat) < win1_6.index ⟨63, h63⟩ (0 : Fin 2) * 1 + win1_6.xsize (grid1.coords ⟨63, h63⟩) (0 : Fin 2)
      rw [e0, x0]; omega
    | ⟨1, _⟩ =>
      show win1_6.index ⟨63, h63⟩ (1 : Fin 2) * 1 ≤ (i 1 : Nat) ∧ (i 1 : Nat) < win1_6.index ⟨63, h63⟩ (1 : Fin 2) * 1 + win1_6.xsize (grid1.coords ⟨63, h63⟩) (1 : Fin 2)
      rw [e1, x1]; omega

end Cert.KernelIdeal.HandValue

end
-- ==== Proof.KI.KernelValue.lean ====
/-
  The host operations around the two regions, at the extended reals. Before region 0 each of the three inputs is copied
  moved up by one row (rows 1 … 4095 followed by row 4095 again), so region 0 finds the three shifted copies; after
  region 1 the loss is read out of its 1 × 1 array and the two weights are laid side by side with a zero image. Together
  with the regions' values this gives the whole run of the kernel's program with every result at the specification's value.
-/
import proofs.«173863_j34935263986322_1_alg».proof.Proof.KI.Run
import proofs.«173863_j34935263986322_1_alg».proof.Proof.KI.R0ValueA
import proofs.«173863_j34935263986322_1_alg».proof.Proof.KI.R0ValueB
import proofs.«173863_j34935263986322_1_alg».proof.Proof.KI.R1Value
import proofs.«173863_j34935263986322_1_alg».proof.Proof.Gen.KernelIdeal.Regions
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Rows 1 … 4095 of an array followed by its row 4095 once more: read at row `r` it is the array at the next row,
    the last row staying where it is. -/
theorem shift_apply {α : Type} (x : S4096x4096.Idx → α) (r k : Fin 4096) :
    concatenate S4096x4096 0 [⟨S4095x4096, extractStridedSlice S4095x4096 ![1, 0] x slices_S4096x4096_S4095x4096_1_0⟩,
        ⟨S1x4096, extractStridedSlice S1x4096 ![4095, 0] x slices_S4096x4096_S1x4096_4095_0⟩]
        concatenates_S4095x4096_S1x4096_S4096x4096_d0 (ix2 r k)
      = x (ix2 (nx r) k) := by
  by_cases h : r.val + 1 < 4096
  · have hn : nx r = ⟨r.val + 1, h⟩ := dif_pos h
    refine (concatenate_pair_apply_left (t := S4096x4096) (s₁ := S4095x4096) (s₂ := S1x4096) 0 _ _
      concatenates_S4095x4096_S1x4096_S4096x4096_d0 (ix2 r k) rfl (ix2 (⟨r.val, by omega⟩ : Fin 4095) k) (fun b => by
        match b with
        | ⟨0, _⟩ => rfl
        | ⟨1, _⟩ => rfl)).trans ?_
    refine extractStridedSlice_apply _ x _ _ (ix2 (nx r) k) (fun a => ?_)
    rw [hn]
    match a with
    | ⟨0, _⟩ => show r.val + 1 = 1 + r.val; omega
    | ⟨1, _⟩ => show k.val = 0 + k.val; omega
  · have hn : nx r = r := dif_neg h
    have hr : r.val = 4095 := by have := r.isLt; omega
    refine (concatenate_pair_apply_right (t := S4096x4096) (s₁ := S4095x4096) (s₂ := S1x4096) 0 _ _
      concatenates_S4095x4096_S1x4096_S4096x4096_d0 (ix2 r k) rfl rfl (ix2 (0 : Fin 1) k) (fun b hb => by
        match b with
        | ⟨0, _⟩ => exact absurd rfl hb
        | ⟨1, _⟩ => rfl) (by show 0 + 4095 = r.val; omega)).trans ?_
    refine extractStridedSlice_apply _ x _ _ (ix2 (nx r) k) (fun a => ?_)
    rw [hn]
    match a with
    | ⟨0, _⟩ => show r.val = 4095 + 0; omega
    | ⟨1, _⟩ => show k.val = 0 + k.val; omega

/-- Region 0 finds the three inputs as launched and their three copies moved up by one row. -/
theorem V1_arg0 (c : Dev nD) : Hand.V1 m c main_arg0 = m ((c.tc : Thread nD τ).loc main_arg0) :=
  (Gen.V1_of m c main_arg0 (by decide)).trans rfl
theorem V1_arg1 (c : Dev nD) : Hand.V1 m c main_arg1 = m ((c.tc : Thread nD τ).loc main_arg1) :=
  (Gen.V1_of m c main_arg1 (by decide)).trans rfl
theorem V1_arg2 (c : Dev nD) : Hand.V1 m c main_arg2 = m ((c.tc : Thread nD τ).loc main_arg2) :=
  (Gen.V1_of m c main_arg2 (by decide)).trans rfl
/-- The three copies as the first host operations leave them: rows 1 … 4095 of the input, then its row 4095. -/
theorem V1_v2 (c : Dev nD) :
    (Hand.V1 m c main_v2 : FVec Ideal S4096x4096 .f32)
      = concatenate S4096x4096 0 [⟨S4095x4096, extractStridedSlice S4095x4096 ![1, 0] (m ((c.tc : Thread nD τ).loc main_arg0) : FVec Ideal S4096x4096 .f32) slices_S4096x4096_S4095x4096_1_0⟩,
          ⟨S1x4096, extractStridedSlice S1x4096 ![4095, 0] (m ((c.tc : Thread nD τ).loc main_arg0) : FVec Ideal S4096x4096 .f32) slices_S4096x4096_S1x4096_4095_0⟩]
          concatenates_S4095x4096_S1x4096_S4096x4096_d0 := by
  show StableHlo.after hostOps0 _ (Proc.devRef .tc main_v2) = _
  after_results
theorem V1_v5 (c : Dev nD) :
    (Hand.V1 m c main_v5 : FVec Ideal S4096x4096 .f32)
      = concatenate S4096x4096 0 [⟨S4095x4096, extractStridedSlice S4095x4096 ![1, 0] (m ((c.tc : Thread nD τ).loc main_arg2) : FVec Ideal S4096x4096 .f32) slices_S4096x4096_S4095x4096_1_0⟩,
          ⟨S1x4096, extractStridedSlice S1x4096 ![4095, 0] (m ((c.tc : Thread nD τ).loc main_arg2) : FVec Ideal S4096x4096 .f32) slices_S4096x4096_S1x4096_4095_0⟩]
          concatenates_S4095x4096_S1x4096_S4096x4096_d0 := by
  show StableHlo.after hostOps0 _ (Proc.devRef .tc main_v5) = _
  after_results
theorem V1_v8 (c : Dev nD) :
    (Hand.V1 m c main_v8 : FVec Ideal S4096x4096 .f32)
      = concatenate S4096x4096 0 [⟨S4095x4096, extractStridedSlice S4095x4096 ![1, 0] (m ((c.tc : Thread nD τ).loc main_arg1) : FVec Ideal S4096x4096 .f32) slices_S4096x4096_S4095x4096_1_0⟩,
          ⟨S1x4096, extractStridedSlice S1x4096 ![4095, 0] (m ((c.tc : Thread nD τ).loc main_arg1) : FVec Ideal S4096x4096 .f32) slices_S4096x4096_S1x4096_4095_0⟩]
          concatenates_S4095x4096_S1x4096_S4096x4096_d0 := by
  show StableHlo.after hostOps0 _ (Proc.devRef .tc main_v8) = _
  after_results

theorem shifted_V1 (c : Dev nD) : Shifted (V1 m) c where
  ty r k := (congrFun (V1_v2 m c) (ix2 r k)).trans ((shift_apply _ r k).trans (congrFun (V1_arg0 m c) (ix2 (nx r) k)).symm)
  sy r k := (congrFun (V1_v5 m c) (ix2 r k)).trans ((shift_apply _ r k).trans (congrFun (V1_arg2 m c) (ix2 (nx r) k)).symm)
  my r k := (congrFun (V1_v8 m c) (ix2 r k)).trans ((shift_apply _ r k).trans (congrFun (V1_arg1 m c) (ix2 (nx r) k)).symm)

/-! ## The three launch images -/

/-- The target, the mask and the source as core `c` holds them at launch. -/
abbrev LT (c : Dev nD) : Img := Img.of (m ((c.tc : Thread nD τ).loc main_arg0))
abbrev LM (c : Dev nD) : Img := Img.of (m ((c.tc : Thread nD τ).loc main_arg1))
abbrev LS (c : Dev nD) : Img := Img.of (m ((c.tc : Thread nD τ).loc main_arg2))

/-! ## Region 0's six output arrays after the region, of the launch images -/

theorem V2_v9_0 (c : Dev nD) : (Hand.V2 m c main_v9_0 : FVec Ideal S4096x4096 .f32) = arr (wx (LM m c) (LS m c)) := by
  have e1 : aM (Hand.V1 m) c = (m ((c.tc : Thread nD τ).loc main_arg1) : FVec Ideal S4096x4096 .f32) := V1_arg1 m c
  have e2 : aS (Hand.V1 m) c = (m ((c.tc : Thread nD τ).loc main_arg2) : FVec Ideal S4096x4096 .f32) := V1_arg2 m c
  refine (W2_arr m c 6).trans ((arr0_6 (Hand.V1 m) c (shifted_V1 m c)).trans ?_)
  rw [e1, e2]
theorem V2_v9_1 (c : Dev nD) : (Hand.V2 m c main_v9_1 : FVec Ideal S4096x4096 .f32) = arr (wy (LM m c) (LS m c)) := by
  have e1 : aM (Hand.V1 m) c = (m ((c.tc : Thread nD τ).loc main_arg1) : FVec Ideal S4096x4096 .f32) := V1_arg1 m c
  have e2 : aS (Hand.V1 m) c = (m ((c.tc : Thread nD τ).loc main_arg2) : FVec Ideal S4096x4096 .f32) := V1_arg2 m c
  refine (W2_arr m c 7).trans ((arr0_7 (Hand.V1 m) c (shifted_V1 m c)).trans ?_)
  rw [e1, e2]
theorem V2_v9_2 (c : Dev nD) : (Hand.V2 m c main_v9_2 : FVec Ideal S4096x4096 .f32) = arr (gbx (LT m c) (LM m c) (LS m c)) := by
  have e0 : aT (Hand.V1 m) c = (m ((c.tc : Thread nD τ).loc main_arg0) : FVec Ideal S4096x4096 .f32) := V1_arg0 m c
  have e1 : aM (Hand.V1 m) c = (m ((c.tc : Thread nD τ).loc main_arg1) : FVec Ideal S4096x4096 .f32) := V1_arg1 m c
  have e2 : aS (Hand.V1 m) c = (m ((c.tc : Thread nD τ).loc main_arg2) : FVec Ideal S4096x4096 .f32) := V1_arg2 m c
  refine (W2_arr m c 8).trans ((arr0_8 (Hand.V1 m) c (shifted_V1 m c)).trans ?_)
  rw [e0, e1, e2]
theorem V2_v9_3 (c : Dev nD) : (Hand.V2 m c main_v9_3 : FVec Ideal S4096x4096 .f32) = arr (gby (LT m c) (LM m c) (LS m c)) := by
  have e0 : aT (Hand.V1 m) c = (m ((c.tc : Thread nD τ).loc main_arg0) : FVec Ideal S4096x4096 .f32) := V1_arg0 m c
  have e1 : aM (Hand.V1 m) c = (m ((c.tc : Thread nD τ).loc main_arg1) : FVec Ideal S4096x4096 .f32) := V1_arg1 m c
  have e2 : aS (Hand.V1 m) c = (m ((c.tc : Thread nD τ).loc main_arg2) : FVec Ideal S4096x4096 .f32) := V1_arg2 m c
  refine (W2_arr m c 9).trans ((arr0_9 (Hand.V1 m) c (shifted_V1 m c)).trans ?_)
  rw [e0, e1, e2]
theorem V2_v9_4 (c : Dev nD) : (Hand.V2 m c main_v9_4 : FVec Ideal S4096x4096 .f32) = arr (gsx (LM m c) (LS m c)) := by
  have e1 : aM (Hand.V1 m) c = (m ((c.tc : Thread nD τ).loc main_arg1) : FVec Ideal S4096x4096 .f32) := V1_arg1 m c
  have e2 : aS (Hand.V1 m) c = (m ((c.tc : Thread nD τ).loc main_arg2) : FVec Ideal S4096x4096 .f32) := V1_arg2 m c
  refine (W2_arr m c 10).trans ((arr0_10 (Hand.V1 m) c (shifted_V1 m c)).trans ?_)
  rw [e1, e2]
theorem V2_v9_5 (c : Dev nD) : (Hand.V2 m c main_v9_5 : FVec Ideal S4096x4096 .f32) = arr (gsy (LM m c) (LS m c)) := by
  have e1 : aM (Hand.V1 m) c = (m ((c.tc : Thread nD τ).loc main_arg1) : FVec Ideal S4096x4096 .f32) := V1_arg1 m c
  have e2 : aS (Hand.V1 m) c = (m ((c.tc : Thread nD τ).loc main_arg2) : FVec Ideal S4096x4096 .f32) := V1_arg2 m c
  refine (W2_arr m c 11).trans ((arr0_11 (Hand.V1 m) c (shifted_V1 m c)).trans ?_)
  rw [e1, e2]

/-! ## Region 1 finds them unchanged and leaves them unchanged: they are its input windows -/

theorem W3_v9_0 (c : Dev nD) : (W3 m c (Proc.devRef .tc main_v9_0) : FVec Ideal S4096x4096 .f32) = Hand.V2 m c main_v9_0 :=
  (W3_arr m c 0).trans (((dat1 (Hand.V2 m) c).arrAt_in 0 rfl _).trans (A_eq1 (Hand.V2 m) c 0))
theorem W3_v9_1 (c : Dev nD) : (W3 m c (Proc.devRef .tc main_v9_1) : FVec Ideal S4096x4096 .f32) = Hand.V2 m c main_v9_1 :=
  (W3_arr m c 1).trans (((dat1 (Hand.V2 m) c).arrAt_in 1 rfl _).trans (A_eq1 (Hand.V2 m) c 1))
theorem W3_v9_2 (c : Dev nD) : (W3 m c (Proc.devRef .tc main_v9_2) : FVec Ideal S4096x4096 .f32) = Hand.V2 m c main_v9_2 :=
  (W3_arr m c 2).trans (((dat1 (Hand.V2 m) c).arrAt_in 2 rfl _).trans (A_eq1 (Hand.V2 m) c 2))
theorem W3_v9_3 (c : Dev nD) : (W3 m c (Proc.devRef .tc main_v9_3) : FVec Ideal S4096x4096 .f32) = Hand.V2 m c main_v9_3 :=
  (W3_arr m c 3).trans (((dat1 (Hand.V2 m) c).arrAt_in 3 rfl _).trans (A_eq1 (Hand.V2 m) c 3))
theorem W3_v9_4 (c : Dev nD) : (W3 m c (Proc.devRef .tc main_v9_4) : FVec Ideal S4096x4096 .f32) = Hand.V2 m c main_v9_4 :=
  (W3_arr m c 4).trans (((dat1 (Hand.V2 m) c).arrAt_in 4 rfl _).trans (A_eq1 (Hand.V2 m) c 4))
theorem W3_v9_5 (c : Dev nD) : (W3 m c (Proc.devRef .tc main_v9_5) : FVec Ideal S4096x4096 .f32) = Hand.V2 m c main_v9_5 :=
  (W3_arr m c 5).trans (((dat1 (Hand.V2 m) c).arrAt_in 5 rfl _).trans (A_eq1 (Hand.V2 m) c 5))

/-! ## The three arguments through both regions: input windows of region 0, no array of region 1 -/

theorem W3_arg0 (c : Dev nD) : W3 m c (Proc.devRef .tc main_arg0) = m ((c.tc : Thread nD τ).loc main_arg0) :=
  (W3_of_ne m c main_arg0 (by decide)).trans ((W2_arr m c 0).trans (((dat0 (Hand.V1 m) c).arrAt_in 0 rfl _).trans
    ((A_eq0 (Hand.V1 m) c 0).trans (V1_arg0 m c))))
theorem W3_arg1 (c : Dev nD) : W3 m c (Proc.devRef .tc main_arg1) = m ((c.tc : Thread nD τ).loc main_arg1) :=
  (W3_of_ne m c main_arg1 (by decide)).trans ((W2_arr m c 1).trans (((dat0 (Hand.V1 m) c).arrAt_in 1 rfl _).trans
    ((A_eq0 (Hand.V1 m) c 1).trans (V1_arg1 m c))))
theorem W3_arg2 (c : Dev nD) : W3 m c (Proc.devRef .tc main_arg2) = m ((c.tc : Thread nD τ).loc main_arg2) :=
  (W3_of_ne m c main_arg2 (by decide)).trans ((W2_arr m c 2).trans (((dat0 (Hand.V1 m) c).arrAt_in 2 rfl _).trans
    ((A_eq0 (Hand.V1 m) c 2).trans (V1_arg2 m c))))

/-! ## The last host operations -/

/-- A reference none of the last host operations writes holds what region 1 left. -/
theorem W4_of (c : Dev nD) (r : Ref sig .tc) (h : r ∉ hostOps2_W) : W4 m c (Proc.devRef .tc r) = W3 m c (Proc.devRef .tc r) :=
  StableHlo.after_of_writes_sub hostOps2 _ hostOps2_writes h

/-- The loss's rank-0 result is the 1 × 1 array region 1 left, recast. -/
theorem W4_v11 (c : Dev nD) :
    (W4 m c (Proc.devRef .tc main_v11) : FVec Ideal S_ .f32)
      = fun i => shapeCast S_ (W3 m c (Proc.devRef .tc main_v10) : FVec Ideal S1x1 .f32) shapeCasts_S1x1_S_ i := by
  show StableHlo.after hostOps2 _ (Proc.devRef .tc main_v11) = _
  after_results
  first | done | rfl

/-- The 1 × 1 array region 1 leaves: the blockwise loss of region 0's six images. -/
theorem W3_v10 (c : Dev nD) :
    (W3 m c (Proc.devRef .tc main_v10) : FVec Ideal S1x1 .f32) = fun _ => lossK (wx (LM m c) (LS m c)) (wy (LM m c) (LS m c)) (gbx (LT m c) (LM m c) (LS m c)) (gby (LT m c) (LM m c) (LS m c)) (gsx (LM m c) (LS m c)) (gsy (LM m c) (LS m c)) := by
  have e0 : aWX (Hand.V2 m) c = arr (wx (LM m c) (LS m c)) := V2_v9_0 m c
  have e1 : aWY (Hand.V2 m) c = arr (wy (LM m c) (LS m c)) := V2_v9_1 m c
  have e2 : aGBX (Hand.V2 m) c = arr (gbx (LT m c) (LM m c) (LS m c)) := V2_v9_2 m c
  have e3 : aGBY (Hand.V2 m) c = arr (gby (LT m c) (LM m c) (LS m c)) := V2_v9_3 m c
  have e4 : aGSX (Hand.V2 m) c = arr (gsx (LM m c) (LS m c)) := V2_v9_4 m c
  have e5 : aGSY (Hand.V2 m) c = arr (gsy (LM m c) (LS m c)) := V2_v9_5 m c
  refine (W3_arr m c 6).trans ((arr1_6 (Hand.V2 m) c).trans ?_)
  rw [e0, e1, e2, e3, e4, e5]
  rfl

/-- The loss's rank-0 result: the blockwise loss at its one index. -/
theorem W4_v11_val (c : Dev nD) :
    (W4 m c (Proc.devRef .tc main_v11) : FVec Ideal S_ .f32) = fun _ => lossK (wx (LM m c) (LS m c)) (wy (LM m c) (LS m c)) (gbx (LT m c) (LM m c) (LS m c)) (gby (LT m c) (LM m c) (LS m c)) (gsx (LM m c) (LS m c)) (gsy (LM m c) (LS m c)) :=
  (W4_v11 m c).trans ((congrArg (fun x : FVec Ideal S1x1 .f32 => (fun i => shapeCast S_ x shapeCasts_S1x1_S_ i : FVec Ideal S_ .f32)) (W3_v10 m c)).trans rfl)

/-- An operation of three operands leaves its result at its function of the three operands' contents, each at its own reference. -/
theorem nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]
  congr 1
  funext k
  match k with
  | ⟨0, _⟩ => rfl
  | ⟨1, _⟩ => rfl
  | ⟨2, _⟩ => rfl

/-- The wide result: the two weights region 1 left beside a zero image. -/
theorem W4_v13 (c : Dev nD) :
    (W4 m c (Proc.devRef .tc main_v13) : FVec Ideal S4096x12288 .f32)
      = concatenate S4096x12288 1 [⟨S4096x4096, (W3 m c (Proc.devRef .tc main_v9_0) : FVec Ideal S4096x4096 .f32)⟩, ⟨S4096x4096, (W3 m c (Proc.devRef .tc main_v9_1) : FVec Ideal S4096x4096 .f32)⟩,
          ⟨S4096x4096, broadcastInDim S4096x4096 ![] bcast_S_S4096x4096 (constant (F := Ideal) S_ .f32 0x00000000#32)⟩] concatenates_S4096x4096_S4096x4096_S4096x4096_S4096x12288_d1 := by
  show StableHlo.after hostOps2 _ (Proc.devRef .tc main_v13) = _
  simp only [StableHlo.after_cons, StableHlo.after_nil]
  rw [nary3_result]
  repeat (first
    | rw [StableHlo.unary_result] | rw [StableHlo.nullary_result]
    | (rw [StableHlo.unary_result_ne]; rotate_left; decide)
    | (rw [StableHlo.nullary_result_ne]; rotate_left; decide)
    | (rw [StableHlo.reshape_result_ne]; rotate_left; decide))
  rfl

theorem W4_v13_val (c : Dev nD) :
    (W4 m c (Proc.devRef .tc main_v13) : FVec Ideal S4096x12288 .f32)
      = concatenate S4096x12288 1 [⟨S4096x4096, arr (wx (LM m c) (LS m c))⟩, ⟨S4096x4096, arr (wy (LM m c) (LS m c))⟩,
          ⟨S4096x4096, broadcastInDim S4096x4096 ![] bcast_S_S4096x4096 (constant (F := Ideal) S_ .f32 0x00000000#32)⟩] concatenates_S4096x4096_S4096x4096_S4096x4096_S4096x12288_d1 :=
  (W4_v13 m c).trans (congrArg₂ (fun a b : FVec Ideal S4096x4096 .f32 => concatenate S4096x12288 1 [⟨S4096x4096, a⟩, ⟨S4096x4096, b⟩,
          ⟨S4096x4096, broadcastInDim S4096x4096 ![] bcast_S_S4096x4096 (constant (F := Ideal) S_ .f32 0x00000000#32)⟩] concatenates_S4096x4096_S4096x4096_S4096x4096_S4096x12288_d1)
    ((W3_v9_0 m c).trans (V2_v9_0 m c)) ((W3_v9_1 m c).trans (V2_v9_1 m c)))

/-- THE KERNEL'S RUN WITH VALUES: every weakly fair execution of the kernel's program terminates with the six results at
    the specification's values of the three arguments' launch contents — the loss in its blockwise form —, the arguments unchanged. -/
theorem kernel_run_spec :
    θ_run (defs (F := Ideal)) (onTc (τ := τ) (main (F := Ideal))) ⟨m, fun _ => 0, ρ⟩ fun r => ∀ c : Dev nD,
      r.2.mem ((c.tc : Thread nD τ).loc main_v11)
          = (fun _ => lossK (wx (Img.of (m ((c.tc : Thread nD τ).loc main_arg1))) (Img.of (m ((c.tc : Thread nD τ).loc main_arg2)))) (wy (Img.of (m ((c.tc : Thread nD τ).loc main_arg1))) (Img.of (m ((c.tc : Thread nD τ).loc main_arg2)))) (gbx (Img.of (m ((c.tc : Thread nD τ).loc main_arg0))) (Img.of (m ((c.tc : Thread nD τ).loc main_arg1))) (Img.of (m ((c.tc : Thread nD τ).loc main_arg2)))) (gby (Img.of (m ((c.tc : Thread nD τ).loc main_arg0))) (Img.of (m ((c.tc : Thread nD τ).loc main_arg1))) (Img.of (m ((c.tc : Thread nD τ).loc main_arg2)))) (gsx (Img.of (m ((c.tc : Thread nD τ).loc main_arg1))) (Img.of (m ((c.tc : Thread nD τ).loc main_arg2)))) (gsy (Img.of (m ((c.tc : Thread nD τ).loc main_arg1))) (Img.of (m ((c.tc : Thread nD τ).loc main_arg2)))))
      ∧ r.2.mem ((c.tc : Thread nD τ).loc main_v13)
          = concatenate S4096x12288 1 [⟨S4096x4096, arr (wx (Img.of (m ((c.tc : Thread nD τ).loc main_arg1))) (Img.of (m ((c.tc : Thread nD τ).loc main_arg2))))⟩, ⟨S4096x4096, arr (wy (Img.of (m ((c.tc : Thread nD τ).loc main_arg1))) (Img.of (m ((c.tc : Thread nD τ).loc main_arg2))))⟩,
              ⟨S4096x4096, broadcastInDim S4096x4096 ![] bcast_S_S4096x4096 (constant (F := Ideal) S_ .f32 0x00000000#32)⟩] concatenates_S4096x4096_S4096x4096_S4096x4096_S4096x12288_d1
      ∧ r.2.mem ((c.tc : Thread nD τ).loc main_v9_2) = arr (gbx (Img.of (m ((c.tc : Thread nD τ).loc main_arg0))) (Img.of (m ((c.tc : Thread nD τ).loc main_arg1))) (Img.of (m ((c.tc : Thread nD τ).loc main_arg2))))
      ∧ r.2.mem ((c.tc : Thread nD τ).loc main_v9_3) = arr (gby (Img.of (m ((c.tc : Thread nD τ).loc main_arg0))) (Img.of (m ((c.tc : Thread nD τ).loc main_arg1))) (Img.of (m ((c.tc : Thread nD τ).loc main_arg2))))
      ∧ r.2.mem ((c.tc : Thread nD τ).loc main_v9_4) = arr (gsx (Img.of (m ((c.tc : Thread nD τ).loc main_arg1))) (Img.of (m ((c.tc : Thread nD τ).loc main_arg2))))
      ∧ r.2.mem ((c.tc : Thread nD τ).loc main_v9_5) = arr (gsy (Img.of (m ((c.tc : Thread nD τ).loc main_arg1))) (Img.of (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ⟨?_, ?_, ?_, ?_, ?_, ?_, ?_, ?_, ?_⟩) (run_all m ρ)
  · exact (h c _ (mem_uc main_v11 (by decide))).trans (W4_v11_val m c)
  · exact (h c _ (mem_uc main_v13 (by decide))).trans (W4_v13_val m c)
  · exact (h c _ (mem_uc main_v9_2 (by decide))).trans ((W4_of m c main_v9_2 (by decide)).trans ((W3_v9_2 m c).trans (V2_v9_2 m c)))
  · exact (h c _ (mem_uc main_v9_3 (by decide))).trans ((W4_of m c main_v9_3 (by decide)).trans ((W3_v9_3 m c).trans (V2_v9_3 m c)))
  · exact (h c _ (mem_uc main_v9_4 (by decide))).trans ((W4_of m c main_v9_4 (by decide)).trans ((W3_v9_4 m c).trans (V2_v9_4 m c)))
  · exact (h c _ (mem_uc main_v9_5 (by decide))).trans ((W4_of m c main_v9_5 (by decide)).trans ((W3_v9_5 m c).trans (V2_v9_5 m c)))
  · exact (h c _ (mem_uc main_arg0 (by decide))).trans ((W4_of m c main_arg0 (by decide)).trans (W3_arg0 m c))
  · exact (h c _ (mem_uc main_arg1 (by decide))).trans ((W4_of m c main_arg1 (by decide)).trans (W3_arg1 m c))
  · exact (h c _ (mem_uc main_arg2 (by decide))).trans ((W4_of m c main_arg2 (by decide)).trans (W3_arg2 m c))

end Cert.KernelIdeal.HandValue

end
-- ==== Proof.Ref.RefStages.lean ====
/-
  The reference's intermediate arrays at the extended reals, each as the specification's image of the three arguments:
  the effective mask, the masked source, the masked source's two forward differences, and the target's two forward
  differences zeroed on the effective mask's edges.
-/
import proofs.«173863_j34935263986322_1_alg».proof.Proof.Gen.ReferenceIdeal.Run
import proofs.«173863_j34935263986322_1_alg».proof.Proof.Gen.ReferenceIdeal.Read
import proofs.«173863_j34935263986322_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx
open Idealize.SL Idealize.SL.Sem

/-! ## Single values -/

/-- "Nonzero" as a bit, read back as a number, is the indicator. -/
theorem uitofp_une_zero (x : EReal) :
    (FloatOps.uitofp (F := Ideal) .f32
      (FloatOps.cmpf (F := Ideal) (φ := .f32) .une x (FloatOps.ofBits (F := Ideal) .f32 0x00000000#32)) : Ideal .f32)
      = ind x := by
  show (((Ideal.cmp .une x (Ideal.ofBits .f32 0x00000000#32)).toNat : ℝ) : EReal) = ind x
  rw [Ideal.ofBits_zero_f32]
  unfold ind Ideal.cmp
  by_cases h : x = 0 <;> simp [h]

/-- A choice of zero where either of two numbers is nonzero. -/
theorem select_ori_une (a b d : EReal) (p : Prop) [Decidable p] (hp : p ↔ (a ≠ 0 ∨ b ≠ 0)) :
    Scalar.select (IntOp.ori
        (FloatOps.cmpf (F := Ideal) (φ := .f32) .une a (FloatOps.ofBits (F := Ideal) .f32 0x00000000#32))
        (FloatOps.cmpf (F := Ideal) (φ := .f32) .une b (FloatOps.ofBits (F := Ideal) .f32 0x00000000#32)))
      (FloatOps.ofBits (F := Ideal) .f32 0x00000000#32 : Ideal .f32) d = if p then 0 else d := by
  show Scalar.select (IntOp.ori (Ideal.cmp .une a (Ideal.ofBits .f32 0x00000000#32))
      (Ideal.cmp .une b (Ideal.ofBits .f32 0x00000000#32))) (Ideal.ofBits .f32 0x00000000#32) d = if p then 0 else d
  rw [Ideal.ofBits_zero_f32]
  unfold Ideal.cmp IntOp.ori Scalar.select
  by_cases ha : a = 0 <;> by_cases hb : b = 0 <;> simp [hp, ha, hb]

/-! ## Two pieces side by side, read at an index -/

section Pieces
variable {α : Type}

/-- Columns: an entry left of the seam comes from the first piece. -/
theorem catx_left (y : S4096x4096.Idx → α) (z : S4096x1.Idx → α) (r : Fin 4096) (k : Fin 4097) (k' : Fin 4096)
    (hk : k'.val = k.val) :
    concatenate S4096x4097 1 [⟨S4096x4096, y⟩, ⟨S4096x1, z⟩] concatenates_S4096x4096_S4096x1_S4096x4097_d1 (ix2 r k)
      = y (ix2 r k') :=
  concatenate_pair_apply_left (t := S4096x4097) (s₁ := S4096x4096) (s₂ := S4096x1) (1 : Fin 2) y z
    concatenates_S4096x4096_S4096x1_S4096x4097_d1 (ix2 r k) rfl (ix2 r k') (fun b => by
      match b with
      | ⟨0, _⟩ => rfl
      | ⟨1, _⟩ => exact hk)

/-- Columns: the entry past the seam is the second piece's. -/
theorem catx_right (y : S4096x4096.Idx → α) (z : S4096x1.Idx → α) (r : Fin 4096) (k : Fin 4097)
    (hk : k.val = 4096) :
    concatenate S4096x4097 1 [⟨S4096x4096, y⟩, ⟨S4096x1, z⟩] concatenates_S4096x4096_S4096x1_S4096x4097_d1 (ix2 r k)
      = z (ix2 r (⟨0, by omega⟩ : Fin 1)) :=
  concatenate_pair_apply_right (t := S4096x4097) (s₁ := S4096x4096) (s₂ := S4096x1) (1 : Fin 2) y z
    concatenates_S4096x4096_S4096x1_S4096x4097_d1 (ix2 r k) rfl rfl (ix2 r (⟨0, by omega⟩ : Fin 1))
    (fun b hb => by
      match b with
      | ⟨0, _⟩ => rfl
      | ⟨1, _⟩ => exact absurd rfl hb)
    (by show 0 + 4096 = k.val; omega)

/-- Rows: an entry above the seam comes from the first piece. -/
theorem caty_left (y : S4096x4096.Idx → α) (z : S1x4096.Idx → α) (r : Fin 4097) (k : Fin 4096) (r' : Fin 4096)
    (hr : r'.val = r.val) :
    concatenate S4097x4096 0 [⟨S4096x4096, y⟩, ⟨S1x4096, z⟩] concatenates_S4096x4096_S1x4096_S4097x4096_d0 (ix2 r k)
      = y (ix2 r' k) :=
  concatenate_pair_apply_left (t := S4097x4096) (s₁ := S4096x4096) (s₂ := S1x4096) (0 : Fin 2) y z
    concatenates_S4096x4096_S1x4096_S4097x4096_d0 (ix2 r k) rfl (ix2 r' k) (fun b => by
      match b with
      | ⟨0, _⟩ => exact hr
      | ⟨1, _⟩ => rfl)

/-- Rows: the entry past the seam is the second piece's. -/
theorem caty_right (y : S4096x4096.Idx → α) (z : S1x4096.Idx → α) (r : Fin 4097) (k : Fin 4096)
    (hr : r.val = 4096) :
    concatenate S4097x4096 0 [⟨S4096x4096, y⟩, ⟨S1x4096, z⟩] concatenates_S4096x4096_S1x4096_S4097x4096_d0 (ix2 r k)
      = z (ix2 (⟨0, by omega⟩ : Fin 1) k) :=
  concatenate_pair_apply_right (t := S4097x4096) (s₁ := S4096x4096) (s₂ := S1x4096) (0 : Fin 2) y z
    concatenates_S4096x4096_S1x4096_S4097x4096_d0 (ix2 r k) rfl rfl (ix2 (⟨0, by omega⟩ : Fin 1) k)
    (fun b hb => by
      match b with
      | ⟨0, _⟩ => exact absurd rfl hb
      | ⟨1, _⟩ => rfl)
    (by show 0 + 4096 = r.val; omega)

end Pieces

section Pieces2
variable {α : Type}

/-- Columns, all but the last and the last: an entry left of the seam comes from the first piece. -/
theorem catx2_left (y : S4096x4095.Idx → α) (z : S4096x1.Idx → α) (r : Fin 4096) (k : Fin 4096) (k' : Fin 4095)
    (hk : k'.val = k.val) :
    concatenate S4096x4096 1 [⟨S4096x4095, y⟩, ⟨S4096x1, z⟩] concatenates_S4096x4095_S4096x1_S4096x4096_d1 (ix2 r k)
      = y (ix2 r k') :=
  concatenate_pair_apply_left (t := S4096x4096) (s₁ := S4096x4095) (s₂ := S4096x1) (1 : Fin 2) y z
    concatenates_S4096x4095_S4096x1_S4096x4096_d1 (ix2 r k) rfl (ix2 r k') (fun b => by
      match b with
      | ⟨0, _⟩ => rfl
      | ⟨1, _⟩ => exact hk)

/-- Columns: the last entry is the second piece's. -/
theorem catx2_right (y : S4096x4095.Idx → α) (z : S4096x1.Idx → α) (r : Fin 4096) (k : Fin 4096)
    (hk : k.val = 4095) :
    concatenate S4096x4096 1 [⟨S4096x4095, y⟩, ⟨S4096x1, z⟩] concatenates_S4096x4095_S4096x1_S4096x4096_d1 (ix2 r k)
      = z (ix2 r (⟨0, by omega⟩ : Fin 1)) :=
  concatenate_pair_apply_right (t := S4096x4096) (s₁ := S4096x4095) (s₂ := S4096x1) (1 : Fin 2) y z
    concatenates_S4096x4095_S4096x1_S4096x4096_d1 (ix2 r k) rfl rfl (ix2 r (⟨0, by omega⟩ : Fin 1))
    (fun b hb => by
      match b with
      | ⟨0, _⟩ => rfl
      | ⟨1, _⟩ => exact absurd rfl hb)
    (by show 0 + 4095 = k.val; omega)

/-- Rows, all but the last and the last: an entry above the seam comes from the first piece. -/
theorem caty2_left (y : S4095x4096.Idx → α) (z : S1x4096.Idx → α) (r : Fin 4096) (k : Fin 4096) (r' : Fin 4095)
    (hr : r'.val = r.val) :
    concatenate S4096x4096 0 [⟨S4095x4096, y⟩, ⟨S1x4096, z⟩] concatenates_S4095x4096_S1x4096_S4096x4096_d0 (ix2 r k)
      = y (ix2 r' k) :=
  concatenate_pair_apply_left (t := S4096x4096) (s₁ := S4095x4096) (s₂ := S1x4096) (0 : Fin 2) y z
    concatenates_S4095x4096_S1x4096_S4096x4096_d0 (ix2 r k) rfl (ix2 r' k) (fun b => by
      match b with
      | ⟨0, _⟩ => exact hr
      | ⟨1, _⟩ => rfl)

/-- Rows: the last entry is the second piece's. -/
theorem caty2_right (y : S4095x4096.Idx → α) (z : S1x4096.Idx → α) (r : Fin 4096) (k : Fin 4096)
    (hr : r.val = 4095) :
    concatenate S4096x4096 0 [⟨S4095x4096, y⟩, ⟨S1x4096, z⟩] concatenates_S4095x4096_S1x4096_S4096x4096_d0 (ix2 r k)
      = z (ix2 (⟨0, by omega⟩ : Fin 1) k) :=
  concatenate_pair_apply_right (t := S4096x4096) (s₁ := S4095x4096) (s₂ := S1x4096) (0 : Fin 2) y z
    concatenates_S4095x4096_S1x4096_S4096x4096_d0 (ix2 r k) rfl rfl (ix2 (⟨0, by omega⟩ : Fin 1) k)
    (fun b hb => by
      match b with
      | ⟨0, _⟩ => exact absurd rfl hb
      | ⟨1, _⟩ => rfl)
    (by show 0 + 4095 = r.val; omega)

end Pieces2

/-! ## Forward differences with the last line appended -/

/-- Along a row: the array with its last column appended, shifted by one less itself: the next column's entry (the last
    column's own at the end) less the entry. -/
theorem diffx_apply (y : FVec Ideal S4096x4096 .f32) (r k : Fin 4096) :
    (subf
      (extractStridedSlice S4096x4096 ![0, 1]
        (concatenate S4096x4097 1 [⟨S4096x4096, y⟩, ⟨S4096x1, extractStridedSlice S4096x1 ![0, 4095] y slices_S4096x4096_S4096x1_0_4095⟩]
          concatenates_S4096x4096_S4096x1_S4096x4097_d1) slices_S4096x4097_S4096x4096_0_1)
      (extractStridedSlice S4096x4096 ![0, 0]
        (concatenate S4096x4097 1 [⟨S4096x4096, y⟩, ⟨S4096x1, extractStridedSlice S4096x1 ![0, 4095] y slices_S4096x4096_S4096x1_0_4095⟩]
          concatenates_S4096x4096_S4096x1_S4096x4097_d1) slices_S4096x4097_S4096x4096_0_0)
      : FVec Ideal S4096x4096 .f32) (ix2 r k)
      = y (ix2 r (nx k)) - y (ix2 r k) := by
  refine (subf_apply _ _ _).trans ?_
  refine congrArg₂ (· - ·) ?_ ?_
  · refine (extractStridedSlice_apply ![0, 1] _ slices_S4096x4097_S4096x4096_0_1 (ix2 r k)
      (ix2 r (⟨1 + k.val, by omega⟩ : Fin 4097)) (fun a => match a with
        | ⟨0, _⟩ => by show r.val = 0 + r.val; omega
        | ⟨1, _⟩ => by show 1 + k.val = 1 + k.val; omega)).trans ?_
    by_cases h : k.val + 1 < 4096
    · refine (catx_left y _ r _ ⟨k.val + 1, h⟩ (by show k.val + 1 = 1 + k.val; omega)).trans ?_
      rw [show nx k = ⟨k.val + 1, h⟩ from dif_pos h]
    · refine (catx_right y _ r _ (by show 1 + k.val = 4096; omega)).trans ?_
      refine (extractStridedSlice_apply ![0, 4095] y slices_S4096x4096_S4096x1_0_4095 (ix2 r (⟨0, by omega⟩ : Fin 1))
        (ix2 r k) (fun a => match a with
          | ⟨0, _⟩ => by show r.val = 0 + r.val; omega
          | ⟨1, _⟩ => by show k.val = 4095 + 0; omega)).trans ?_
      rw [show nx k = k from dif_neg h]
  · refine (extractStridedSlice_apply ![0, 0] _ slices_S4096x4097_S4096x4096_0_0 (ix2 r k)
      (ix2 r (⟨k.val, by omega⟩ : Fin 4097)) (fun a => match a with
        | ⟨0, _⟩ => by show r.val = 0 + r.val; omega
        | ⟨1, _⟩ => by show k.val = 0 + k.val; omega)).trans ?_
    exact catx_left y _ r _ k rfl

/-- Along a column: the same with the last row appended. -/
theorem diffy_apply (y : FVec Ideal S4096x4096 .f32) (r k : Fin 4096) :
    (subf
      (extractStridedSlice S4096x4096 ![1, 0]
        (concatenate S4097x4096 0 [⟨S4096x4096, y⟩, ⟨S1x4096, extractStridedSlice S1x4096 ![4095, 0] y slices_S4096x4096_S1x4096_4095_0⟩]
          concatenates_S4096x4096_S1x4096_S4097x4096_d0) slices_S4097x4096_S4096x4096_1_0)
      (extractStridedSlice S4096x4096 ![0, 0]
        (concatenate S4097x4096 0 [⟨S4096x4096, y⟩, ⟨S1x4096, extractStridedSlice S1x4096 ![4095, 0] y slices_S4096x4096_S1x4096_4095_0⟩]
          concatenates_S4096x4096_S1x4096_S4097x4096_d0) slices_S4097x4096_S4096x4096_0_0)
      : FVec Ideal S4096x4096 .f32) (ix2 r k)
      = y (ix2 (nx r) k) - y (ix2 r k) := by
  refine (subf_apply _ _ _).trans ?_
  refine congrArg₂ (· - ·) ?_ ?_
  · refine (extractStridedSlice_apply ![1, 0] _ slices_S4097x4096_S4096x4096_1_0 (ix2 r k)
      (ix2 (⟨1 + r.val, by omega⟩ : Fin 4097) k) (fun a => match a with
        | ⟨0, _⟩ => by show 1 + r.val = 1 + r.val; omega
        | ⟨1, _⟩ => by show k.val = 0 + k.val; omega)).trans ?_
    by_cases h : r.val + 1 < 4096
    · refine (caty_left y _ _ k ⟨r.val + 1, h⟩ (by show r.val + 1 = 1 + r.val; omega)).trans ?_
      rw [show nx r = ⟨r.val + 1, h⟩ from dif_pos h]
    · refine (caty_right y _ _ k (by show 1 + r.val = 4096; omega)).trans ?_
      refine (extractStridedSlice_apply ![4095, 0] y slices_S4096x4096_S1x4096_4095_0 (ix2 (⟨0, by omega⟩ : Fin 1) k)
        (ix2 r k) (fun a => match a with
          | ⟨0, _⟩ => by show r.val = 4095 + 0; omega
          | ⟨1, _⟩ => by show k.val = 0 + k.val; omega)).trans ?_
      rw [show nx r = r from dif_neg h]
  · refine (extractStridedSlice_apply ![0, 0] _ slices_S4097x4096_S4096x4096_0_0 (ix2 r k)
      (ix2 (⟨r.val, by omega⟩ : Fin 4097) k) (fun a => match a with
        | ⟨0, _⟩ => by show r.val = 0 + r.val; omega
        | ⟨1, _⟩ => by show k.val = 0 + k.val; omega)).trans ?_
    exact caty_left y _ _ k r rfl

/-! ## Differences with the last difference repeated -/

/-- Along a row, the differences proper: the next column's entry less the entry. -/
theorem dinx_apply (m : FVec Ideal S4096x4096 .f32) (r : Fin 4096) (k : Fin 4095) :
    (subf (extractStridedSlice S4096x4095 ![0, 1] m slices_S4096x4096_S4096x4095_0_1)
      (extractStridedSlice S4096x4095 ![0, 0] m slices_S4096x4096_S4096x4095_0_0) : FVec Ideal S4096x4095 .f32) (ix2 r k)
      = m (ix2 r (⟨k.val + 1, by omega⟩ : Fin 4096)) - m (ix2 r (⟨k.val, by omega⟩ : Fin 4096)) := by
  refine (subf_apply _ _ _).trans ?_
  refine congrArg₂ (· - ·) ?_ ?_
  · exact extractStridedSlice_apply ![0, 1] m slices_S4096x4096_S4096x4095_0_1 (ix2 r k) _ (fun a => match a with
      | ⟨0, _⟩ => by show r.val = 0 + r.val; omega
      | ⟨1, _⟩ => by show k.val + 1 = 1 + k.val; omega)
  · exact extractStridedSlice_apply ![0, 0] m slices_S4096x4096_S4096x4095_0_0 (ix2 r k) _ (fun a => match a with
      | ⟨0, _⟩ => by show r.val = 0 + r.val; omega
      | ⟨1, _⟩ => by show k.val = 0 + k.val; omega)

/-- Along a row, with the last difference repeated: the next column's entry less the entry, at the end the last less
    the one before it. -/
theorem dupx_apply (m : FVec Ideal S4096x4096 .f32) (r k : Fin 4096) :
    concatenate S4096x4096 1
      [⟨S4096x4095, (subf (extractStridedSlice S4096x4095 ![0, 1] m slices_S4096x4096_S4096x4095_0_1)
          (extractStridedSlice S4096x4095 ![0, 0] m slices_S4096x4096_S4096x4095_0_0) : FVec Ideal S4096x4095 .f32)⟩,
       ⟨S4096x1, extractStridedSlice S4096x1 ![0, 4094]
          (subf (extractStridedSlice S4096x4095 ![0, 1] m slices_S4096x4096_S4096x4095_0_1)
            (extractStridedSlice S4096x4095 ![0, 0] m slices_S4096x4096_S4096x4095_0_0) : FVec Ideal S4096x4095 .f32)
          slices_S4096x4095_S4096x1_0_4094⟩]
      concatenates_S4096x4095_S4096x1_S4096x4096_d1 (ix2 r k)
      = m (ix2 r (nx k)) - m (ix2 r (bk k)) := by
  by_cases h : k.val + 1 < 4096
  · refine (catx2_left _ _ r k (⟨k.val, by omega⟩ : Fin 4095) rfl).trans ?_
    refine (dinx_apply m r _).trans ?_
    rw [show nx k = ⟨k.val + 1, h⟩ from dif_pos h, show bk k = k from if_pos h]
  · have hk : k = (⟨4095, by decide⟩ : Fin 4096) := Fin.ext (by show k.val = 4095; omega)
    subst hk
    refine (catx2_right _ _ r _ rfl).trans ?_
    refine (extractStridedSlice_apply ![0, 4094] _ slices_S4096x4095_S4096x1_0_4094 (ix2 r (⟨0, by omega⟩ : Fin 1))
      (ix2 r (⟨4094, by decide⟩ : Fin 4095)) (fun a => match a with
        | ⟨0, _⟩ => by show r.val = 0 + r.val; omega
        | ⟨1, _⟩ => rfl)).trans ?_
    refine (dinx_apply m r _).trans ?_
    rw [show nx (⟨4095, by decide⟩ : Fin 4096) = ⟨4095, by decide⟩ from rfl,
      show bk (⟨4095, by decide⟩ : Fin 4096) = ⟨4094, by decide⟩ from rfl]

/-- Along a column, the differences proper. -/
theorem diny_apply (m : FVec Ideal S4096x4096 .f32) (r : Fin 4095) (k : Fin 4096) :
    (subf (extractStridedSlice S4095x4096 ![1, 0] m slices_S4096x4096_S4095x4096_1_0)
      (extractStridedSlice S4095x4096 ![0, 0] m slices_S4096x4096_S4095x4096_0_0) : FVec Ideal S4095x4096 .f32) (ix2 r k)
      = m (ix2 (⟨r.val + 1, by omega⟩ : Fin 4096) k) - m (ix2 (⟨r.val, by omega⟩ : Fin 4096) k) := by
  refine (subf_apply _ _ _).trans ?_
  refine congrArg₂ (· - ·) ?_ ?_
  · exact extractStridedSlice_apply ![1, 0] m slices_S4096x4096_S4095x4096_1_0 (ix2 r k) _ (fun a => match a with
      | ⟨0, _⟩ => by show r.val + 1 = 1 + r.val; omega
      | ⟨1, _⟩ => by show k.val = 0 + k.val; omega)
  · exact extractStridedSlice_apply ![0, 0] m slices_S4096x4096_S4095x4096_0_0 (ix2 r k) _ (fun a => match a with
      | ⟨0, _⟩ => by show r.val = 0 + r.val; omega
      | ⟨1, _⟩ => by show k.val = 0 + k.val; omega)

/-- Along a column, with the last difference repeated. -/
theorem dupy_apply (m : FVec Ideal S4096x4096 .f32) (r k : Fin 4096) :
    concatenate S4096x4096 0
      [⟨S4095x4096, (subf (extractStridedSlice S4095x4096 ![1, 0] m slices_S4096x4096_S4095x4096_1_0)
          (extractStridedSlice S4095x4096 ![0, 0] m slices_S4096x4096_S4095x4096_0_0) : FVec Ideal S4095x4096 .f32)⟩,
       ⟨S1x4096, extractStridedSlice S1x4096 ![4094, 0]
          (subf (extractStridedSlice S4095x4096 ![1, 0] m slices_S4096x4096_S4095x4096_1_0)
            (extractStridedSlice S4095x4096 ![0, 0] m slices_S4096x4096_S4095x4096_0_0) : FVec Ideal S4095x4096 .f32)
          slices_S4095x4096_S1x4096_4094_0⟩]
      concatenates_S4095x4096_S1x4096_S4096x4096_d0 (ix2 r k)
      = m (ix2 (nx r) k) - m (ix2 (bk r) k) := by
  by_cases h : r.val + 1 < 4096
  · refine (caty2_left _ _ r k (⟨r.val, by omega⟩ : Fin 4095) rfl).trans ?_
    refine (diny_apply m _ k).trans ?_
    rw [show nx r = ⟨r.val + 1, h⟩ from dif_pos h, show bk r = r from if_pos h]
  · have hr : r = (⟨4095, by decide⟩ : Fin 4096) := Fin.ext (by show r.val = 4095; omega)
    subst hr
    refine (caty2_right _ _ _ k rfl).trans ?_
    refine (extractStridedSlice_apply ![4094, 0] _ slices_S4095x4096_S1x4096_4094_0 (ix2 (⟨0, by omega⟩ : Fin 1) k)
      (ix2 (⟨4094, by decide⟩ : Fin 4095) k) (fun a => match a with
        | ⟨0, _⟩ => rfl
        | ⟨1, _⟩ => by show k.val = 0 + k.val; omega)).trans ?_
    refine (diny_apply m _ k).trans ?_
    rw [show nx (⟨4095, by decide⟩ : Fin 4096) = ⟨4095, by decide⟩ from rfl,
      show bk (⟨4095, by decide⟩ : Fin 4096) = ⟨4094, by decide⟩ from rfl]
/-! ## The stages -/

/- The three argument arrays: target, mask, source. -/
variable (x0 x1 x2 : FVec Ideal S4096x4096 .f32)

theorem v3_apply (r k : Fin 4096) :
    val_main_v3 (F := Ideal) x1 x2 (ix2 r k) = meff (Img.of x1) (Img.of x2) r k := by
  rw [val_main_v3_apply, val_main_v2_apply, val_main_v1_apply, val_main_v0_apply, val_main_cst_apply]
  exact congrArg (· * x1 (ix2 r k)) (uitofp_une_zero (x2 (ix2 r k)))

theorem v3_eq : val_main_v3 (F := Ideal) x1 x2 = arr (meff (Img.of x1) (Img.of x2)) :=
  arr_ext (v3_apply x1 x2)

theorem v4_eq : val_main_v4 (F := Ideal) x1 x2 = arr (sm (Img.of x1) (Img.of x2)) := by
  refine arr_ext fun r k => ?_
  rw [val_main_v4_apply, v3_apply]
  rfl

theorem v26_eq : val_main_v26 (F := Ideal) x1 x2 = arr (sm (Img.of x1) (Img.of x2)) := by
  refine arr_ext fun r k => ?_
  rw [val_main_v26_apply, v3_apply]
  rfl

theorem v10_eq : val_main_v10 (F := Ideal) x1 x2 = arr (gsx (Img.of x1) (Img.of x2)) := by
  refine arr_ext fun r k => ?_
  refine (diffx_apply (val_main_v4 (F := Ideal) x1 x2) r k).trans ?_
  rw [v4_eq]
  rfl

theorem v12_eq : val_main_v12 (F := Ideal) x1 x2 = arr (gsy (Img.of x1) (Img.of x2)) := by
  refine arr_ext fun r k => ?_
  refine (diffy_apply (val_main_v4 (F := Ideal) x1 x2) r k).trans ?_
  rw [v4_eq]
  rfl

theorem v6_apply (r k : Fin 4096) : val_main_v6 (F := Ideal) x0 (ix2 r k) = dxA (Img.of x0) r k :=
  diffx_apply x0 r k

theorem v8_apply (r k : Fin 4096) : val_main_v8 (F := Ideal) x0 (ix2 r k) = dyA (Img.of x0) r k :=
  diffy_apply x0 r k

theorem v15_apply (r k : Fin 4096) :
    val_main_v15 (F := Ideal) x1 x2 (ix2 r k) = gmx (Img.of x1) (Img.of x2) r k := by
  refine (dupx_apply (val_main_v3 (F := Ideal) x1 x2) r k).trans ?_
  rw [v3_eq]
  rfl

theorem v18_apply (r k : Fin 4096) :
    val_main_v18 (F := Ideal) x1 x2 (ix2 r k) = gmy (Img.of x1) (Img.of x2) r k := by
  refine (dupy_apply (val_main_v3 (F := Ideal) x1 x2) r k).trans ?_
  rw [v3_eq]
  rfl

open scoped Classical in
theorem v24_eq : val_main_v24 (F := Ideal) x0 x1 x2 = arr (gbx (Img.of x0) (Img.of x1) (Img.of x2)) := by
  refine arr_ext fun r k => ?_
  rw [val_main_v24_apply, val_main_v23_apply, val_main_v20_apply, val_main_v22_apply, v15_apply, v18_apply,
    val_main_v19_apply, val_main_cst_0_apply, val_main_v21_apply, val_main_cst_1_apply, val_main_call6_v1_apply,
    val_main_call6_v0_apply, val_main_cst_2_apply, v6_apply]
  exact select_ori_une _ _ _ (edge (Img.of x1) (Img.of x2) r k) Iff.rfl

open scoped Classical in
theorem v25_eq : val_main_v25 (F := Ideal) x0 x1 x2 = arr (gby (Img.of x0) (Img.of x1) (Img.of x2)) := by
  refine arr_ext fun r k => ?_
  rw [val_main_v25_apply, val_main_v23_apply, val_main_v20_apply, val_main_v22_apply, v15_apply, v18_apply,
    val_main_v19_apply, val_main_cst_0_apply, val_main_v21_apply, val_main_cst_1_apply, val_main_call7_v1_apply,
    val_main_call7_v0_apply, val_main_cst_3_apply, v8_apply]
  exact select_ori_une _ _ _ (edge (Img.of x1) (Img.of x2) r k) Iff.rfl

end Cert.ReferenceIdeal.RefValue

end
-- ==== Proof.Ref.RefLoss.lean ====
/-
  The reference's weights and loss at the extended reals as the specification's, and its run restated over them: every
  weakly fair execution ends with the six results at the specification's values of the three arguments.
-/
import proofs.«173863_j34935263986322_1_alg».proof.Proof.Ref.RefStages
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx
open Idealize.SL Idealize.SL.Sem

-- the three argument arrays: target, mask, source
variable (x0 x1 x2 : FVec Ideal S4096x4096 .f32)

/-- The stabiliser and the weight scale, read at any index of their broadcasts, are the specification's literals. -/
theorem v27_at (j : S4096x4096.Idx) : val_main_v27 (F := Ideal) j = eps := by
  rw [val_main_v27_apply]; rfl
theorem v31_at (j : S4096x4096.Idx) : val_main_v31 (F := Ideal) j = scale := by
  rw [val_main_v31_apply]; rfl
theorem v37_at (j : S4096x4096.Idx) : val_main_v37 (F := Ideal) j = scale := by
  rw [val_main_v37_apply]; rfl

/-- The row-direction weight at a pair of coordinates is the specification's weight cell. -/
theorem v34_at (r c : Fin 4096) :
    val_main_v34 (F := Ideal) x1 x2 (ix2 r c) = wx (Img.of x1) (Img.of x2) r c := by
  rw [val_main_v34_apply, val_main_v33_apply, val_main_v32_apply, val_main_v30_apply, val_main_v29_apply,
    val_main_v28_apply, v31_at, v27_at, v3_eq, v10_eq, v26_eq]
  rfl

/-- The column-direction weight at a pair of coordinates is the specification's weight cell. -/
theorem v40_at (r c : Fin 4096) :
    val_main_v40 (F := Ideal) x1 x2 (ix2 r c) = wy (Img.of x1) (Img.of x2) r c := by
  rw [val_main_v40_apply, val_main_v39_apply, val_main_v38_apply, val_main_v36_apply, val_main_v35_apply,
    val_main_v28_apply, v37_at, v27_at, v3_eq, v12_eq, v26_eq]
  rfl

theorem v34_eq : val_main_v34 (F := Ideal) x1 x2 = arr (wx (Img.of x1) (Img.of x2)) :=
  arr_ext (v34_at x1 x2)
theorem v40_eq : val_main_v40 (F := Ideal) x1 x2 = arr (wy (Img.of x1) (Img.of x2)) :=
  arr_ext (v40_at x1 x2)

/-- One entry's squared weighted residual, row direction. -/
theorem v44_at (r c : Fin 4096) :
    val_main_v44 (F := Ideal) x0 x1 x2 (ix2 r c)
      = sq (wx (Img.of x1) (Img.of x2) r c) (gbx (Img.of x0) (Img.of x1) (Img.of x2) r c) (gsx (Img.of x1) (Img.of x2) r c) := by
  rw [val_main_v44_apply, val_main_v43_apply, val_main_v41_apply, val_main_v42_apply, v34_eq, v24_eq, v10_eq]
  rfl

/-- One entry's squared weighted residual, column direction. -/
theorem v50_at (r c : Fin 4096) :
    val_main_v50 (F := Ideal) x0 x1 x2 (ix2 r c)
      = sq (wy (Img.of x1) (Img.of x2) r c) (gby (Img.of x0) (Img.of x1) (Img.of x2) r c) (gsy (Img.of x1) (Img.of x2) r c) := by
  rw [val_main_v50_apply, val_main_v49_apply, val_main_v47_apply, val_main_v48_apply, v40_eq, v25_eq, v12_eq]
  rfl

/-- The sum over every index, started at zero, is the double sum over the coordinates. -/
theorem v45_at (i : S_.Idx) :
    val_main_v45 (F := Ideal) x0 x1 x2 i
      = ∑ r : Fin 4096, ∑ c : Fin 4096,
          sq (wx (Img.of x1) (Img.of x2) r c) (gbx (Img.of x0) (Img.of x1) (Img.of x2) r c) (gsx (Img.of x1) (Img.of x2) r c) := by
  have h0 : val_main_cst_7 (F := Ideal) (Shape.Idx.first h_S_) = 0 := Ideal.ofBits_zero_f32
  rw [val_main_v45_apply, sum_idx2, h0, zero_add]
  exact Finset.sum_congr rfl (fun r _ => Finset.sum_congr rfl (fun c _ => v44_at x0 x1 x2 r c))

theorem v51_at (i : S_.Idx) :
    val_main_v51 (F := Ideal) x0 x1 x2 i
      = ∑ r : Fin 4096, ∑ c : Fin 4096,
          sq (wy (Img.of x1) (Img.of x2) r c) (gby (Img.of x0) (Img.of x1) (Img.of x2) r c) (gsy (Img.of x1) (Img.of x2) r c) := by
  have h0 : val_main_cst_9 (F := Ideal) (Shape.Idx.first h_S_) = 0 := Ideal.ofBits_zero_f32
  rw [val_main_v51_apply, sum_idx2, h0, zero_add]
  exact Finset.sum_congr rfl (fun r _ => Finset.sum_congr rfl (fun c _ => v50_at x0 x1 x2 r c))

theorem v53_eq : val_main_v53 (F := Ideal) x0 x1 x2
    = fun _ => lossR (wx (Img.of x1) (Img.of x2)) (wy (Img.of x1) (Img.of x2)) (gbx (Img.of x0) (Img.of x1) (Img.of x2))
        (gby (Img.of x0) (Img.of x1) (Img.of x2)) (gsx (Img.of x1) (Img.of x2)) (gsy (Img.of x1) (Img.of x2)) := by
  funext i
  rw [val_main_v53_apply, val_main_v46_apply, val_main_v52_apply, v45_at, v51_at]
  rfl

/-- The three-part result: the two weights and the zero block, joined along the columns. -/
theorem v55_eq : val_main_v55 (F := Ideal) x1 x2
    = concatenate S4096x12288 1 [⟨S4096x4096, arr (wx (Img.of x1) (Img.of x2))⟩,
        ⟨S4096x4096, arr (wy (Img.of x1) (Img.of x2))⟩,
        ⟨S4096x4096, broadcastInDim S4096x4096 ![] bcast_S_S4096x4096 (constant (F := Ideal) S_ .f32 0x00000000#32)⟩]
        concatenates_S4096x4096_S4096x4096_S4096x4096_S4096x12288_d1 := by
  unfold val_main_v55
  rw [v34_eq, v40_eq]
  rfl

/-- The reference's run with every result at the specification's value of the arguments' launch contents. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53)
          = (fun _ => lossR (wx (Img.of (m ((c.tc : Thread nD τ).loc main_arg1))) (Img.of (m ((c.tc : Thread nD τ).loc main_arg2))))
              (wy (Img.of (m ((c.tc : Thread nD τ).loc main_arg1))) (Img.of (m ((c.tc : Thread nD τ).loc main_arg2))))
              (gbx (Img.of (m ((c.tc : Thread nD τ).loc main_arg0))) (Img.of (m ((c.tc : Thread nD τ).loc main_arg1))) (Img.of (m ((c.tc : Thread nD τ).loc main_arg2))))
              (gby (Img.of (m ((c.tc : Thread nD τ).loc main_arg0))) (Img.of (m ((c.tc : Thread nD τ).loc main_arg1))) (Img.of (m ((c.tc : Thread nD τ).loc main_arg2))))
              (gsx (Img.of (m ((c.tc : Thread nD τ).loc main_arg1))) (Img.of (m ((c.tc : Thread nD τ).loc main_arg2))))
              (gsy (Img.of (m ((c.tc : Thread nD τ).loc main_arg1))) (Img.of (m ((c.tc : Thread nD τ).loc main_arg2)))))
      ∧ r.2.mem ((c.tc : Thread nD τ).loc main_v55)
          = concatenate S4096x12288 1 [⟨S4096x4096, arr (wx (Img.of (m ((c.tc : Thread nD τ).loc main_arg1))) (Img.of (m ((c.tc : Thread nD τ).loc main_arg2))))⟩,
              ⟨S4096x4096, arr (wy (Img.of (m ((c.tc : Thread nD τ).loc main_arg1))) (Img.of (m ((c.tc : Thread nD τ).loc main_arg2))))⟩,
              ⟨S4096x4096, broadcastInDim S4096x4096 ![] bcast_S_S4096x4096 (constant (F := Ideal) S_ .f32 0x00000000#32)⟩] concatenates_S4096x4096_S4096x4096_S4096x4096_S4096x12288_d1
      ∧ r.2.mem ((c.tc : Thread nD τ).loc main_v24) = arr (gbx (Img.of (m ((c.tc : Thread nD τ).loc main_arg0))) (Img.of (m ((c.tc : Thread nD τ).loc main_arg1))) (Img.of (m ((c.tc : Thread nD τ).loc main_arg2))))
      ∧ r.2.mem ((c.tc : Thread nD τ).loc main_v25) = arr (gby (Img.of (m ((c.tc : Thread nD τ).loc main_arg0))) (Img.of (m ((c.tc : Thread nD τ).loc main_arg1))) (Img.of (m ((c.tc : Thread nD τ).loc main_arg2))))
      ∧ r.2.mem ((c.tc : Thread nD τ).loc main_v10) = arr (gsx (Img.of (m ((c.tc : Thread nD τ).loc main_arg1))) (Img.of (m ((c.tc : Thread nD τ).loc main_arg2))))
      ∧ r.2.mem ((c.tc : Thread nD τ).loc main_v12) = arr (gsy (Img.of (m ((c.tc : Thread nD τ).loc main_arg1))) (Img.of (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c =>
    ⟨(h c).1.trans ((val_main_v53_eq m c).trans (v53_eq _ _ _)),
      (h c).2.1.trans ((val_main_v55_eq m c).trans (v55_eq _ _)),
      (h c).2.2.1.trans ((val_main_v24_eq _ _ _).trans (v24_eq _ _ _)),
      (h c).2.2.2.1.trans ((val_main_v25_eq _ _ _).trans (v25_eq _ _ _)),
      (h c).2.2.2.2.1.trans ((val_main_v10_eq _ _).trans (v10_eq _ _)),
      (h c).2.2.2.2.2.1.trans ((val_main_v12_eq _ _).trans (v12_eq _ _)),
      (h c).2.2.2.2.2.2.1, (h c).2.2.2.2.2.2.2.1, (h c).2.2.2.2.2.2.2.2⟩)
    (Cert.ReferenceIdeal.Value.run (F := Ideal) m ρ)

end Cert.ReferenceIdeal.RefValue

end
-- ==== Proof.SpecAlg.lean ====
/-
  The two statements of the loss agree. Every squared residual is nonnegative on the extended reals (a product of a
  number with itself), sums of nonnegative numbers regroup freely — 4096 rows as 64 blocks of 64, the two directions'
  row sums added before or after summing over the rows —, and dividing by the positive real 4096² is multiplying by its
  reciprocal, which distributes over a sum of two nonnegative numbers.
-/
import proofs.«173863_j34935263986322_1_alg».proof.Proof.Spec
import Mathlib.Data.EReal.Operations
import Mathlib.Algebra.BigOperators.Fin
import Mathlib.Data.Fintype.BigOperators
import Mathlib.Algebra.Order.BigOperators.Group.Finset

noncomputable section

open scoped BigOperators

namespace Cert.Spec

open Idealize.ShloMosaic

/-- The literal `0x4B800000` is the real 16777216 = 4096². -/
theorem count_eq : count = ((16777216 : ℝ) : EReal) := by
  unfold count
  simp [Ideal.ofBits, Ideal.ieee, -EReal.coe_mul]; norm_num

/-- A number times itself is nonnegative on the extended reals: both infinities square to `⊤`. -/
theorem mul_self_nonneg' (x : EReal) : 0 ≤ x * x := by
  induction x using EReal.rec with
  | bot => simp
  | coe r => rw [← EReal.coe_mul]; exact_mod_cast mul_self_nonneg r
  | top => simp

/-- A squared residual is nonnegative, whatever its entries (the infinities included). -/
theorem sq_nonneg (w gb gs : EReal) : 0 ≤ sq w gb gs := mul_self_nonneg' _

/-- The rows as 64 blocks of 64: block `b`, row `r` of it is row `64 b + r`. -/
def rowEquiv : Fin 64 × Fin 64 ≃ Fin 4096 where
  toFun x := row x.1 x.2
  invFun i := (⟨i.val / 64, by omega⟩, ⟨i.val % 64, by omega⟩)
  left_inv := by
    rintro ⟨b, r⟩
    ext
    · show (64 * b.val + r.val) / 64 = b.val
      omega
    · show (64 * b.val + r.val) % 64 = r.val
      omega
  right_inv := by
    intro i
    apply Fin.ext
    show 64 * (i.val / 64) + i.val % 64 = i.val
    omega

/-- A sum over the rows taken block by block. -/
theorem sum_rows (A : Fin 4096 → EReal) : ∑ b : Fin 64, ∑ r : Fin 64, A (row b r) = ∑ r : Fin 4096, A r := by
  rw [← Fintype.sum_prod_type' (fun b r => A (row b r))]
  exact Equiv.sum_comp rowEquiv A

/-- The loss taken block by block and row by row, both directions together, is the sum of the two means. -/
theorem loss_eq (WX WY GBX GBY GSX GSY : Img) : lossK WX WY GBX GBY GSX GSY = lossR WX WY GBX GBY GSX GSY := by
  unfold lossK lossR
  have hc : (16777216 : ℝ) ≠ 0 := by norm_num
  rw [count_eq, Ideal.div_coe hc, Ideal.div_coe hc, Ideal.div_coe hc]
  have hA : 0 ≤ ∑ r : Fin 4096, ∑ c : Fin 4096, sq (WX r c) (GBX r c) (GSX r c) :=
    Finset.sum_nonneg fun r _ => Finset.sum_nonneg fun c _ => sq_nonneg _ _ _
  have hB : 0 ≤ ∑ r : Fin 4096, ∑ c : Fin 4096, sq (WY r c) (GBY r c) (GSY r c) :=
    Finset.sum_nonneg fun r _ => Finset.sum_nonneg fun c _ => sq_nonneg _ _ _
  rw [← EReal.right_distrib_of_nonneg hA hB]
  congr 1
  rw [← sum_rows (fun r => ∑ c : Fin 4096, sq (WX r c) (GBX r c) (GSX r c)),
    ← sum_rows (fun r => ∑ c : Fin 4096, sq (WY r c) (GBY r c) (GSY r c)), ← Finset.sum_add_distrib]
  refine Finset.sum_congr rfl fun b _ => ?_
  rw [← Finset.sum_add_distrib]

end Cert.Spec

end
-- ==== Proof.lean ====
/-
  A weighted gradient-blend loss over 4096 × 4096 images, computed by two kernels — an elementwise one producing the two
  weights, the target's two forward differences zeroed on the effective mask's edges and the masked source's two forward
  differences, block of 32 rows by block; and a reduction accumulating the squared weighted residuals block of 64 rows by
  block into the mean — against the same computation written with whole-array operations.

  Both programs compute the specification of Proof/Spec.lean on the extended reals. Entry by entry the six array results
  are the same terms: the row-shifted copies the first kernel is handed are the forward differences' second operands,
  and the one block that holds the image's last row repeats the mask's last difference as the reference does. The two
  losses differ in arrangement only: the kernel divides one sum, taken block by block and row by row with the two
  directions' row sums added first, where the reference adds two means; every squared residual is nonnegative, so the
  sums regroup freely and the division by 4096² distributes (Proof/SpecAlg.lean).

  The frames come from one run of @main as host operations, region 0, region 1, host operations, with every buffer's
  contents followed from boundary to boundary (Proof/KI/Run.lean; the word-level program's copy is Proof/K/Run.lean);
  the reference's frame is its run with the results dropped. The idealization rewrote nothing, so `preserves` is trivial.
-/
import proofs.«173863_j34935263986322_1_alg».proof.Defs
import proofs.«173863_j34935263986322_1_alg».proof.Proof.Gen.Kernel
import proofs.«173863_j34935263986322_1_alg».proof.Proof.Gen.KernelIdeal
import proofs.«173863_j34935263986322_1_alg».proof.Proof.Gen.ReferenceIdeal
import proofs.«173863_j34935263986322_1_alg».proof.Proof.Gen.Pre_finite_inputs
import proofs.«173863_j34935263986322_1_alg».proof.Proof.K.Frame
import proofs.«173863_j34935263986322_1_alg».proof.Proof.KI.Frame
import proofs.«173863_j34935263986322_1_alg».proof.Proof.KI.KernelValue
import proofs.«173863_j34935263986322_1_alg».proof.Proof.Ref.RefLoss
import proofs.«173863_j34935263986322_1_alg».proof.Proof.SpecAlg
import Idealize.ShloMosaic.Adequacy
import Idealize.ShloMosaic.Init

noncomputable section

namespace Cert.Proof

open Idealize.ShloMosaic Idealize.SL.Sem

/-- The word-level program runs to the end with its three arguments unchanged. -/
theorem frame_k : Cert.frame_Kernel := fun m ρ _ => Cert.Kernel.Hand.frame (F := Bits) m ρ

/-- So does its reading on the extended reals. -/
theorem frame_ki : Cert.frame_KernelIdeal := fun m ρ _ => Cert.KernelIdeal.Hand.frame (F := Ideal) m ρ

/-- The reference's frame is its run with the results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- The idealization rewrote no operation. -/
theorem preserves : Cert.preserves_Kernel_KernelIdeal := trivial

/-- From memories agreeing on the three arguments both programs end with the specification's six results: the arrays
    entry by entry the same images, the two losses equal because the blockwise quotient is the sum of the two means. -/
theorem algebraic : Cert.algebraic_KernelIdeal_ReferenceIdeal := by
  intro m ρ m' ρ' _ hagree
  refine ⟨_, _, _, _, _, _, Cert.KernelIdeal.HandValue.kernel_run_spec m ρ, ?_⟩
  refine (θ_run Cert.ReferenceIdeal.defs _ _).mono (fun r h c => ?_) (Cert.ReferenceIdeal.RefValue.run_spec m' ρ')
  obtain ⟨h0, h1, h2, h3, h4, h5, ha⟩ := h c
  rw [(hagree c).1, (hagree c).2.1, (hagree c).2.2] at h0 h2 h3
  rw [(hagree c).2.1, (hagree c).2.2] at h1 h4 h5
  refine ⟨h0.trans ?_, h1.trans ?_, h2, h3, h4, h5, ha⟩
  · funext _
    exact (Cert.Spec.loss_eq _ _ _ _ _ _).symm
  · rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
